-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S8x1024x1024 : Shape := ⟨3, ![8, 1024, 1024]⟩
abbrev S8x1024 : Shape := ⟨2, ![8, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg1 : IVec S65536 32) (main_v13 : IVec S_ 1) (main_v15 : IVec S65536 1) (main_c_5 : IVec S_ 32) : IVec S_ 1 :=
  let main_v16 : IVec S65536 32 := broadcastInDim S65536 ![] bcast_S_S65536 main_c_5
  let main_v17 : IVec S65536 1 := cmpi .slt main_arg1 main_v16
  let main_v18 : IVec S65536 1 := andi main_v15 main_v17
  let main_c_6 : IVec S_ 1 := constantI S_ 1 1#1
  let main_v19 : IVec S_ 1 := (fun x v => Host.reduce IntOp.andi x v reducesTo_S65536_S_d0 h_S_) main_v18 main_c_6
  let main_v20 : IVec S_ 1 := andi main_v13 main_v19
  main_v20

def fn {F : FTy → Type} [FloatOps F] (main_arg0 : FVec F S65536x1024 .f32) (main_arg1 : IVec S65536 32) (main_arg2 : FVec F S8x1024x1024 .f32) (main_arg3 : FVec F S8x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S8x1024x1024 .f32 := Host.absf main_arg2
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024 .f32 := Host.absf main_arg3
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_c_4 : IVec S_ 32 := constantI S_ 32 0#32
  let main_v14 : IVec S65536 32 := broadcastInDim S65536 ![] bcast_S_S65536 main_c_4
  let main_v15 : IVec S65536 1 := cmpi .sge main_arg1 main_v14
  let main_c_5 : IVec S_ 32 := constantI S_ 32 8#32
  fn_part1 (F := F) main_arg1 main_v13 main_v15 main_c_5
-- ==== Kernel.lean ====
abbrev S65536x1024 : Shape := ⟨2, ![65536, 1024]⟩
abbrev S65536 : Shape := ⟨1, ![65536]⟩
abbrev S8x1024x1024 : Shape := ⟨3, ![8, 1024, 1024]⟩
abbrev S8x1024 : Shape := ⟨2, ![8, 1024]⟩
abbrev S_ : Shape := ⟨0, ![]⟩
abbrev S65536x1 : Shape := ⟨2, ![65536, 1]⟩
abbrev S8 : Shape := ⟨1, ![8]⟩
abbrev S1x8 : Shape := ⟨2, ![1, 8]⟩
abbrev S65536x8 : Shape := ⟨2, ![65536, 8]⟩
abbrev S72 : Shape := ⟨1, ![72]⟩
abbrev S72x1 : Shape := ⟨2, ![72, 1]⟩
abbrev S72x8 : Shape := ⟨2, ![72, 8]⟩
abbrev S73728 : Shape := ⟨1, ![73728]⟩
abbrev S1x1024 : Shape := ⟨2, ![1, 1024]⟩
abbrev S65537x1024 : Shape := ⟨2, ![65537, 1024]⟩
abbrev S73728x1 : Shape := ⟨2, ![73728, 1]⟩
abbrev S73728x1024 : Shape := ⟨2, ![73728, 1024]⟩
abbrev S1024x1024 : Shape := ⟨2, ![1024, 1024]⟩
abbrev S1x1024x1024 : Shape := ⟨3, ![1, 1024, 1024]⟩
abbrev S1 : Shape := ⟨1, ![1]⟩
abbrev S1024 : Shape := ⟨1, ![1024]⟩

abbrev nBuf : Space → Nat
  | .hbm => 149
  | .vmem => 7
  | .smem => 1
  | _ => 0

abbrev hbmTy0_0 (i : Nat) : BufTy := match i % 128 with
  | 0 => ⟨S65536x1024, .f32⟩
  | 1 => ⟨S65536, .i32⟩
  | 2 => ⟨S8x1024x1024, .f32⟩
  | 3 => ⟨S8x1024, .f32⟩
  | 4 => ⟨S_, .i32⟩
  | 5 => ⟨S_, .i32⟩
  | 6 => ⟨S_, .i32⟩
  | 7 => ⟨S65536, .i32⟩
  | 8 => ⟨S65536, .i32⟩
  | 9 => ⟨S_, .i32⟩
  | 10 => ⟨S65536, .i32⟩
  | 11 => ⟨S65536, .i32⟩
  | 12 => ⟨S65536, .i32⟩
  | 13 => ⟨S65536, .i32⟩
  | 14 => ⟨S65536, .i32⟩
  | 15 => ⟨S_, .i32⟩
  | 16 => ⟨S65536, .i32⟩
  | 17 => ⟨S65536, .i1⟩
  | 18 => ⟨S_, .i32⟩
  | 19 => ⟨S65536, .i32⟩
  | 20 => ⟨S65536, .i32⟩
  | 21 => ⟨S65536, .i32⟩
  | 22 => ⟨S65536x1, .i32⟩
  | 23 => ⟨S65536, .i32⟩
  | 24 => ⟨S8, .i32⟩
  | 25 => ⟨S65536x1, .i32⟩
  | 26 => ⟨S1x8, .i32⟩
  | 27 => ⟨S65536x8, .i32⟩
  | 28 => ⟨S65536x8, .i32⟩
  | 29 => ⟨S65536x8, .i1⟩
  | 30 => ⟨S65536x8, .i32⟩
  | 31 => ⟨S_, .i32⟩
  | 32 => ⟨S8, .i32⟩
  | 33 => ⟨S_, .i32⟩
  | 34 => ⟨S_, .i32⟩
  | 35 => ⟨S8, .i32⟩
  | 36 => ⟨S8, .i32⟩
  | 37 => ⟨S_, .i32⟩
  | 38 => ⟨S8, .i32⟩
  | 39 => ⟨S8, .i32⟩
  | 40 => ⟨S_, .i32⟩
  | 41 => ⟨S8, .i32⟩
  | 42 => ⟨S8, .i32⟩
  | 43 => ⟨S_, .i32⟩
  | 44 => ⟨S_, .i32⟩
  | 45 => ⟨S8, .i32⟩
  | 46 => ⟨S8, .i32⟩
  | 47 => ⟨S8, .i32⟩
  | 48 => ⟨S_, .i32⟩
  | 49 => ⟨S8, .i32⟩
  | 50 => ⟨S8, .i1⟩
  | 51 => ⟨S8, .i32⟩
  | 52 => ⟨S8, .i32⟩
  | 53 => ⟨S_, .i32⟩
  | 54 => ⟨S8, .i32⟩
  | 55 => ⟨S8, .i1⟩
  | 56 => ⟨S8, .i1⟩
  | 57 => ⟨S_, .i32⟩
  | 58 => ⟨S8, .i32⟩
  | 59 => ⟨S8, .i32⟩
  | 60 => ⟨S8, .i32⟩
  | 61 => ⟨S_, .i32⟩
  | 62 => ⟨S8, .i32⟩
  | 63 => ⟨S8, .i32⟩
  | 64 => ⟨S_, .i32⟩
  | 65 => ⟨S_, .i32⟩
  | 66 => ⟨S8, .i32⟩
  | 67 => ⟨S8, .i32⟩
  | 68 => ⟨S65536, .i32⟩
  | 69 => ⟨S_, .i32⟩
  | 70 => ⟨S65536, .i32⟩
  | 71 => ⟨S65536, .i1⟩
  | 72 => ⟨S_, .i32⟩
  | 73 => ⟨S65536, .i32⟩
  | 74 => ⟨S65536, .i32⟩
  | 75 => ⟨S65536, .i32⟩
  | 76 => ⟨S65536x1, .i32⟩
  | 77 => ⟨S65536, .i32⟩
  | 78 => ⟨S65536, .i32⟩
  | 79 => ⟨S_, .i32⟩
  | 80 => ⟨S65536, .i32⟩
  | 81 => ⟨S65536, .i1⟩
  | 82 => ⟨S_, .i32⟩
  | 83 => ⟨S65536, .i32⟩
  | 84 => ⟨S65536, .i32⟩
  | 85 => ⟨S65536, .i32⟩
  | 86 => ⟨S65536x1, .i32⟩
  | 87 => ⟨S65536, .i32⟩
  | 88 => ⟨S65536, .i32⟩
  | 89 => ⟨S_, .i32⟩
  | 90 => ⟨S65536, .i32⟩
  | 91 => ⟨S_, .i32⟩
  | 92 => ⟨S65536, .i32⟩
  | 93 => ⟨S65536, .i1⟩
  | 94 => ⟨S_, .i32⟩
  | 95 => ⟨S65536, .i32⟩
  | 96 => ⟨S65536, .i32⟩
  | 97 => ⟨S65536, .i32⟩
  | 98 => ⟨S65536x1, .i32⟩
  | 99 => ⟨S65536, .i32⟩
  | 100 => ⟨S72, .i32⟩
  | 101 => ⟨S_, .i32⟩
  | 102 => ⟨S72, .i32⟩
  | 103 => ⟨S72, .i32⟩
  | 104 => ⟨S72x1, .i32⟩
  | 105 => ⟨S1x8, .i32⟩
  | 106 => ⟨S72x8, .i32⟩
  | 107 => ⟨S72x8, .i32⟩
  | 108 => ⟨S72x8, .i1⟩
  | 109 => ⟨S72x8, .i32⟩
  | 110 => ⟨S_, .i32⟩
  | 111 => ⟨S72, .i32⟩
  | 112 => ⟨S_, .i32⟩
  | 113 => ⟨S72, .i32⟩
  | 114 => ⟨S_, .i32⟩
  | 115 => ⟨S73728, .i32⟩
  | 116 => ⟨S_, .i32⟩
  | 117 => ⟨S65536, .i32⟩
  | 118 => ⟨S65536, .i1⟩
  | 119 => ⟨S_, .i32⟩
  | 120 => ⟨S65536, .i32⟩
  | 121 => ⟨S65536, .i32⟩
  | 122 => ⟨S65536, .i32⟩
  | 123 => ⟨S65536x1, .i32⟩
  | 124 => ⟨S73728, .i32⟩
  | 125 => ⟨S65536x1024, .bf16⟩
  | 126 => ⟨S_, .bf16⟩
  | 127 => ⟨S1x1024, .bf16⟩
  | _ => ⟨S65536x1024, .f32⟩

abbrev hbmTy0_1 (i : Nat) : BufTy := match i % 128 with
  | 0 => ⟨S65537x1024, .bf16⟩
  | 1 => ⟨S_, .i32⟩
  | 2 => ⟨S73728, .i32⟩
  | 3 => ⟨S73728, .i1⟩
  | 4 => ⟨S_, .i32⟩
  | 5 => ⟨S73728, .i32⟩
  | 6 => ⟨S73728, .i32⟩
  | 7 => ⟨S73728, .i32⟩
  | 8 => ⟨S73728x1, .i32⟩
  | 9 => ⟨S73728x1024, .bf16⟩
  | 10 => ⟨S8x1024x1024, .bf16⟩
  | 11 => ⟨S73728x1024, .f32⟩
  | 12 => ⟨S_, .i32⟩
  | 13 => ⟨S65536, .i32⟩
  | 14 => ⟨S65536, .i1⟩
  | 15 => ⟨S_, .i32⟩
  | 16 => ⟨S65536, .i32⟩
  | 17 => ⟨S65536, .i32⟩
  | 18 => ⟨S65536, .i32⟩
  | 19 => ⟨S65536x1, .i32⟩
  | 20 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S8x1024, .f32⟩
  | .local _ .vmem, ⟨5, _⟩ => ⟨S1024x1024, .f32⟩
  | .local _ .vmem, ⟨6, _⟩ => ⟨S1024x1024, .f32⟩
  | .local _ .smem, ⟨0, _⟩ => ⟨S72, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1_0 : Ref sig .tc := ⟨.hbm, 13, rfl⟩
abbrev main_v1 : Ref sig .tc := ⟨.hbm, 14, rfl⟩
abbrev main_c_1 : Ref sig .tc := ⟨.hbm, 15, rfl⟩
abbrev main_v2 : Ref sig .tc := ⟨.hbm, 16, rfl⟩
abbrev main_v3 : Ref sig .tc := ⟨.hbm, 17, rfl⟩
abbrev main_c_2 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_call2_call0_c : Ref sig .tc := ⟨.hbm, 33, rfl⟩
abbrev main_call2_call0_v0 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_call3_v5 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_c : Ref sig .tc := ⟨.hbm, 53, rfl⟩
abbrev main_call3_v9 : Ref sig .tc := ⟨.hbm, 54, rfl⟩
abbrev main_call3_v10 : Ref sig .tc := ⟨.hbm, 55, rfl⟩
abbrev main_call3_v11 : Ref sig .tc := ⟨.hbm, 56, rfl⟩
abbrev main_call3_c_0 : Ref sig .tc := ⟨.hbm, 57, rfl⟩
abbrev main_call3_v12 : Ref sig .tc := ⟨.hbm, 58, rfl⟩
abbrev main_call3_v13 : Ref sig .tc := ⟨.hbm, 59, rfl⟩
abbrev main_v23 : Ref sig .tc := ⟨.hbm, 60, rfl⟩
abbrev main_c_7 : Ref sig .tc := ⟨.hbm, 61, rfl⟩
abbrev main_v24 : Ref sig .tc := ⟨.hbm, 62, rfl⟩
abbrev main_v25 : Ref sig .tc := ⟨.hbm, 63, rfl⟩
abbrev main_call4_call0_c : Ref sig .tc := ⟨.hbm, 64, rfl⟩
abbrev main_call4_call0_v0 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_c_8 : Ref sig .tc := ⟨.hbm, 69, rfl⟩
abbrev main_v29 : Ref sig .tc := ⟨.hbm, 70, rfl⟩
abbrev main_v30 : Ref sig .tc := ⟨.hbm, 71, rfl⟩
abbrev main_c_9 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_c_10 : Ref sig .tc := ⟨.hbm, 79, rfl⟩
abbrev main_v37 : Ref sig .tc := ⟨.hbm, 80, rfl⟩
abbrev main_v38 : Ref sig .tc := ⟨.hbm, 81, rfl⟩
abbrev main_c_11 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_c_12 : Ref sig .tc := ⟨.hbm, 89, rfl⟩
abbrev main_v45 : Ref sig .tc := ⟨.hbm, 90, rfl⟩
abbrev main_c_13 : Ref sig .tc := ⟨.hbm, 91, rfl⟩
abbrev main_v46 : Ref sig .tc := ⟨.hbm, 92, rfl⟩
abbrev main_v47 : Ref sig .tc := ⟨.hbm, 93, rfl⟩
abbrev main_c_14 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_c_15 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_c_16 : Ref sig .tc := ⟨.hbm, 110, rfl⟩
abbrev main_v62 : Ref sig .tc := ⟨.hbm, 111, rfl⟩
abbrev main_c_17 : Ref sig .tc := ⟨.hbm, 112, rfl⟩
abbrev main_v63 : Ref sig .tc := ⟨.hbm, 113, rfl⟩
abbrev main_c_18 : Ref sig .tc := ⟨.hbm, 114, rfl⟩
abbrev main_v65 : Ref sig .tc := ⟨.hbm, 115, rfl⟩
abbrev main_c_19 : Ref sig .tc := ⟨.hbm, 116, rfl⟩
abbrev main_v66 : Ref sig .tc := ⟨.hbm, 117, rfl⟩
abbrev main_v67 : Ref sig .tc := ⟨.hbm, 118, rfl⟩
abbrev main_c_20 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst : Ref sig .tc := ⟨.hbm, 126, rfl⟩
abbrev main_v74 : Ref sig .tc := ⟨.hbm, 127, rfl⟩
abbrev main_v75 : Ref sig .tc := ⟨.hbm, 128, rfl⟩
abbrev main_c_21 : Ref sig .tc := ⟨.hbm, 129, rfl⟩
abbrev main_v76 : Ref sig .tc := ⟨.hbm, 130, rfl⟩
abbrev main_v77 : Ref sig .tc := ⟨.hbm, 131, rfl⟩
abbrev main_c_22 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_c_23 : Ref sig .tc := ⟨.hbm, 140, rfl⟩
abbrev main_v85 : Ref sig .tc := ⟨.hbm, 141, rfl⟩
abbrev main_v86 : Ref sig .tc := ⟨.hbm, 142, rfl⟩
abbrev main_c_24 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v64 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![72], ![false]⟩

abbrev pre0 : Pipeline.Prefetch sig := ⟨1, ![main_v64.idx], fun | 0 => main_v64.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 2 → Nat :=
  let v6 : Index := Scalar.indexCast v1
  let c0_4 : Index := 0#32
  ![v6.toNat, 0]

def k0_chk1 (v1 : BitVec 32) : Prop :=
  (∀ a, (k0_off2 v1) a + S1x1024.size a ≤ S8x1024.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x1024.size a ≤ S8x1024.size a := fun v1 k0_hw1 => k0_hw1

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S8_S1x8_1 : S8.BroadcastsInDim S1x8 (![1] : Fin 1 → Fin S1x8.rank)
  bcast_S65536x1_S65536x8_0_1 : S65536x1.BroadcastsInDim S65536x8 (![0, 1] : Fin 2 → Fin S65536x8.rank)
  bcast_S1x8_S65536x8_0_1 : S1x8.BroadcastsInDim S65536x8 (![0, 1] : Fin 2 → Fin S65536x8.rank)
  natLt_1_32 : 1 < 32
  reducesTo_S65536x8_S8_d0 : S65536x8.ReducesTo [0] S8
  h_S_ : 0 < S_.numel
  bcast_S_S_ : S_.BroadcastsInDim S_ (![] : Fin 0 → Fin S_.rank)
  reduceWindows_S8_S8_w8s1p7_0 : S8.ReduceWindows (![8] : Fin 1 → Nat) ![1] ![7] ![0] S8
  bcast_S_S8 : S_.BroadcastsInDim S8 (![] : Fin 0 → Fin S8.rank)
  bcast_S_S72 : S_.BroadcastsInDim S72 (![] : Fin 0 → Fin S72.rank)
  bcast_S72_S72x1_0 : S72.BroadcastsInDim S72x1 (![0] : Fin 1 → Fin S72x1.rank)
  bcast_S72x1_S72x8_0_1 : S72x1.BroadcastsInDim S72x8 (![0, 1] : Fin 2 → Fin S72x8.rank)
  bcast_S1x8_S72x8_0_1 : S1x8.BroadcastsInDim S72x8 (![0, 1] : Fin 2 → Fin S72x8.rank)
  reducesTo_S72x8_S72_d1 : S72x8.ReducesTo [1] S72
  bcast_S_S73728 : S_.BroadcastsInDim S73728 (![] : Fin 0 → Fin S73728.rank)
  bitsLt_bf16_f32 : FTy.bits .bf16 < FTy.bits .f32
  bcast_S_S1x1024 : S_.BroadcastsInDim S1x1024 (![] : Fin 0 → Fin S1x1024.rank)
  concatenates_S65536x1024_S1x1024_S65537x1024_d0 : Shape.Concatenates [S65536x1024, S1x1024] S65537x1024 0
  bcast_S73728_S73728x1_0 : S73728.BroadcastsInDim S73728x1 (![0] : Fin 1 → Fin S73728x1.rank)
  numel1_S1 : S1.numel = 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  h_S1x1024 : 0 < S1x1024.numel
  shapeCasts_S1x1024_S1024 : S1x1024.ShapeCasts S1024
  shapeCasts_S1024_S1x1024 : S1024.ShapeCasts S1x1024
  broadcasts_S1x1024_S1024x1024 : S1x1024.Broadcasts S1024x1024
  gather_S65536_S65536x1_S65536_n_0_n_n_0_1_1_wf : GatherDims.WF S65536 S65536x1 S65536 [] [0] [] [0] [] 1 ![1]
  gather_S8_S65536x1_S65536_n_0_n_n_0_1_1_wf : GatherDims.WF S8 S65536x1 S65536 [] [0] [] [0] [] 1 ![1]
  scatter_S65536_S65536x1_S65536_n_0_0_1_wf : ScatterDims.WF S65536 S65536x1 S65536 [] [0] [0] 1
  scatter_S73728_S65536x1_S65536_n_0_0_1_wf : ScatterDims.WF S73728 S65536x1 S65536 [] [0] [0] 1
  gather_S65537x1024_S73728x1_S73728x1024_1_0_n_n_0_1_11024_wf : GatherDims.WF S65537x1024 S73728x1 S73728x1024 [1] [0] [] [0] [] 1 ![1, 1024]
  dot_S1024x1024_S1024x1024_S1024x1024_1_0_0_1_n_n_wf : DotDims.WF S1024x1024 S1024x1024 S1024x1024 [1] [0] [0] [1] [] []
  gather_S73728x1024_S65536x1_S65536x1024_1_0_n_n_0_1_11024_wf : GatherDims.WF S73728x1024 S65536x1 S65536x1024 [1] [0] [] [0] [] 1 ![1, 1024]
  hrank0 : 0 < grid0.rank
  k0_off1_inb : ∀ i : grid0.Coords, ∀ a, (k0_off1 i) a + S1.size a ≤ S72.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S73728x1024.size a
  hwx0_0 : ∀ i : grid0.Coords, EltTy.bits .bf16 = 32 ∨ (Rect.block (s := S73728x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x1024.size a
  hwx0_2 : ∀ i : grid0.Coords, EltTy.bits .f32 = 32 ∨ (Rect.block (s := S8x1024) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S73728x1024.size a
  hwx0_3 : ∀ i : grid0.Coords, EltTy.bits .f32 = 32 ∨ (Rect.block (s := S73728x1024) S1024x1024.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S65536_S65536x1_S65536_n_0_n_n_0_1_1 : GatherDims S65536 S65536x1 S65536 where
  offsetDims := []
  collapsedSliceDims := [0]
  operandBatchingDims := []
  startIndicesBatchingDims := []
  startIndexMap := [0]
  indexVectorDim := 1
  sliceSizes := ![1]
  wf := gather_S65536_S65536x1_S65536_n_0_n_n_0_1_1_wf
def gather_S8_S65536x1_S65536_n_0_n_n_0_1_1 : GatherDims S8 S65536x1 S65536 where
  offsetDims := []
  collapsedSliceDims := [0]
  operandBatchingDims := []
  startIndicesBatchingDims := []
  startIndexMap := [0]
  indexVectorDim := 1
  sliceSizes := ![1]
  wf := gather_S8_S65536x1_S65536_n_0_n_n_0_1_1_wf
def scatter_S65536_S65536x1_S65536_n_0_0_1 : ScatterDims S65536 S65536x1 S65536 where
  updateWindowDims := []
  insertedWindowDims := [0]
  scatterDimsToOperandDims := [0]
  indexVectorDim := 1
  wf := scatter_S65536_S65536x1_S65536_n_0_0_1_wf
def scatter_S73728_S65536x1_S65536_n_0_0_1 : ScatterDims S73728 S65536x1 S65536 where
  updateWindowDims := []
  insertedWindowDims := [0]
  scatterDimsToOperandDims := [0]
  indexVectorDim := 1
  wf := scatter_S73728_S65536x1_S65536_n_0_0_1_wf
def gather_S65537x1024_S73728x1_S73728x1024_1_0_n_n_0_1_11024 : GatherDims S65537x1024 S73728x1 S73728x1024 where
  offsetDims := [1]
  collapsedSliceDims := [0]
  operandBatchingDims := []
  startIndicesBatchingDims := []
  startIndexMap := [0]
  indexVectorDim := 1
  sliceSizes := ![1, 1024]
  wf := gather_S65537x1024_S73728x1_S73728x1024_1_0_n_n_0_1_11024_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def gather_S73728x1024_S65536x1_S65536x1024_1_0_n_n_0_1_11024 : GatherDims S73728x1024 S65536x1 S65536x1024 where
  offsetDims := [1]
  collapsedSliceDims := [0]
  operandBatchingDims := []
  startIndicesBatchingDims := []
  startIndexMap := [0]
  indexVectorDim := 1
  sliceSizes := ![1, 1024]
  wf := gather_S73728x1024_S65536x1_S65536x1024_1_0_n_n_0_1_11024_wf

abbrev spec0_0 : Pipeline.WinSpec sig grid0.rank :=
  Pipeline.WinSpec.ofSpec (Memref.whole main_v82) S1024x1024.size reads0_0 false false 2 stage0_0 sem0_0 nbuf0_0 hstage0_0

abbrev spec0_1 : Pipeline.WinSpec sig grid0.rank :=
  Pipeline.WinSpec.ofSpec (Memref.whole main_v83) S1x1024x1024.size reads0_1 false false 2 stage0_1 sem0_1 nbuf0_1 hstage0_1

abbrev spec0_2 : Pipeline.WinSpec sig grid0.rank :=
  Pipeline.WinSpec.ofSpec (Memref.whole main_arg3) S8x1024.size reads0_2 false true 1 stage0_2 sem0_2 nbuf0_2 hstage0_2

abbrev spec0_3 : Pipeline.WinSpec sig grid0.rank :=
  Pipeline.WinSpec.ofSpec (Memref.whole main_v84) S1024x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x1024.size a ≤ S8x1024x1024.size a), EltTy.bits .bf16 = 32 ∨ (Rect.block (s := S8x1024x1024) S1x1024x1024.size (cc0_transform_1 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S65536x1024 : Shape := ⟨2, ![65536, 1024]⟩
abbrev S65536 : Shape := ⟨1, ![65536]⟩
abbrev S8x1024x1024 : Shape := ⟨3, ![8, 1024, 1024]⟩
abbrev S8x1024 : Shape := ⟨2, ![8, 1024]⟩
abbrev S_ : Shape := ⟨0, ![]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S65536x1 : Shape := ⟨2, ![65536, 1]⟩

abbrev nBuf : Space → Nat
  | .hbm => 118
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S8x1024x1024, .f32⟩
  | .hbm, ⟨3, _⟩ => ⟨S8x1024, .f32⟩
  | .hbm, ⟨4, _⟩ => ⟨S_, .f32⟩
  | .hbm, ⟨5, _⟩ => ⟨S65536x1024, .f32⟩
  | .hbm, ⟨6, _⟩ => ⟨S1x1024x1024, .f32⟩
  | .hbm, ⟨7, _⟩ => ⟨S1024x1024, .f32⟩
  | .hbm, ⟨8, _⟩ => ⟨S65536x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S65536x1024, .f32⟩
  | .hbm, ⟨13, _⟩ => ⟨S65536x1024, .f32⟩
  | .hbm, ⟨14, _⟩ => ⟨S_, .i32⟩
  | .hbm, ⟨15, _⟩ => ⟨S65536, .i32⟩
  | .hbm, ⟨16, _⟩ => ⟨S65536, .i1⟩
  | .hbm, ⟨17, _⟩ => ⟨S65536x1, .i1⟩
  | .hbm, ⟨18, _⟩ => ⟨S65536x1024, .i1⟩
  | .hbm, ⟨19, _⟩ => ⟨S65536x1024, .f32⟩
  | .hbm, ⟨20, _⟩ => ⟨S1x1024x1024, .f32⟩
  | .hbm, ⟨21, _⟩ => ⟨S1024x1024, .f32⟩
  | .hbm, ⟨22, _⟩ => ⟨S65536x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S65536x1024, .f32⟩
  | .hbm, ⟨27, _⟩ => ⟨S65536x1024, .f32⟩
  | .hbm, ⟨28, _⟩ => ⟨S_, .i32⟩
  | .hbm, ⟨29, _⟩ => ⟨S65536, .i32⟩
  | .hbm, ⟨30, _⟩ => ⟨S65536, .i1⟩
  | .hbm, ⟨31, _⟩ => ⟨S65536x1, .i1⟩
  | .hbm, ⟨32, _⟩ => ⟨S65536x1024, .i1⟩
  | .hbm, ⟨33, _⟩ => ⟨S65536x1024, .f32⟩
  | .hbm, ⟨34, _⟩ => ⟨S1x1024x1024, .f32⟩
  | .hbm, ⟨35, _⟩ => ⟨S1024x1024, .f32⟩
  | .hbm, ⟨36, _⟩ => ⟨S65536x1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S65536x1024, .f32⟩
  | .hbm, ⟨41, _⟩ => ⟨S65536x1024, .f32⟩
  | .hbm, ⟨42, _⟩ => ⟨S_, .i32⟩
  | .hbm, ⟨43, _⟩ => ⟨S65536, .i32⟩
  | .hbm, ⟨44, _⟩ => ⟨S65536, .i1⟩
  | .hbm, ⟨45, _⟩ => ⟨S65536x1, .i1⟩
  | .hbm, ⟨46, _⟩ => ⟨S65536x1024, .i1⟩
  | .hbm, ⟨47, _⟩ => ⟨S65536x1024, .f32⟩
  | .hbm, ⟨48, _⟩ => ⟨S1x1024x1024, .f32⟩
  | .hbm, ⟨49, _⟩ => ⟨S1024x1024, .f32⟩
  | .hbm, ⟨50, _⟩ => ⟨S65536x1024, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S65536x1024, .f32⟩
  | .hbm, ⟨55, _⟩ => ⟨S65536x1024, .f32⟩
  | .hbm, ⟨56, _⟩ => ⟨S_, .i32⟩
  | .hbm, ⟨57, _⟩ => ⟨S65536, .i32⟩
  | .hbm, ⟨58, _⟩ => ⟨S65536, .i1⟩
  | .hbm, ⟨59, _⟩ => ⟨S65536x1, .i1⟩
  | .hbm, ⟨60, _⟩ => ⟨S65536x1024, .i1⟩
  | .hbm, ⟨61, _⟩ => ⟨S65536x1024, .f32⟩
  | .hbm, ⟨62, _⟩ => ⟨S1x1024x1024, .f32⟩
  | .hbm, ⟨63, _⟩ => ⟨S1024x1024, .f32⟩
  | .hbm, ⟨64, _⟩ => ⟨S65536x1024, .f32⟩
  | .hbm, ⟨65, _⟩ => ⟨S1x1024, .f32⟩
  | .hbm, ⟨66, _⟩ => ⟨S1024, .f32⟩
  | .hbm, ⟨67, _⟩ => ⟨S1x1024, .f32⟩
  | .hbm, ⟨68, _⟩ => ⟨S65536x1024, .f32⟩
  | .hbm, ⟨69, _⟩ => ⟨S65536x1024, .f32⟩
  | .hbm, ⟨70, _⟩ => ⟨S_, .i32⟩
  | .hbm, ⟨71, _⟩ => ⟨S65536, .i32⟩
  | .hbm, ⟨72, _⟩ => ⟨S65536, .i1⟩
  | .hbm, ⟨73, _⟩ => ⟨S65536x1, .i1⟩
  | .hbm, ⟨74, _⟩ => ⟨S65536x1024, .i1⟩
  | .hbm, ⟨75, _⟩ => ⟨S65536x1024, .f32⟩
  | .hbm, ⟨76, _⟩ => ⟨S1x1024x1024, .f32⟩
  | .hbm, ⟨77, _⟩ => ⟨S1024x1024, .f32⟩
  | .hbm, ⟨78, _⟩ => ⟨S65536x1024, .f32⟩
  | .hbm, ⟨79, _⟩ => ⟨S1x1024, .f32⟩
  | .hbm, ⟨80, _⟩ => ⟨S1024, .f32⟩
  | .hbm, ⟨81, _⟩ => ⟨S1x1024, .f32⟩
  | .hbm, ⟨82, _⟩ => ⟨S65536x1024, .f32⟩
  | .hbm, ⟨83, _⟩ => ⟨S65536x1024, .f32⟩
  | .hbm, ⟨84, _⟩ => ⟨S_, .i32⟩
  | .hbm, ⟨85, _⟩ => ⟨S65536, .i32⟩
  | .hbm, ⟨86, _⟩ => ⟨S65536, .i1⟩
  | .hbm, ⟨87, _⟩ => ⟨S65536x1, .i1⟩
  | .hbm, ⟨88, _⟩ => ⟨S65536x1024, .i1⟩
  | .hbm, ⟨89, _⟩ => ⟨S65536x1024, .f32⟩
  | .hbm, ⟨90, _⟩ => ⟨S1x1024x1024, .f32⟩
  | .hbm, ⟨91, _⟩ => ⟨S1024x1024, .f32⟩
  | .hbm, ⟨92, _⟩ => ⟨S65536x1024, .f32⟩
  | .hbm, ⟨93, _⟩ => ⟨S1x1024, .f32⟩
  | .hbm, ⟨94, _⟩ => ⟨S1024, .f32⟩
  | .hbm, ⟨95, _⟩ => ⟨S1x1024, .f32⟩
  | .hbm, ⟨96, _⟩ => ⟨S65536x1024, .f32⟩
  | .hbm, ⟨97, _⟩ => ⟨S65536x1024, .f32⟩
  | .hbm, ⟨98, _⟩ => ⟨S_, .i32⟩
  | .hbm, ⟨99, _⟩ => ⟨S65536, .i32⟩
  | .hbm, ⟨100, _⟩ => ⟨S65536, .i1⟩
  | .hbm, ⟨101, _⟩ => ⟨S65536x1, .i1⟩
  | .hbm, ⟨102, _⟩ => ⟨S65536x1024, .i1⟩
  | .hbm, ⟨103, _⟩ => ⟨S65536x1024, .f32⟩
  | .hbm, ⟨104, _⟩ => ⟨S1x1024x1024, .f32⟩
  | .hbm, ⟨105, _⟩ => ⟨S1024x1024, .f32⟩
  | .hbm, ⟨106, _⟩ => ⟨S65536x1024, .f32⟩
  | .hbm, ⟨107, _⟩ => ⟨S1x1024, .f32⟩
  | .hbm, ⟨108, _⟩ => ⟨S1024, .f32⟩
  | .hbm, ⟨109, _⟩ => ⟨S1x1024, .f32⟩
  | .hbm, ⟨110, _⟩ => ⟨S65536x1024, .f32⟩
  | .hbm, ⟨111, _⟩ => ⟨S65536x1024, .f32⟩
  | .hbm, ⟨112, _⟩ => ⟨S_, .i32⟩
  | .hbm, ⟨113, _⟩ => ⟨S65536, .i32⟩
  | .hbm, ⟨114, _⟩ => ⟨S65536, .i1⟩
  | .hbm, ⟨115, _⟩ => ⟨S65536x1, .i1⟩
  | .hbm, ⟨116, _⟩ => ⟨S65536x1024, .i1⟩
  | .hbm, ⟨117, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call1_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call2_v0 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_2 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call3_v0 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_3 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_call4_v0 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_c_4 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_call5_v0 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_c_5 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_call6_v0 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_c_6 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_call7_v0 : Ref sig .tc := ⟨.hbm, 116, rfl⟩
abbrev main_v96 : Ref sig .tc := ⟨.hbm, 117, rfl⟩

abbrev nD : Nat := 1
abbrev τ : Topo := Topo.v7x

variable {F : FTy → Type} [FloatOps F]

class Facts₀ : Prop where
  bcast_S_S65536x1024 : S_.BroadcastsInDim S65536x1024 (![] : Fin 0 → Fin S65536x1024.rank)
  slices_S8x1024x1024_S1x1024x1024_0_0_0 : S8x1024x1024.Slices ![0, 0, 0] S1x1024x1024
  shapeCasts_S1x1024x1024_S1024x1024 : S1x1024x1024.ShapeCasts S1024x1024
  slices_S8x1024_S1x1024_0_0 : S8x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x1024_0_1 : S65536x1.BroadcastsInDim S65536x1024 (![0, 1] : Fin 2 → Fin S65536x1024.rank)
  slices_S8x1024x1024_S1x1024x1024_1_0_0 : S8x1024x1024.Slices ![1, 0, 0] S1x1024x1024
  slices_S8x1024_S1x1024_1_0 : S8x1024.Slices ![1, 0] S1x1024
  slices_S8x1024x1024_S1x1024x1024_2_0_0 : S8x1024x1024.Slices ![2, 0, 0] S1x1024x1024
  slices_S8x1024_S1x1024_2_0 : S8x1024.Slices ![2, 0] S1x1024
  slices_S8x1024x1024_S1x1024x1024_3_0_0 : S8x1024x1024.Slices ![3, 0, 0] S1x1024x1024
  slices_S8x1024_S1x1024_3_0 : S8x1024.Slices ![3, 0] S1x1024
  slices_S8x1024x1024_S1x1024x1024_4_0_0 : S8x1024x1024.Slices ![4, 0, 0] S1x1024x1024
  slices_S8x1024_S1x1024_4_0 : S8x1024.Slices ![4, 0] S1x1024
  slices_S8x1024x1024_S1x1024x1024_5_0_0 : S8x1024x1024.Slices ![5, 0, 0] S1x1024x1024
  slices_S8x1024_S1x1024_5_0 : S8x1024.Slices ![5, 0] S1x1024
  slices_S8x1024x1024_S1x1024x1024_6_0_0 : S8x1024x1024.Slices ![6, 0, 0] S1x1024x1024
  slices_S8x1024_S1x1024_6_0 : S8x1024.Slices ![6, 0] S1x1024
  slices_S8x1024x1024_S1x1024x1024_7_0_0 : S8x1024x1024.Slices ![7, 0, 0] S1x1024x1024
  slices_S8x1024_S1x1024_7_0 : S8x1024.Slices ![7, 0] S1x1024
  dot_S65536x1024_S1024x1024_S65536x1024_1_0_0_1_n_n_wf : DotDims.WF S65536x1024 S1024x1024 S65536x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf

class Facts : Prop extends Facts₀ where

variable [Facts]
-- ==== Proof.LibCountCap.lean ====
/-
  A count capped at 7. Summing the widened bits of an [n × m] mask along its columns gives, per row, the number of set
  bits, a natural number at most `m`; its signed minimum with 7 is therefore a word in [0, 7] — whatever the mask.
-/
import Idealize.ShloMosaic.Lib.StableHlo.Predicate

namespace Cert.Lib.CountCap

open Idealize.ShloMosaic Idealize.ShloMosaic.StableHlo.Predicate

/-- The row-wise count of an [n × m] mask (m below 2^31), capped from above by a constant array of sevens, is below 8
    at every row. -/
theorem minsi7_count_lt {n m : ℕ} (hm : m < 2 ^ 31) (mask : IVec ⟨2, ![n, m]⟩ 1) (hw : 1 < 32)
    (h : (⟨2, ![n, m]⟩ : Shape).ReducesTo [1] ⟨1, ![n]⟩) {u : Shape} (hu : 0 < u.numel)
    (cap : IVec ⟨1, ![n]⟩ 32) (hcap : ∀ j, cap j = 7#32) (j : (⟨1, ![n]⟩ : Shape).Idx) :
    (minsi (Host.reduce IntOp.addi (extui 32 mask hw) (constantI u 32 0#32) h hu) cap j).toNat < 8 := by
  -- the reduce at row j is the number of set bits in that row, at most m
  have hle : (Host.reduce IntOp.addi (extui 32 mask hw) (constantI u 32 0#32) h hu j).toNat ≤ m := by
    rw [toNat_reduce_count_cols (by omega : m < 2 ^ 32) mask hw h hu j]
    exact (Finset.card_filter_le _ _).trans (le_of_eq (by rw [Finset.card_univ, Fintype.card_fin]))
  show (IntOp.minsi (Host.reduce IntOp.addi (extui 32 mask hw) (constantI u 32 0#32) h hu j) (cap j)).toNat < 8
  rw [hcap]
  generalize Host.reduce IntOp.addi (extui 32 mask hw) (constantI u 32 0#32) h hu j = c at hle ⊢
  have h7 : (7#32 : BitVec 32).toNat = 7 := by decide
  unfold IntOp.minsi
  split
  · -- the count is a non-negative word, so "signed below 7" is "below 7" on its value
    rename_i hs
    have hc := (slt_bool_iff_toNat (a := c) (b := 7#32) (by omega) (by omega)).1 (by rw [hs]; rfl)
    omega
  · -- otherwise the cap itself, 7
    omega

end Cert.Lib.CountCap
-- ==== Proof.TableOk.lean ====
/-
  The tile labels are module numbers, whatever the ids. The table the grouped matrix product reads per tile is a count
  of eight comparisons capped at 7, so every word of it lies in [0, 7]. That is what the pipeline asks of the table
  (the weight block it selects lies inside the stack of eight matrices and is made of whole words) and what the body
  assumes of the word it reads (the bias row it selects lies inside the table of eight rows).
-/
import proofs.«424534_j25864293056980_3_alg».proof.Proof.Gen.KernelIdeal.Frame.Runs
import proofs.«424534_j25864293056980_3_alg».proof.Proof.LibCountCap
import Idealize.ShloMosaic.Lib.StableHlo.Run
import Idealize.ShloMosaic.Lib.Affine

set_option maxRecDepth 16384

noncomputable section

namespace Cert.KernelIdeal.TableOk

open Idealize.ShloMosaic Idealize.ShloMosaic.TcCoe Idealize.SL.Sem Idealize.ShloMosaic.StableHlo
open Cert.KernelIdeal Cert.KernelIdeal.Gen Cert.KernelIdeal.Facts

variable {F : FTy → Type} [FloatOps F]
variable (m : (ℓ : Loc nD τ sig) → Buf (Elt F) ℓ)

/-- The tile labels from the padded inclusive running sums: per tile, how many of the eight sums lie at or before the
    tile's first slot, capped at 7. -/
def eidOf (pc : IVec S8 32) : IVec S72 32 :=
  minsi
    (Host.reduce IntOp.addi
      (extui 32 (cmpi .sge
        (broadcastInDim S72x8 ![0, 1] bcast_S72x1_S72x8_0_1 (broadcastInDim S72x1 ![0] bcast_S72_S72x1_0
          (muli (iotaInDim S72 32 0) (broadcastInDim S72 ![] bcast_S_S72 (constantI S_ 32 1024#32)))))
        (broadcastInDim S72x8 ![0, 1] bcast_S1x8_S72x8_0_1 (broadcastInDim S1x8 ![1] bcast_S8_S1x8_1 pc)))
        natLt_1_32)
      (constantI S_ 32 0#32) reducesTo_S72x8_S72_d1 h_S_)
    (broadcastInDim S72 ![] bcast_S_S72 (constantI S_ 32 7#32))

set_option maxHeartbeats 8000000 in
/-- The table, as the region finds it, is `eidOf` of the padded running sums as the region finds them. -/
theorem table_eq (c : Dev nD) : (V m c main_v64 : IVec S72 32) = eidOf (V m c main_v26 : IVec S8 32) := by
  dsimp only [V, V0]
  simp only [hostOps0, hostOps0_1, hostOps0_2, hostOps0_3, hostOps0_4, hostOps0_5, hostOps0_6, hostOps0_7,
    hostOps0_8, hostOps0_9, List.flatten_cons, List.flatten_nil, List.append_nil, List.cons_append, List.nil_append]
  after_results_simp <;> (try simp only [TRef.ofBuf, TRef.toBuf, cast_eq]) <;> rfl

/-- Every tile label is below 8. -/
theorem eidOf_lt (pc : IVec S8 32) (j : S72.Idx) : (eidOf pc j).toNat < 8 :=
  Cert.Lib.CountCap.minsi7_count_lt (by decide) _ natLt_1_32 reducesTo_S72x8_S72_d1 h_S_ _ (fun _ => rfl) j

/-- Every word of the prefetched table is below 8. -/
theorem tbl_lt (j : S72.Idx) : ((tbl m 0 : IVec S72 32) j).toNat < 8 := by
  have e : (tbl m 0 : IVec S72 32) = eidOf (V m 0 main_v26 : IVec S8 32) := table_eq m 0
  rw [e]
  exact eidOf_lt _ j

/-- The pipeline's side condition on the table: the weight block a tile selects lies inside the stack of matrices, and
    a whole [1024 × 1024] matrix of packed pairs is made of whole words. -/
theorem ok : Ok m := by
  intro i
  have hw : (cc0_transform_1 k0_off1_inb numel1_S1 (tbl m) i 0) < 8 := tbl_lt m _
  refine ⟨fun a => ?_, Or.inr (Affine.block_words_dvd (by decide) (by decide))⟩
  match a with
  | ⟨0, _⟩ => show (cc0_transform_1 k0_off1_inb numel1_S1 (tbl m) i 0 + 1) * 1 ≤ 8; omega
  | ⟨1, _⟩ => show (0 + 1) * 1024 ≤ 1024; omega
  | ⟨2, _⟩ => show (0 + 1) * 1024 ≤ 1024; omega

/-- What the body assumes of the word it reads: it names one of the eight bias rows. -/
theorem hyps (hO : Ok m) : Hyps m hO := by
  intro c t
  have hw : (tbM0_0.view.readAt (Elt F) (Rect.unit (s := S72) (k0_off1 (grid0.coords t)) S1.size (k0_off1_inb (grid0.coords t))).toLoadRect (tbl m 0) (Shape.Idx.first (numel1_S1.symm ▸ Nat.one_pos))).toNat < 8 :=
    tbl_lt m _
  intro a
  match a with
  | ⟨0, _⟩ => show (Scalar.indexCast _).toNat + 1 ≤ 8; exact hw
  | ⟨1, _⟩ => show 0 + 1024 ≤ 1024; omega

end Cert.KernelIdeal.TableOk

end
-- ==== Proof.TableOkKernel.lean ====
/-
  The tile labels are module numbers, whatever the ids. The table the grouped matrix product reads per tile is a count
  of eight comparisons capped at 7, so every word of it lies in [0, 7]. That is what the pipeline asks of the table
  (the weight block it selects lies inside the stack of eight matrices and is made of whole words) and what the body
  assumes of the word it reads (the bias row it selects lies inside the table of eight rows).
-/
import proofs.«424534_j25864293056980_3_alg».proof.Proof.Gen.Kernel.Frame.Runs
import proofs.«424534_j25864293056980_3_alg».proof.Proof.LibCountCap
import Idealize.ShloMosaic.Lib.StableHlo.Run
import Idealize.ShloMosaic.Lib.Affine

set_option maxRecDepth 16384

noncomputable section

namespace Cert.Kernel.TableOk

open Idealize.ShloMosaic Idealize.ShloMosaic.TcCoe Idealize.SL.Sem Idealize.ShloMosaic.StableHlo
open Cert.Kernel Cert.Kernel.Gen Cert.Kernel.Facts

variable {F : FTy → Type} [FloatOps F]
variable (m : (ℓ : Loc nD τ sig) → Buf (Elt F) ℓ)

/-- The tile labels from the padded inclusive running sums: per tile, how many of the eight sums lie at or before the
    tile's first slot, capped at 7. -/
def eidOf (pc : IVec S8 32) : IVec S72 32 :=
  minsi
    (Host.reduce IntOp.addi
      (extui 32 (cmpi .sge
        (broadcastInDim S72x8 ![0, 1] bcast_S72x1_S72x8_0_1 (broadcastInDim S72x1 ![0] bcast_S72_S72x1_0
          (muli (iotaInDim S72 32 0) (broadcastInDim S72 ![] bcast_S_S72 (constantI S_ 32 1024#32)))))
        (broadcastInDim S72x8 ![0, 1] bcast_S1x8_S72x8_0_1 (broadcastInDim S1x8 ![1] bcast_S8_S1x8_1 pc)))
        natLt_1_32)
      (constantI S_ 32 0#32) reducesTo_S72x8_S72_d1 h_S_)
    (broadcastInDim S72 ![] bcast_S_S72 (constantI S_ 32 7#32))

set_option maxHeartbeats 8000000 in
/-- The table, as the region finds it, is `eidOf` of the padded running sums as the region finds them. -/
theorem table_eq (c : Dev nD) : (V m c main_v64 : IVec S72 32) = eidOf (V m c main_v26 : IVec S8 32) := by
  dsimp only [V, V0]
  simp only [hostOps0, hostOps0_1, hostOps0_2, hostOps0_3, hostOps0_4, hostOps0_5, hostOps0_6, hostOps0_7,
    hostOps0_8, hostOps0_9, List.flatten_cons, List.flatten_nil, List.append_nil, List.cons_append, List.nil_append]
  after_results_simp <;> (try simp only [TRef.ofBuf, TRef.toBuf, cast_eq]) <;> rfl

/-- Every tile label is below 8. -/
theorem eidOf_lt (pc : IVec S8 32) (j : S72.Idx) : (eidOf pc j).toNat < 8 :=
  Cert.Lib.CountCap.minsi7_count_lt (by decide) _ natLt_1_32 reducesTo_S72x8_S72_d1 h_S_ _ (fun _ => rfl) j

/-- Every word of the prefetched table is below 8. -/
theorem tbl_lt (j : S72.Idx) : ((tbl m 0 : IVec S72 32) j).toNat < 8 := by
  have e : (tbl m 0 : IVec S72 32) = eidOf (V m 0 main_v26 : IVec S8 32) := table_eq m 0
  rw [e]
  exact eidOf_lt _ j

/-- The pipeline's side condition on the table: the weight block a tile selects lies inside the stack of matrices, and
    a whole [1024 × 1024] matrix of packed pairs is made of whole words. -/
theorem ok : Ok m := by
  intro i
  have hw : (cc0_transform_1 k0_off1_inb numel1_S1 (tbl m) i 0) < 8 := tbl_lt m _
  refine ⟨fun a => ?_, Or.inr (Affine.block_words_dvd (by decide) (by decide))⟩
  match a with
  | ⟨0, _⟩ => show (cc0_transform_1 k0_off1_inb numel1_S1 (tbl m) i 0 + 1) * 1 ≤ 8; omega
  | ⟨1, _⟩ => show (0 + 1) * 1024 ≤ 1024; omega
  | ⟨2, _⟩ => show (0 + 1) * 1024 ≤ 1024; omega

/-- What the body assumes of the word it reads: it names one of the eight bias rows. -/
theorem hyps (hO : Ok m) : Hyps m hO := by
  intro c t
  have hw : (tbM0_0.view.readAt (Elt F) (Rect.unit (s := S72) (k0_off1 (grid0.coords t)) S1.size (k0_off1_inb (grid0.coords t))).toLoadRect (tbl m 0) (Shape.Idx.first (numel1_S1.symm ▸ Nat.one_pos))).toNat < 8 :=
    tbl_lt m _
  intro a
  match a with
  | ⟨0, _⟩ => show (Scalar.indexCast _).toNat + 1 ≤ 8; exact hw
  | ⟨1, _⟩ => show 0 + 1024 ≤ 1024; omega

end Cert.Kernel.TableOk

end
-- ==== Proof.PreRange.lean ====
/-
  What the precondition says of the ids. The precondition is a conjunction of four "all entries" tests; the last one
  tests every id for `0 ≤ id` and `id < 8` as signed words. Where the whole conjunction is true every id, read as a
  natural number, is below 8.
-/
import proofs.«424534_j25864293056980_3_alg».proof.Pre_finite_inputs
import Idealize.ShloMosaic.Lib.ReduceAll
import Idealize.ShloMosaic.Lib.SortFacts
import Idealize.ShloMosaic.Lib.StableHlo.Predicate

noncomputable section

namespace Cert.Pre_finite_inputs.Range

open Idealize.ShloMosaic Cert.Pre_finite_inputs

/-- A rank-0 shape has exactly one index. -/
instance : Subsingleton S_.Idx := ⟨fun a b => funext fun d => d.elim0⟩

/-- A word that is at least 0 and below 8 as a signed number is below 8 as a natural number. -/
theorem toNat_lt_eight (w : BitVec 32) (h0 : IntOp.cmpi .sge w 0#32 = 1#1) (h8 : IntOp.cmpi .slt w 8#32 = 1#1) :
    w.toNat < 8 := by
  rw [IntOp.cmpi_sge] at h0
  rw [IntOp.cmpi_slt] at h8
  have z0 : (0#32 : BitVec 32).toInt = 0 := by decide
  have z8 : (8#32 : BitVec 32).toInt = 8 := by decide
  rw [z0] at h0
  rw [z8] at h8
  have hlt := w.isLt
  rw [BitVec.toInt_eq_toNat_cond] at h0 h8
  by_cases hc : 2 * w.toNat < 2 ^ 32
  · -- the sign bit is clear: the signed value is the natural number
    rw [if_pos hc] at h8
    omega
  · -- the sign bit is set: the signed value is negative, against 0 ≤ w
    rw [if_neg hc] at h0
    omega

/-- Under the precondition every id is one of the eight modules. -/
theorem mid_lt {F : FTy → Type} [FloatOps F] [Cert.Pre_finite_inputs.Facts]
    (x0 : FVec F S65536x1024 .f32) (x1 : IVec S65536 32) (x2 : FVec F S8x1024x1024 .f32) (x3 : FVec F S8x1024 .f32)
    (h : Cert.Pre_finite_inputs.fn (F := F) x0 x1 x2 x3 = fun _ => 1#1) (i : Fin 65536) :
    (x1 (Shape.Idx.ofFin i)).toNat < 8 := by
  -- the precondition at its one index, as the conjunction it is
  have h1 : fn (F := F) x0 x1 x2 x3 (Shape.Idx.first Facts.h_S_) = 1#1 := congrFun h _
  dsimp only [fn, fn_part1] at h1
  -- its last conjunct is the "all ids in range" test
  obtain ⟨-, h19⟩ := IntOp.andi_eq_one.1 h1
  -- an "all" that is true is true of every entry
  have hall := Host.reduce_andi_all _ _ _ _ _ h19 (Shape.Idx.ofFin i)
  -- the entry's test: 0 ≤ id and id < 8, signed
  obtain ⟨h0, h8⟩ := IntOp.andi_eq_one.1 hall
  exact toNat_lt_eight (x1 (Shape.Idx.ofFin i)) h0 h8

end Cert.Pre_finite_inputs.Range

end
-- ==== Proof.Stages.lean ====
/-
  The routing tables of the grouped implementation as functions of the module ids, stage by stage, each the
  program's own host operations:
    ids   the ids clamped into [0, 7];
    ord   the stable sorting permutation of the rows by id (position k of the sorted order holds row ord k);
    sid   the ids in sorted order;
    sz    the number of rows per module; cs / off its inclusive / exclusive running sums;
    psz   each count rounded up to a multiple of the tile of 1024 rows; pcs / poff its running sums;
    ppos  the padded slot of sorted position k: the module's padded start plus the rank inside the module;
    dest  the slot of row i (ppos scattered back through ord);
    eid   per tile of 1024 slots, the number of padded running sums at or before the tile's start, capped at 7;
    src   per slot the row it holds (ord scattered through ppos), 65536 for an empty slot;
  and the gathered, narrowed features `xin` and the narrowed weights `wbf`.
-/
import proofs.«424534_j25864293056980_3_alg».proof.Proof.Gen.KernelIdeal

noncomputable section

namespace Cert.KernelIdeal.Stages

open Idealize.ShloMosaic Cert.KernelIdeal Cert.KernelIdeal.Gen Cert.KernelIdeal.Facts

variable {F : FTy → Type} [FloatOps F]

/-- The wrap of a negative index over a rank-1 array of `n` positions: `x < 0 ? x + n : x`. -/
def wrap65536 (n : BitVec 32) (x : IVec S65536 32) : IVec S65536 32 :=
  select (cmpi .slt x (broadcastInDim S65536 ![] bcast_S_S65536 (constantI S_ 32 0#32)))
    (addi x (broadcastInDim S65536 ![] bcast_S_S65536 (constantI S_ 32 n))) x

def wrap73728 (n : BitVec 32) (x : IVec S73728 32) : IVec S73728 32 :=
  select (cmpi .slt x (broadcastInDim S73728 ![] bcast_S_S73728 (constantI S_ 32 0#32)))
    (addi x (broadcastInDim S73728 ![] bcast_S_S73728 (constantI S_ 32 n))) x

def col65536 (x : IVec S65536 32) : IVec S65536x1 32 := broadcastInDim S65536x1 ![0] bcast_S65536_S65536x1_0 x
def col73728 (x : IVec S73728 32) : IVec S73728x1 32 := broadcastInDim S73728x1 ![0] bcast_S73728_S73728x1_0 x

def ids (mid : IVec S65536 32) : IVec S65536 32 :=
  minsi (broadcastInDim S65536 ![] bcast_S_S65536 (id (constantI S_ 32 7#32)))
    (maxsi (broadcastInDim S65536 ![] bcast_S_S65536 (id (constantI S_ 32 0#32))) mid)

def ord (mid : IVec S65536 32) : IVec S65536 32 :=
  (Host.sort2 S65536 0 comparator_i32_i32_d0 (ids mid) (iotaInDim S65536 32 0)).2

def sid (mid : IVec S65536 32) : IVec S65536 32 :=
  Host.gather gather_S65536_S65536x1_S65536_n_0_n_n_0_1_1 (ids mid) (col65536 (wrap65536 65536#32 (ord mid)))

def sz (mid : IVec S65536 32) : IVec S8 32 :=
  Host.reduce IntOp.addi
    (extui 32 (cmpi .eq
      (broadcastInDim S65536x8 ![0, 1] bcast_S65536x1_S65536x8_0_1 (col65536 (ids mid)))
      (broadcastInDim S65536x8 ![0, 1] bcast_S1x8_S65536x8_0_1 (broadcastInDim S1x8 ![1] bcast_S8_S1x8_1 (iotaInDim S8 32 0))))
      natLt_1_32)
    (constantI S_ 32 0#32) reducesTo_S65536x8_S8_d0 h_S_

/-- The inclusive running sum over the eight modules. -/
def cumsum8 (x : IVec S8 32) : IVec S8 32 :=
  Host.reduceWindow IntOp.addi ![8] ![1] ![7] ![0] x (broadcastInDim S_ ![] bcast_S_S_ (constantI S_ 32 0#32))
    reduceWindows_S8_S8_w8s1p7_0 h_S_

def cs (mid : IVec S65536 32) : IVec S8 32 := cumsum8 (sz mid)
def off (mid : IVec S65536 32) : IVec S8 32 := subi (cs mid) (sz mid)

/-- Floor division of eight words by 1024, spelled through truncating division. -/
def floorDiv1024 (a : IVec S8 32) : IVec S8 32 :=
  let d : IVec S_ 32 := id (constantI S_ 32 1024#32)
  let q : IVec S8 32 := Host.divsi a (broadcastInDim S8 ![] bcast_S_S8 d)
  select
    (andi (cmpi .ne (signi a) (broadcastInDim S8 ![] bcast_S_S8 (signi d)))
      (cmpi .ne (Host.remsi a (broadcastInDim S8 ![] bcast_S_S8 d)) (broadcastInDim S8 ![] bcast_S_S8 (constantI S_ 32 0#32))))
    (subi q (broadcastInDim S8 ![] bcast_S_S8 (constantI S_ 32 1#32))) q

def psz (mid : IVec S65536 32) : IVec S8 32 :=
  muli (floorDiv1024 (subi (addi (sz mid) (broadcastInDim S8 ![] bcast_S_S8 (constantI S_ 32 1024#32)))
      (broadcastInDim S8 ![] bcast_S_S8 (constantI S_ 32 1#32))))
    (broadcastInDim S8 ![] bcast_S_S8 (constantI S_ 32 1024#32))

def pcs (mid : IVec S65536 32) : IVec S8 32 := cumsum8 (psz mid)
def poff (mid : IVec S65536 32) : IVec S8 32 := subi (pcs mid) (psz mid)

/-- An eight-entry table read at the sorted ids. -/
def atSid (tab : IVec S8 32) (mid : IVec S65536 32) : IVec S65536 32 :=
  Host.gather gather_S8_S65536x1_S65536_n_0_n_n_0_1_1 tab (col65536 (wrap65536 8#32 (sid mid)))

def ppos (mid : IVec S65536 32) : IVec S65536 32 :=
  addi (atSid (poff mid) mid) (subi (iotaInDim S65536 32 0) (atSid (off mid) mid))

def dest (mid : IVec S65536 32) : IVec S65536 32 :=
  Host.scatter scatter_S65536_S65536x1_S65536_n_0_0_1 (fun _ b => b)
    (broadcastInDim S65536 ![] bcast_S_S65536 (constantI S_ 32 0#32)) (col65536 (wrap65536 65536#32 (ord mid))) (ppos mid)

/-- The tile labels from the padded inclusive running sums. -/
def eidOf (pc : IVec S8 32) : IVec S72 32 :=
  minsi
    (Host.reduce IntOp.addi
      (extui 32 (cmpi .sge
        (broadcastInDim S72x8 ![0, 1] bcast_S72x1_S72x8_0_1 (broadcastInDim S72x1 ![0] bcast_S72_S72x1_0
          (muli (iotaInDim S72 32 0) (broadcastInDim S72 ![] bcast_S_S72 (constantI S_ 32 1024#32)))))
        (broadcastInDim S72x8 ![0, 1] bcast_S1x8_S72x8_0_1 (broadcastInDim S1x8 ![1] bcast_S8_S1x8_1 pc)))
        natLt_1_32)
      (constantI S_ 32 0#32) reducesTo_S72x8_S72_d1 h_S_)
    (broadcastInDim S72 ![] bcast_S_S72 (constantI S_ 32 7#32))

def eid (mid : IVec S65536 32) : IVec S72 32 := eidOf (pcs mid)

def src (mid : IVec S65536 32) : IVec S73728 32 :=
  Host.scatter scatter_S73728_S65536x1_S65536_n_0_0_1 (fun _ b => b)
    (broadcastInDim S73728 ![] bcast_S_S73728 (constantI S_ 32 65536#32)) (col65536 (wrap65536 73728#32 (ppos mid))) (ord mid)

/-- The features narrowed, a zero row appended, gathered by the slots' back-pointers. -/
def xin (x : FVec F S65536x1024 .f32) (mid : IVec S65536 32) : FVec F S73728x1024 .bf16 :=
  Host.gather gather_S65537x1024_S73728x1_S73728x1024_1_0_n_n_0_1_11024
    (concatenate S65537x1024 0
      [⟨S65536x1024, truncf .bf16 x bitsLt_bf16_f32⟩, ⟨S1x1024, broadcastInDim S1x1024 ![] bcast_S_S1x1024 (constant S_ .bf16 0x0000#16)⟩]
      concatenates_S65536x1024_S1x1024_S65537x1024_d0)
    (col73728 (wrap73728 65537#32 (src mid)))

def wbf (W : FVec F S8x1024x1024 .f32) : FVec F S8x1024x1024 .bf16 := truncf .bf16 W bitsLt_bf16_f32

end Cert.KernelIdeal.Stages

end
-- ==== Proof.HostStagesA.lean ====
/-
  The buffers of the first host stretches, each as its own operations of the buffers before it: the clamped ids,
  the sorted order, the ids in sorted order, the per-module counts.
-/
import proofs.«424534_j25864293056980_3_alg».proof.Proof.Gen.KernelIdeal.Frame.Runs
import proofs.«424534_j25864293056980_3_alg».proof.Proof.Stages
import Idealize.ShloMosaic.Lib.StableHlo.Run

set_option maxRecDepth 16384

noncomputable section

namespace Cert.KernelIdeal.HostStagesA

open Idealize.ShloMosaic Idealize.ShloMosaic.TcCoe Idealize.SL.Sem Idealize.ShloMosaic.StableHlo
open Cert.KernelIdeal Cert.KernelIdeal.Gen Cert.KernelIdeal.Facts Cert.KernelIdeal.Stages

variable {F : FTy → Type} [FloatOps F]
variable (m : (ℓ : Loc nD τ sig) → Buf (Elt F) ℓ)

/-- Reads a buffer after the host operations before the region: every operation's result at its own buffer, one pass. -/
local macro "host_read" : tactic =>
  `(tactic| (dsimp only [V, V0]
             simp only [hostOps0, hostOps0_1, hostOps0_2, hostOps0_3, hostOps0_4, hostOps0_5, hostOps0_6, hostOps0_7,
               hostOps0_8, hostOps0_9, List.flatten_cons, List.flatten_nil, List.append_nil, List.cons_append, List.nil_append]
             after_results_simp <;> (try simp only [TRef.ofBuf, TRef.toBuf, cast_eq]) <;> rfl))

set_option maxHeartbeats 4000000 in
theorem s0 (c : Dev nD) : (V m c main_v0 : IVec S65536 32) = Stages.ids (V m c main_arg1 : IVec S65536 32) := by
  host_read

set_option maxHeartbeats 4000000 in
theorem s1 (c : Dev nD) : (V m c main_v1 : IVec S65536 32) = (Host.sort2 S65536 0 comparator_i32_i32_d0 (V m c main_v0 : IVec S65536 32) (iotaInDim S65536 32 0)).2 := by
  host_read

set_option maxHeartbeats 4000000 in
theorem s8 (c : Dev nD) : (V m c main_v8 : IVec S65536 32) = Host.gather gather_S65536_S65536x1_S65536_n_0_n_n_0_1_1 (V m c main_v0 : IVec S65536 32) (col65536 (wrap65536 65536#32 (V m c main_v1 : IVec S65536 32))) := by
  host_read

set_option maxHeartbeats 4000000 in
theorem s16 (c : Dev nD) : (V m c main_v16 : IVec S8 32) = Host.reduce IntOp.addi
    (extui 32 (cmpi .eq
      (broadcastInDim S65536x8 ![0, 1] bcast_S65536x1_S65536x8_0_1 (col65536 (V m c main_v0 : IVec S65536 32)))
      (broadcastInDim S65536x8 ![0, 1] bcast_S1x8_S65536x8_0_1 (broadcastInDim S1x8 ![1] bcast_S8_S1x8_1 (iotaInDim S8 32 0))))
      natLt_1_32)
    (constantI S_ 32 0#32) reducesTo_S65536x8_S8_d0 h_S_ := by
  host_read

end Cert.KernelIdeal.HostStagesA

end
-- ==== Proof.HostStagesB.lean ====
/-
  The running sums: the counts' inclusive and exclusive prefix sums, the rounded counts and their prefix sums,
  each as its own operations of the buffers before it.
-/
import proofs.«424534_j25864293056980_3_alg».proof.Proof.Gen.KernelIdeal.Frame.Runs
import proofs.«424534_j25864293056980_3_alg».proof.Proof.Stages
import Idealize.ShloMosaic.Lib.StableHlo.Run

set_option maxRecDepth 16384

noncomputable section

namespace Cert.KernelIdeal.HostStagesB

open Idealize.ShloMosaic Idealize.ShloMosaic.TcCoe Idealize.SL.Sem Idealize.ShloMosaic.StableHlo
open Cert.KernelIdeal Cert.KernelIdeal.Gen Cert.KernelIdeal.Facts Cert.KernelIdeal.Stages

variable {F : FTy → Type} [FloatOps F]
variable (m : (ℓ : Loc nD τ sig) → Buf (Elt F) ℓ)

/-- Reads a buffer after the host operations before the region: every operation's result at its own buffer, one pass. -/
local macro "host_read" : tactic =>
  `(tactic| (dsimp only [V, V0]
             simp only [hostOps0, hostOps0_1, hostOps0_2, hostOps0_3, hostOps0_4, hostOps0_5, hostOps0_6, hostOps0_7,
               hostOps0_8, hostOps0_9, List.flatten_cons, List.flatten_nil, List.append_nil, List.cons_append, List.nil_append]
             after_results_simp <;> (try simp only [TRef.ofBuf, TRef.toBuf, cast_eq]) <;> rfl))

set_option maxHeartbeats 4000000 in
theorem s17 (c : Dev nD) : (V m c main_v17 : IVec S8 32) = cumsum8 (V m c main_v16 : IVec S8 32) := by
  host_read

set_option maxHeartbeats 4000000 in
theorem s18 (c : Dev nD) : (V m c main_v18 : IVec S8 32) = subi (V m c main_v17 : IVec S8 32) (V m c main_v16 : IVec S8 32) := by
  host_read

set_option maxHeartbeats 4000000 in
theorem s25 (c : Dev nD) : (V m c main_v25 : IVec S8 32) = muli (Stages.floorDiv1024 (subi (addi (V m c main_v16 : IVec S8 32) (broadcastInDim S8 ![] bcast_S_S8 (constantI S_ 32 1024#32)))
      (broadcastInDim S8 ![] bcast_S_S8 (constantI S_ 32 1#32))))
    (broadcastInDim S8 ![] bcast_S_S8 (constantI S_ 32 1024#32)) := by
  host_read

set_option maxHeartbeats 4000000 in
theorem s26 (c : Dev nD) : (V m c main_v26 : IVec S8 32) = cumsum8 (V m c main_v25 : IVec S8 32) := by
  host_read

set_option maxHeartbeats 4000000 in
theorem s27 (c : Dev nD) : (V m c main_v27 : IVec S8 32) = subi (V m c main_v26 : IVec S8 32) (V m c main_v25 : IVec S8 32) := by
  host_read

end Cert.KernelIdeal.HostStagesB

end
-- ==== Proof.HostStagesC.lean ====
/-
  The slots and the three routing tables, and the two narrowed float arrays, each as its own operations of the
  buffers before it.
-/
import proofs.«424534_j25864293056980_3_alg».proof.Proof.Gen.KernelIdeal.Frame.Runs
import proofs.«424534_j25864293056980_3_alg».proof.Proof.Stages
import Idealize.ShloMosaic.Lib.StableHlo.Run

set_option maxRecDepth 16384

noncomputable section

namespace Cert.KernelIdeal.HostStagesC

open Idealize.ShloMosaic Idealize.ShloMosaic.TcCoe Idealize.SL.Sem Idealize.ShloMosaic.StableHlo
open Cert.KernelIdeal Cert.KernelIdeal.Gen Cert.KernelIdeal.Facts Cert.KernelIdeal.Stages

variable {F : FTy → Type} [FloatOps F]
variable (m : (ℓ : Loc nD τ sig) → Buf (Elt F) ℓ)

/-- Reads a buffer after the host operations before the region: every operation's result at its own buffer, one pass. -/
local macro "host_read" : tactic =>
  `(tactic| (dsimp only [V, V0]
             simp only [hostOps0, hostOps0_1, hostOps0_2, hostOps0_3, hostOps0_4, hostOps0_5, hostOps0_6, hostOps0_7,
               hostOps0_8, hostOps0_9, List.flatten_cons, List.flatten_nil, List.append_nil, List.cons_append, List.nil_append]
             after_results_simp <;> (try simp only [TRef.ofBuf, TRef.toBuf, cast_eq]) <;> rfl))

set_option maxHeartbeats 4000000 in
theorem s44 (c : Dev nD) : (V m c main_v44 : IVec S65536 32) = addi
    (Host.gather gather_S8_S65536x1_S65536_n_0_n_n_0_1_1 (V m c main_v27 : IVec S8 32) (col65536 (wrap65536 8#32 (V m c main_v8 : IVec S65536 32))))
    (subi (iotaInDim S65536 32 0)
      (Host.gather gather_S8_S65536x1_S65536_n_0_n_n_0_1_1 (V m c main_v18 : IVec S8 32) (col65536 (wrap65536 8#32 (V m c main_v8 : IVec S65536 32))))) := by
  host_read

set_option maxHeartbeats 4000000 in
theorem s64 (c : Dev nD) : (V m c main_v64 : IVec S72 32) = Stages.eidOf (V m c main_v26 : IVec S8 32) := by
  host_read

set_option maxHeartbeats 4000000 in
theorem s83 (c : Dev nD) : (V m c main_v83 : FVec F S8x1024x1024 .bf16) = Stages.wbf (V m c main_arg2 : FVec F S8x1024x1024 .f32) := by
  host_read

end Cert.KernelIdeal.HostStagesC

end
-- ==== Proof.HostStagesD.lean ====
/-
  The slots and the three routing tables, and the two narrowed float arrays, each as its own operations of the
  buffers before it.
-/
import proofs.«424534_j25864293056980_3_alg».proof.Proof.Gen.KernelIdeal.Frame.Runs
import proofs.«424534_j25864293056980_3_alg».proof.Proof.Stages
import Idealize.ShloMosaic.Lib.StableHlo.Run

set_option maxRecDepth 16384

noncomputable section

namespace Cert.KernelIdeal.HostStagesD

open Idealize.ShloMosaic Idealize.ShloMosaic.TcCoe Idealize.SL.Sem Idealize.ShloMosaic.StableHlo
open Cert.KernelIdeal Cert.KernelIdeal.Gen Cert.KernelIdeal.Facts Cert.KernelIdeal.Stages

variable {F : FTy → Type} [FloatOps F]
variable (m : (ℓ : Loc nD τ sig) → Buf (Elt F) ℓ)

/-- Reads a buffer after the host operations before the region: every operation's result at its own buffer, one pass. -/
local macro "host_read" : tactic =>
  `(tactic| (dsimp only [V, V0]
             simp only [hostOps0, hostOps0_1, hostOps0_2, hostOps0_3, hostOps0_4, hostOps0_5, hostOps0_6, hostOps0_7,
               hostOps0_8, hostOps0_9, List.flatten_cons, List.flatten_nil, List.append_nil, List.cons_append, List.nil_append]
             after_results_simp <;> (try simp only [TRef.ofBuf, TRef.toBuf, cast_eq]) <;> rfl))

set_option maxHeartbeats 4000000 in
theorem s52 (c : Dev nD) : (V m c main_v52 : IVec S65536 32) = Host.scatter scatter_S65536_S65536x1_S65536_n_0_0_1 (fun _ b => b)
    (broadcastInDim S65536 ![] bcast_S_S65536 (constantI S_ 32 0#32)) (col65536 (wrap65536 65536#32 (V m c main_v1 : IVec S65536 32))) (V m c main_v44 : IVec S65536 32) := by
  host_read

set_option maxHeartbeats 4000000 in
theorem s72 (c : Dev nD) : (V m c main_v72 : IVec S73728 32) = Host.scatter scatter_S73728_S65536x1_S65536_n_0_0_1 (fun _ b => b)
    (broadcastInDim S73728 ![] bcast_S_S73728 (constantI S_ 32 65536#32)) (col65536 (wrap65536 73728#32 (V m c main_v44 : IVec S65536 32))) (V m c main_v1 : IVec S65536 32) := by
  host_read

end Cert.KernelIdeal.HostStagesD

end
-- ==== Proof.HostStagesE.lean ====
/-
  The slots and the three routing tables, and the two narrowed float arrays, each as its own operations of the
  buffers before it.
-/
import proofs.«424534_j25864293056980_3_alg».proof.Proof.Gen.KernelIdeal.Frame.Runs
import proofs.«424534_j25864293056980_3_alg».proof.Proof.Stages
import Idealize.ShloMosaic.Lib.StableHlo.Run

set_option maxRecDepth 16384

noncomputable section

namespace Cert.KernelIdeal.HostStagesE

open Idealize.ShloMosaic Idealize.ShloMosaic.TcCoe Idealize.SL.Sem Idealize.ShloMosaic.StableHlo
open Cert.KernelIdeal Cert.KernelIdeal.Gen Cert.KernelIdeal.Facts Cert.KernelIdeal.Stages

variable {F : FTy → Type} [FloatOps F]
variable (m : (ℓ : Loc nD τ sig) → Buf (Elt F) ℓ)

/-- Reads a buffer after the host operations before the region: every operation's result at its own buffer, one pass. -/
local macro "host_read" : tactic =>
  `(tactic| (dsimp only [V, V0]
             simp only [hostOps0, hostOps0_1, hostOps0_2, hostOps0_3, hostOps0_4, hostOps0_5, hostOps0_6, hostOps0_7,
               hostOps0_8, hostOps0_9, List.flatten_cons, List.flatten_nil, List.append_nil, List.cons_append, List.nil_append]
             after_results_simp <;> (try simp only [TRef.ofBuf, TRef.toBuf, cast_eq]) <;> rfl))

set_option maxHeartbeats 4000000 in
theorem s82 (c : Dev nD) : (V m c main_v82 : FVec F S73728x1024 .bf16) = Host.gather gather_S65537x1024_S73728x1_S73728x1024_1_0_n_n_0_1_11024
    (concatenate S65537x1024 0
      [⟨S65536x1024, truncf .bf16 (V m c main_arg0 : FVec F S65536x1024 .f32) bitsLt_bf16_f32⟩, ⟨S1x1024, broadcastInDim S1x1024 ![] bcast_S_S1x1024 (constant S_ .bf16 0x0000#16)⟩]
      concatenates_S65536x1024_S1x1024_S65537x1024_d0)
    (col73728 (wrap73728 65537#32 (V m c main_v72 : IVec S73728 32))) := by
  host_read

end Cert.KernelIdeal.HostStagesE

end
-- ==== Proof.HostRead.lean ====
/-
  What the program's buffers hold when the grouped matrix product starts, as the stage functions of the arguments:
  the slot table, the tile labels, the back-pointers, the gathered narrowed features and the narrowed weights are
  `dest`, `eid`, `src`, `xin`, `wbf` of the region-entry contents of the ids, the features and the weights. Each
  follows from the buffers' own operations (the stagewise equations), composed in program order.
-/
import proofs.«424534_j25864293056980_3_alg».proof.Proof.HostStagesA
import proofs.«424534_j25864293056980_3_alg».proof.Proof.HostStagesB
import proofs.«424534_j25864293056980_3_alg».proof.Proof.HostStagesC
import proofs.«424534_j25864293056980_3_alg».proof.Proof.HostStagesD
import proofs.«424534_j25864293056980_3_alg».proof.Proof.HostStagesE

set_option maxRecDepth 16384

noncomputable section

namespace Cert.KernelIdeal.HostRead

open Idealize.ShloMosaic Idealize.ShloMosaic.TcCoe Idealize.SL.Sem
open Cert.KernelIdeal Cert.KernelIdeal.Gen Cert.KernelIdeal.Facts Cert.KernelIdeal.Stages
open Cert.KernelIdeal.HostStagesA Cert.KernelIdeal.HostStagesB Cert.KernelIdeal.HostStagesC Cert.KernelIdeal.HostStagesD Cert.KernelIdeal.HostStagesE

variable {F : FTy → Type} [FloatOps F]
variable (m : (ℓ : Loc nD τ sig) → Buf (Elt F) ℓ)

theorem ids_eq (c : Dev nD) : (V m c main_v0 : IVec S65536 32) = ids (V m c main_arg1 : IVec S65536 32) :=
  s0 m c
theorem ord_eq (c : Dev nD) : (V m c main_v1 : IVec S65536 32) = ord (V m c main_arg1 : IVec S65536 32) :=
  (s1 m c).trans (by rw [ids_eq m c]; rfl)
theorem sid_eq (c : Dev nD) : (V m c main_v8 : IVec S65536 32) = sid (V m c main_arg1 : IVec S65536 32) :=
  (s8 m c).trans (by rw [ids_eq m c, ord_eq m c]; rfl)
theorem sz_eq (c : Dev nD) : (V m c main_v16 : IVec S8 32) = sz (V m c main_arg1 : IVec S65536 32) :=
  (s16 m c).trans (by rw [ids_eq m c]; rfl)
theorem cs_eq (c : Dev nD) : (V m c main_v17 : IVec S8 32) = cs (V m c main_arg1 : IVec S65536 32) :=
  (s17 m c).trans (by rw [sz_eq m c]; rfl)
theorem off_eq (c : Dev nD) : (V m c main_v18 : IVec S8 32) = off (V m c main_arg1 : IVec S65536 32) :=
  (s18 m c).trans (by rw [cs_eq m c, sz_eq m c]; rfl)
theorem psz_eq (c : Dev nD) : (V m c main_v25 : IVec S8 32) = psz (V m c main_arg1 : IVec S65536 32) :=
  (s25 m c).trans (by rw [sz_eq m c]; rfl)
theorem pcs_eq (c : Dev nD) : (V m c main_v26 : IVec S8 32) = pcs (V m c main_arg1 : IVec S65536 32) :=
  (s26 m c).trans (by rw [psz_eq m c]; rfl)
theorem poff_eq (c : Dev nD) : (V m c main_v27 : IVec S8 32) = poff (V m c main_arg1 : IVec S65536 32) :=
  (s27 m c).trans (by rw [pcs_eq m c, psz_eq m c]; rfl)
theorem ppos_eq (c : Dev nD) : (V m c main_v44 : IVec S65536 32) = ppos (V m c main_arg1 : IVec S65536 32) :=
  (s44 m c).trans (by rw [poff_eq m c, off_eq m c, sid_eq m c]; rfl)

/-- The slot table. -/
theorem dest_eq (c : Dev nD) : (V m c main_v52 : IVec S65536 32) = dest (V m c main_arg1 : IVec S65536 32) :=
  (s52 m c).trans (by rw [ord_eq m c, ppos_eq m c]; rfl)
/-- The tile labels. -/
theorem eid_eq (c : Dev nD) : (V m c main_v64 : IVec S72 32) = eid (V m c main_arg1 : IVec S65536 32) :=
  (s64 m c).trans (by rw [pcs_eq m c]; rfl)
/-- The back-pointers. -/
theorem src_eq (c : Dev nD) : (V m c main_v72 : IVec S73728 32) = src (V m c main_arg1 : IVec S65536 32) :=
  (s72 m c).trans (by rw [ppos_eq m c, ord_eq m c]; rfl)
/-- The gathered narrowed features. -/
theorem xin_eq (c : Dev nD) :
    (V m c main_v82 : FVec F S73728x1024 .bf16)
      = xin (V m c main_arg0 : FVec F S65536x1024 .f32) (V m c main_arg1 : IVec S65536 32) :=
  (s82 m c).trans (by rw [src_eq m c]; rfl)
/-- The narrowed weights. -/
theorem wbf_eq (c : Dev nD) :
    (V m c main_v83 : FVec F S8x1024x1024 .bf16) = wbf (V m c main_arg2 : FVec F S8x1024x1024 .f32) :=
  s83 m c

end Cert.KernelIdeal.HostRead

end
-- ==== Proof.LibWordArith.lean ====
/-
  Word arithmetic on 32-bit integers that stays inside the non-negative half: a clamp into [0, 7], the
  wrap of a negative index, floor division by 1024 spelled through truncating division (the quotient corrected where the signs
  differ and the remainder is not zero), and an inclusive running sum over eight words written as a padded
  window reduction. On words below 2^31 each is the plain operation on natural numbers.
-/
import Idealize.ShloMosaic.Lib.StableHlo.Predicate
import Mathlib.Algebra.BigOperators.Fin
import Mathlib.Tactic.IntervalCases

namespace Cert.Lib.WordArith

open Idealize.ShloMosaic Idealize.ShloMosaic.StableHlo.Predicate

/-- The sign of a word: 0, -1 or 1 (the element of the vector operation `signi`). -/
def sgn (x : BitVec 32) : BitVec 32 := if x = 0 then 0 else if x.msb then -1 else 1

theorem signi_apply {s : Shape} (x : IVec s 32) (i : s.Idx) : signi x i = sgn (x i) := rfl

/-- Clamping into [0, 7] (first from below, then from above) leaves a word below 8 alone. -/
theorem clip_of_lt (x : BitVec 32) (hx : x.toNat < 8) : IntOp.minsi 7#32 (IntOp.maxsi 0#32 x) = x := by
  have hti : x.toInt = x.toNat := toInt_eq_toNat_of_lt (by omega)
  have h0 : (0#32 : BitVec 32).toInt = 0 := by decide
  have h7 : (7#32 : BitVec 32).toInt = 7 := by decide
  -- the lower clamp: x is not below 0
  have hmax : IntOp.maxsi 0#32 x = x := by
    unfold IntOp.maxsi
    split <;> rename_i hc
    · simp only [BitVec.slt, hti, h0, decide_eq_true_eq] at hc; omega
    · rfl
  rw [hmax]
  -- the upper clamp: 7 is not below x
  unfold IntOp.minsi
  split <;> rename_i hc
  · simp only [BitVec.slt, hti, h7, decide_eq_true_eq] at hc; omega
  · rfl

/-- Whatever the word, the clamp lands in [0, 7]. -/
theorem clip_toNat_le (x : BitVec 32) : (IntOp.minsi 7#32 (IntOp.maxsi 0#32 x)).toNat ≤ 7 := by
  have h0 : (0#32 : BitVec 32).toInt = 0 := by decide
  have h7 : (7#32 : BitVec 32).toInt = 7 := by decide
  unfold IntOp.minsi IntOp.maxsi
  by_cases hneg : x.slt 0#32 = true
  · -- a negative word is first raised to 0, and 7 is not below 0
    rw [if_pos hneg]; decide
  · rw [if_neg hneg]
    split
    · decide
    · -- 0 ≤ x ≤ 7 as integers, so the word's value is at most 7
      rename_i hc
      simp only [BitVec.slt, h0, h7, decide_eq_true_eq] at hneg hc
      rw [BitVec.toInt_eq_toNat_cond] at hneg hc
      split at hneg <;> omega

/-- The wrap of a negative index (`x < 0 ? x + n : x`) leaves a non-negative word alone. -/
theorem wrap_of_nonneg (x n : BitVec 32) (hx : x.toNat < 2 ^ 31) :
    Scalar.select (IntOp.cmpi .slt x 0#32) (IntOp.addi x n) x = x := by
  have hti : x.toInt = x.toNat := toInt_eq_toNat_of_lt hx
  have h0 : (0#32 : BitVec 32).toInt = 0 := by decide
  have hc : x.slt 0#32 = false := by
    simp only [BitVec.slt, hti, h0, decide_eq_false_iff_not]; omega
  simp only [Scalar.select, IntOp.cmpi, hc]
  rfl

/-- Floor division by 1024 of a non-negative word, spelled through truncating division: the truncating quotient, less one where the
    signs of dividend and divisor differ and the remainder is not zero (never, here). -/
theorem floorDiv1024 (a : BitVec 32) (ha : a.toNat < 2 ^ 31) :
    (Scalar.select
        (IntOp.andi (IntOp.cmpi .ne (sgn a) (sgn 1024#32)) (IntOp.cmpi .ne (IntOp.remsi .host a 1024#32) 0#32))
        (IntOp.subi (IntOp.divsi .host a 1024#32) 1#32) (IntOp.divsi .host a 1024#32)).toNat = a.toNat / 1024 := by
  -- the divisor 1024 is neither 0 nor -1: no corner
  have hcorner : ¬ IntOp.SDivCorner a 1024#32 := by
    intro hc; rcases hc with hc | ⟨_, hc⟩ <;> exact absurd hc (by decide)
  have hm : a.msb = false := BitVec.msb_eq_false_iff_two_mul_lt.mpr (by omega)
  have hk : (1024#32 : BitVec 32).msb = false := by decide
  -- both operands non-negative: signed quotient and remainder are the unsigned ones
  have hdiv : IntOp.divsi .host a 1024#32 = a / 1024#32 := by
    simp only [IntOp.divsi, if_neg hcorner, BitVec.sdiv_eq, hm, hk, BitVec.udiv_eq]
  have hrem : IntOp.remsi .host a 1024#32 = a % 1024#32 := by
    simp only [IntOp.remsi, if_neg hcorner, BitVec.srem_eq, hm, hk]
  have hs : sgn 1024#32 = 1#32 := by decide
  rw [hdiv, hrem, hs]
  -- the correction never fires: either a = 0 (remainder 0) or the signs agree
  have hcond : IntOp.andi (IntOp.cmpi .ne (sgn a) 1#32) (IntOp.cmpi .ne (a % 1024#32) 0#32) = 0#1 := by
    by_cases h0 : a = 0
    · subst h0; decide
    · have hsa : sgn a = 1#32 := by
        simp only [sgn, if_neg h0, hm]; rfl
      rw [hsa]
      have h1 : IntOp.cmpi .ne (1#32) 1#32 = 0#1 := by decide
      rw [h1]
      simp only [IntOp.andi, BitVec.zero_and]
  simp only [Scalar.select, hcond]
  rw [if_neg (by decide)]
  simp only [BitVec.toNat_udiv, BitVec.toNat_ofNat]

/-! ### The running sum: a padded window fold read as a sum of natural numbers -/

/-- The window shape's position numbering, rank 1: position `n` is coordinate `n`. -/
theorem rowMajor_symm_one {d : Fin 1 → Nat} (n : Fin (⟨1, d⟩ : Shape).numel) :
    (((⟨1, d⟩ : Shape).rowMajor.symm n) 0).val = n.val := by
  have := Shape.rowMajor_val_one ((⟨1, d⟩ : Shape).rowMajor.symm n)
  rw [Equiv.apply_symm_apply] at this
  exact this.symm

theorem numel8 : (⟨1, ![8]⟩ : Shape).numel = 8 := by decide

/-- A left fold of word addition whose running total never wraps is the sum of the values. -/
theorem toNat_foldl_add {ι : Type} (G : ι → BitVec 32) : ∀ (l : List ι) (acc : BitVec 32),
    acc.toNat + (l.map fun n => (G n).toNat).sum < 2 ^ 32 →
    (l.foldl (fun r n => IntOp.addi r (G n)) acc).toNat = acc.toNat + (l.map fun n => (G n).toNat).sum
  | [], acc, _ => by simp
  | a :: l, acc, h => by
    simp only [List.map_cons, List.sum_cons] at h
    have hstep : (IntOp.addi acc (G a)).toNat = acc.toNat + (G a).toNat := by
      show (acc + G a).toNat = _
      rw [BitVec.toNat_add, Nat.mod_eq_of_lt (by omega)]
    rw [List.foldl_cons, toNat_foldl_add G l _ (by rw [hstep]; omega), hstep]
    simp only [List.map_cons, List.sum_cons]; omega

/-- The value of entry `k` of the eight words, 0 outside them. -/
def readNat (x : IVec ⟨1, ![8]⟩ 32) (k : ℕ) : ℕ := if h : k < 8 then (x (Shape.Idx.ofFin ⟨k, h⟩)).toNat else 0

/-- What window position `k` of result entry `ev` contributes: entry `ev + k - 7` when that is not in the low
    padding, else 0. -/
def winNat (x : IVec ⟨1, ![8]⟩ 32) (ev k : ℕ) : ℕ := if 7 ≤ ev + k then readNat x (ev + k - 7) else 0

/-- The fold over the eight window positions, once each position's contribution is known. -/
theorem cumsum8_aux (x : IVec ⟨1, ![8]⟩ 32) (hsum : ∑ e : Fin 8, (x (Shape.Idx.ofFin e)).toNat < 2 ^ 32) (e : Fin 8)
    (G : Fin (⟨1, ![8]⟩ : Shape).numel → BitVec 32) (hG : ∀ n, (G n).toNat = winNat x e.val n.val) :
    ((List.finRange (⟨1, ![8]⟩ : Shape).numel).foldl (fun r n => IntOp.addi r (G n)) 0#32).toNat
      = ∑ e' ∈ Finset.univ.filter (· ≤ e), (x (Shape.Idx.ofFin e')).toNat := by
  -- the contributions, summed over the positions 0..7
  have hS : ((List.finRange (⟨1, ![8]⟩ : Shape).numel).map fun n => (G n).toNat).sum
      = ∑ k ∈ Finset.range 8, winNat x e.val k := by
    rw [← Fin.sum_univ_def]
    simp only [hG]
    rw [Fin.sum_univ_eq_sum_range (fun k => winNat x e.val k), numel8]
  -- the entries up to e, summed over 0..7 with the later ones dropped
  have hR : ∑ e' ∈ Finset.univ.filter (· ≤ e), (x (Shape.Idx.ofFin e')).toNat
      = ∑ k ∈ Finset.range 8, if k ≤ e.val then readNat x k else 0 := by
    rw [Finset.sum_filter, ← Fin.sum_univ_eq_sum_range (fun k => if k ≤ e.val then readNat x k else 0)]
    refine Finset.sum_congr rfl fun e' _ => ?_
    simp only [Fin.le_def, readNat, e'.isLt, dite_true, Fin.eta]
  -- position k of entry e reads entry e + k - 7: the same eight-term sums, shifted
  have hEq : ∑ k ∈ Finset.range 8, winNat x e.val k = ∑ k ∈ Finset.range 8, if k ≤ e.val then readNat x k else 0 := by
    obtain ⟨ev, hev⟩ := e
    interval_cases ev <;> simp [winNat, Finset.sum_range_succ]
  have hle : ∑ e' ∈ Finset.univ.filter (· ≤ e), (x (Shape.Idx.ofFin e')).toNat
      ≤ ∑ e' : Fin 8, (x (Shape.Idx.ofFin e')).toNat := by
    rw [← Finset.sum_filter_add_sum_filter_not (Finset.univ : Finset (Fin 8)) (· ≤ e)]
    exact Nat.le_add_right _ _
  rw [toNat_foldl_add G _ _ (by rw [hS, hEq, ← hR]; simp only [BitVec.toNat_ofNat, Nat.zero_mod]; omega), hS, hEq, ← hR]
  simp

/-- The inclusive running sum of eight words, written as a window reduction (a window of 8 over the array padded by 7
    initial values below): while the total does not wrap, entry `e` is the sum of the entries up to `e`. -/
theorem cumsum8_toNat (h : (⟨1, ![8]⟩ : Shape).ReduceWindows (![8] : Fin 1 → ℕ) ![1] ![7] ![0] ⟨1, ![8]⟩) {u : Shape}
    (hu : 0 < u.numel) (x : IVec ⟨1, ![8]⟩ 32) (init : IVec u 32) (hinit : init (Shape.Idx.first hu) = 0#32)
    (hsum : ∑ e : Fin 8, (x (Shape.Idx.ofFin e)).toNat < 2 ^ 32) (e : Fin 8) :
    (Host.reduceWindow IntOp.addi (![8] : Fin 1 → ℕ) ![1] ![7] ![0] x init h hu (Shape.Idx.ofFin e)).toNat
      = ∑ e' ∈ Finset.univ.filter (· ≤ e), (x (Shape.Idx.ofFin e')).toNat := by
  unfold Host.reduceWindow
  simp only [hinit]
  refine cumsum8_aux x hsum e _ (fun n => ?_)
  -- window position n of entry e sits at padded coordinate e + n
  have hn := rowMajor_symm_one (d := ![8]) n
  have hn8 : n.val < 8 := lt_of_lt_of_eq n.isLt numel8
  have he8 := e.isLt
  split
  · -- inside the eight words: the entry read is e + n - 7
    rename_i hin
    have h0 : 7 ≤ e.val * 1 + ((⟨1, ![8]⟩ : Shape).rowMajor.symm n 0).val
        ∧ e.val * 1 + ((⟨1, ![8]⟩ : Shape).rowMajor.symm n 0).val - 7 < 8 := hin 0
    rw [hn] at h0
    have h7 : 7 ≤ e.val + n.val := by omega
    have hlt : e.val + n.val - 7 < 8 := by omega
    rw [winNat, if_pos h7, readNat, dif_pos hlt]
    refine congrArg BitVec.toNat (congrArg x ?_)
    funext a
    have ha : a = 0 := Subsingleton.elim _ _
    subst ha
    apply Fin.ext
    show e.val * 1 + ((⟨1, ![8]⟩ : Shape).rowMajor.symm n 0).val - 7 = e.val + n.val - 7
    rw [hn]; omega
  · -- in the low padding: the initial value, 0
    rename_i hin
    have h7 : ¬ 7 ≤ e.val + n.val := by
      intro h7
      apply hin
      intro a
      have ha : a = 0 := Subsingleton.elim _ _
      subst ha
      show 7 ≤ e.val * 1 + ((⟨1, ![8]⟩ : Shape).rowMajor.symm n 0).val
        ∧ e.val * 1 + ((⟨1, ![8]⟩ : Shape).rowMajor.symm n 0).val - 7 < 8
      rw [hn]; omega
    rw [winNat, if_neg h7]
    rfl

end Cert.Lib.WordArith
-- ==== Proof.SortOrder.lean ====
/-
  The stable sort of the rows by clamped id, read as a permutation. `σ mid k` is the row that lands at sorted
  position `k`; the sorted order's index column `ord` holds its number, `σ` is a bijection of the 65536 rows, the
  ids along it never decrease, and the ids in sorted order `sid` are the ids read through it.
-/
import proofs.«424534_j25864293056980_3_alg».proof.Proof.Stages
import proofs.«424534_j25864293056980_3_alg».proof.Proof.LibWordArith
import Idealize.ShloMosaic.Lib.SortFacts
import Idealize.ShloMosaic.Lib.StableHlo.Predicate

noncomputable section

namespace Cert.KernelIdeal.SortOrder

open Idealize.ShloMosaic Cert.KernelIdeal Cert.KernelIdeal.Gen Cert.KernelIdeal.Stages

/-- The clamped id, entry by entry: first raised to 0, then lowered to 7. -/
private theorem ids_apply (mid : IVec S65536 32) (i : S65536.Idx) :
    ids mid i = IntOp.minsi 7#32 (IntOp.maxsi 0#32 (mid i)) := rfl

/-- The row that the stable sort by clamped id puts at sorted position `k`. -/
def σ (mid : IVec S65536 32) : Fin 65536 → Fin 65536 :=
  sortedFrom (fun k k' : Fin 65536 =>
    comparator_i32_i32_d0 (ids mid (Shape.Idx.ofFin k), iotaInDim S65536 32 0 (Shape.Idx.ofFin k))
      (ids mid (Shape.Idx.ofFin k'), iotaInDim S65536 32 0 (Shape.Idx.ofFin k')) == 1#1)

/-- The sorted order's index column holds the number of the row at each sorted position. -/
theorem ord_apply (mid : IVec S65536 32) (k : Fin 65536) :
    ord mid (Shape.Idx.ofFin k) = BitVec.ofNat 32 (σ mid k).val := by
  unfold ord Host.sort2
  simp only [zero_lt_one, ↓reduceDIte, Fin.zero_eta, Fin.isValue, Matrix.cons_val_zero, Shape.Idx.along_rank1,
    Shape.Idx.ofFin_zero]
  rw [StableHlo.Predicate.iota_apply]
  unfold σ
  rfl

theorem σ_bijective (mid : IVec S65536 32) : Function.Bijective (σ mid) :=
  ⟨sortedFrom_injective _, sortedFrom_surjective _⟩

/-- Every clamped id is at most 7. -/
theorem ids_le (mid : IVec S65536 32) (i : Fin 65536) : (ids mid (Shape.Idx.ofFin i)).toNat ≤ 7 := by
  rw [ids_apply]
  exact Cert.Lib.WordArith.clip_toNat_le _

/-- On ids already in range the clamp does nothing. -/
theorem ids_of_lt (mid : IVec S65536 32) (i : Fin 65536) (h : (mid (Shape.Idx.ofFin i)).toNat < 8) :
    ids mid (Shape.Idx.ofFin i) = mid (Shape.Idx.ofFin i) := by
  rw [ids_apply]
  exact Cert.Lib.WordArith.clip_of_lt _ h

/-- The order the sort compares by: row `a` sorts strictly before row `b`. -/
private def before (mid : IVec S65536 32) (a b : Fin 65536) : Bool :=
  comparator_i32_i32_d0 (ids mid (Shape.Idx.ofFin a), iotaInDim S65536 32 0 (Shape.Idx.ofFin a))
    (ids mid (Shape.Idx.ofFin b), iotaInDim S65536 32 0 (Shape.Idx.ofFin b)) == 1#1

/-- The comparator looks at the ids alone, signed; both are at most 7, so it is `<` on their values. -/
private theorem before_iff (mid : IVec S65536 32) (a b : Fin 65536) :
    before mid a b = true ↔ (ids mid (Shape.Idx.ofFin a)).toNat < (ids mid (Shape.Idx.ofFin b)).toNat := by
  have ha := ids_le mid a
  have hb := ids_le mid b
  unfold before
  rw [beq_iff_eq]
  show IntOp.cmpi .slt (ids mid (Shape.Idx.ofFin a)) (ids mid (Shape.Idx.ofFin b)) = 1#1 ↔ _
  exact StableHlo.Predicate.slt_iff_toNat (by omega) (by omega)

/-- Along the sorted order the ids never decrease. -/
theorem σ_mono (mid : IVec S65536 32) (k k' : Fin 65536) (h : k ≤ k') :
    (ids mid (Shape.Idx.ofFin (σ mid k))).toNat ≤ (ids mid (Shape.Idx.ofFin (σ mid k'))).toNat := by
  rcases Nat.lt_or_ge k.val k'.val with hlt | hge
  · -- a later sorted position's row does not sort strictly before an earlier one's
    have hno := sortedFrom_noInversion (before mid) (before mid)
      (fun a b hab => by
        rw [Bool.eq_false_iff, Ne, before_iff]
        have := (before_iff mid a b).1 hab
        omega)
      (fun _ _ hab => hab)
      (fun a b c hab hbc => by
        rw [Bool.eq_false_iff, Ne, before_iff] at hab hbc ⊢
        omega)
      k k' hlt
    rw [Bool.eq_false_iff, Ne, before_iff] at hno
    exact Nat.le_of_not_lt hno
  · have hkk : k = k' := Fin.ext (Nat.le_antisymm h hge)
    rw [hkk]

/-- A row's clamped id as one of the eight modules. -/
def key (mid : IVec S65536 32) (i : Fin 65536) : Fin 8 :=
  ⟨(ids mid (Shape.Idx.ofFin i)).toNat, Nat.lt_succ_of_le (ids_le mid i)⟩

theorem key_mono (mid : IVec S65536 32) (k k' : Fin 65536) (h : k ≤ k') : key mid (σ mid k) ≤ key mid (σ mid k') :=
  σ_mono mid k k' h

/-- The ids in sorted order are the ids read through the sorting permutation. -/
theorem sid_apply (mid : IVec S65536 32) (k : Fin 65536) :
    sid mid (Shape.Idx.ofFin k) = ids mid (Shape.Idx.ofFin (σ mid k)) := by
  have hσ : (σ mid k).val < 65536 := (σ mid k).isLt
  -- the index column at row k: the sorted order's entry k, which is not negative, so the wrap leaves it alone
  have hidx : col65536 (wrap65536 65536#32 (ord mid)) (StableHlo.Predicate.ixP k) = BitVec.ofNat 32 (σ mid k).val := by
    unfold col65536
    rw [StableHlo.Predicate.bcast_col1]
    show Scalar.select (IntOp.cmpi .slt (ord mid (Shape.Idx.ofFin k)) 0#32)
      (IntOp.addi (ord mid (Shape.Idx.ofFin k)) 65536#32) (ord mid (Shape.Idx.ofFin k)) = _
    rw [ord_apply]
    exact Cert.Lib.WordArith.wrap_of_nonneg _ _ (by rw [BitVec.toNat_ofNat]; omega)
  unfold sid
  rw [StableHlo.Predicate.gather_take gather_S65536_S65536x1_S65536_n_0_n_n_0_1_1 rfl rfl rfl rfl (ids mid) _ k (by decide)]
  refine congrArg (fun j => ids mid (Shape.Idx.ofFin j)) (Fin.ext ?_)
  show min (col65536 (wrap65536 65536#32 (ord mid)) (StableHlo.Predicate.ixP k)).toInt.toNat (65536 - 1) = (σ mid k).val
  rw [hidx, StableHlo.Predicate.toInt_ofNat_small _ (by omega), Int.toNat_natCast]
  omega

end Cert.KernelIdeal.SortOrder

end
-- ==== Proof.LibSortedLayout.lean ====
/-
  A sorting permutation of keys in a finite range, and the padded layout built on it.

  Keys `key : Fin n → Fin E` are sorted by a bijection `σ` (position `k` of the sorted sequence holds
  source `σ k`, and `key ∘ σ` is monotone). Group `e` has `size e` members. Sorted position `k` with key
  `s` lies in `[before size s, before size s + size s)`: exactly the sources with a smaller key come earlier.
  Each group is padded to a multiple of a tile `T`; the padded slot of sorted position `k` is the group's padded
  start plus the rank inside the group. Slots are pairwise distinct, stay inside their group's padded range, and
  the tile holding a slot starts at or after exactly `s` of the padded inclusive prefix sums.
-/
import Mathlib.Algebra.BigOperators.Fin
import Mathlib.Algebra.BigOperators.Ring.Finset
import Mathlib.Algebra.BigOperators.Group.Finset.Piecewise
import Mathlib.Algebra.Order.BigOperators.Group.Finset
import Mathlib.Data.Fintype.Card
import Mathlib.Data.Fintype.BigOperators
import Mathlib.Order.Interval.Finset.Fin
import Mathlib.Tactic.Ring
import Mathlib.Tactic.Linarith

namespace Cert.Lib.SortedLayout

open Finset

/-- The sum of `f` over the groups strictly before `e` (exclusive prefix sum). -/
def before {E : ℕ} (f : Fin E → ℕ) (e : Fin E) : ℕ := ∑ e' ∈ univ.filter (· < e), f e'

/-- The sum of `f` over the groups up to and including `e` (inclusive prefix sum). -/
def upto {E : ℕ} (f : Fin E → ℕ) (e : Fin E) : ℕ := ∑ e' ∈ univ.filter (· ≤ e), f e'

/-- `s` rounded up to a multiple of `T`. -/
def pad (T s : ℕ) : ℕ := (s + (T - 1)) / T * T

/-- The number of sources whose key is `e`. -/
def size {n E : ℕ} (key : Fin n → Fin E) (e : Fin E) : ℕ := (univ.filter fun i : Fin n => key i = e).card

/-- The groups up to `e` are the groups strictly before `e` together with `e` itself. -/
theorem upto_eq_before_add {E : ℕ} (f : Fin E → ℕ) (e : Fin E) : upto f e = before f e + f e := by
  unfold upto before
  have hset : univ.filter (· ≤ e) = insert e (univ.filter (· < e)) := by
    ext x
    simp only [mem_filter, mem_univ, true_and, mem_insert]
    exact le_iff_eq_or_lt
  have hnot : e ∉ univ.filter (· < e) := by
    simp only [mem_filter, mem_univ, true_and, lt_irrefl, not_false_eq_true]
  rw [hset, sum_insert hnot, add_comm]

/-- Inclusive prefix sums of a nonnegative family grow with the index. -/
theorem upto_mono {E : ℕ} (f : Fin E → ℕ) {e e' : Fin E} (h : e ≤ e') : upto f e ≤ upto f e' := by
  unfold upto
  apply sum_le_sum_of_subset
  intro x hx
  simp only [mem_filter, mem_univ, true_and] at hx ⊢
  exact le_trans hx h

/-- Everything up to `e` comes strictly before any later `e'`. -/
theorem upto_le_before {E : ℕ} (f : Fin E → ℕ) {e e' : Fin E} (h : e < e') : upto f e ≤ before f e' := by
  unfold upto before
  apply sum_le_sum_of_subset
  intro x hx
  simp only [mem_filter, mem_univ, true_and] at hx ⊢
  exact lt_of_le_of_lt hx h

/-- The sources with a key below `s` number `before (size key) s`; those with a key at most `s`, `upto`. -/
theorem card_key_lt {n E : ℕ} (key : Fin n → Fin E) (s : Fin E) :
    (univ.filter fun i : Fin n => key i < s).card = before (size key) s := by
  unfold before size
  -- split the sources with a small key by the value of their key
  have hmaps : ((univ.filter fun i : Fin n => key i < s : Finset (Fin n)) : Set (Fin n)).MapsTo key
      ((univ.filter (· < s) : Finset (Fin E)) : Set (Fin E)) := by
    intro i hi
    simpa using hi
  rw [card_eq_sum_card_fiberwise hmaps]
  apply sum_congr rfl
  intro e he
  simp only [mem_filter, mem_univ, true_and] at he
  congr 1
  ext i
  simp only [mem_filter, mem_univ, true_and]
  constructor
  · exact fun h => h.2
  · intro h
    refine ⟨?_, h⟩
    rw [h]; exact he

theorem card_key_le {n E : ℕ} (key : Fin n → Fin E) (s : Fin E) :
    (univ.filter fun i : Fin n => key i ≤ s).card = upto (size key) s := by
  unfold upto size
  have hmaps : ((univ.filter fun i : Fin n => key i ≤ s : Finset (Fin n)) : Set (Fin n)).MapsTo key
      ((univ.filter (· ≤ s) : Finset (Fin E)) : Set (Fin E)) := by
    intro i hi
    simpa using hi
  rw [card_eq_sum_card_fiberwise hmaps]
  apply sum_congr rfl
  intro e he
  simp only [mem_filter, mem_univ, true_and] at he
  congr 1
  ext i
  simp only [mem_filter, mem_univ, true_and]
  constructor
  · exact fun h => h.2
  · intro h
    refine ⟨?_, h⟩
    rw [h]; exact he

/-- Composing a predicate with a bijection does not change how many points satisfy it. -/
theorem card_filter_comp_bijective {n : ℕ} (σ : Fin n → Fin n) (hσ : Function.Bijective σ)
    (p : Fin n → Prop) [DecidablePred p] :
    (univ.filter fun k => p (σ k)).card = (univ.filter p).card := by
  rw [card_filter, card_filter]
  exact Fintype.sum_bijective σ hσ _ _ (fun _ => rfl)

/-- Sorted position `k` lies inside its key's group: the sources with a smaller key fill the positions before it. -/
theorem rank_in_group {n E : ℕ} (key : Fin n → Fin E) (σ : Fin n → Fin n) (hσ : Function.Bijective σ)
    (hmono : ∀ k k' : Fin n, k ≤ k' → key (σ k) ≤ key (σ k')) (k : Fin n) :
    before (size key) (key (σ k)) ≤ k.val ∧ k.val < before (size key) (key (σ k)) + size key (key (σ k)) := by
  -- positions whose key is smaller (resp. at most) the key at `k` are counted through the bijection
  have hlt : (univ.filter fun k' : Fin n => key (σ k') < key (σ k)).card = before (size key) (key (σ k)) := by
    rw [card_filter_comp_bijective σ hσ (fun i => key i < key (σ k)), card_key_lt]
  have hle : (univ.filter fun k' : Fin n => key (σ k') ≤ key (σ k)).card = upto (size key) (key (σ k)) := by
    rw [card_filter_comp_bijective σ hσ (fun i => key i ≤ key (σ k)), card_key_le]
  constructor
  · -- a position with a strictly smaller key lies strictly below `k`
    have hsub : (univ.filter fun k' : Fin n => key (σ k') < key (σ k)) ⊆ Iio k := by
      intro k' hk'
      simp only [mem_filter, mem_univ, true_and] at hk'
      rw [mem_Iio]
      by_contra hcon
      exact absurd (hmono k k' (not_lt.mp hcon)) (not_le.mpr hk')
    have h1 := card_le_card hsub
    rw [Fin.card_Iio, hlt] at h1
    exact h1
  · -- every position up to `k` has a key at most the key at `k`
    have hsub : Iic k ⊆ (univ.filter fun k' : Fin n => key (σ k') ≤ key (σ k)) := by
      intro k' hk'
      rw [mem_Iic] at hk'
      simp only [mem_filter, mem_univ, true_and]
      exact hmono k' k hk'
    have h1 := card_le_card hsub
    rw [Fin.card_Iic, hle, upto_eq_before_add] at h1
    exact h1

/-- Rounding up does not decrease. -/
theorem le_pad {T : ℕ} (hT : 0 < T) (s : ℕ) : s ≤ pad T s := by
  unfold pad
  have h := Nat.lt_div_mul_add (a := s + (T - 1)) hT
  generalize (s + (T - 1)) / T * T = q at h ⊢
  omega

/-- Rounding up adds less than one tile. -/
theorem pad_le (T s : ℕ) : pad T s ≤ s + (T - 1) := Nat.div_mul_le_self _ _

/-- A rounded value is a multiple of the tile. -/
theorem dvd_pad (T s : ℕ) : T ∣ pad T s := dvd_mul_left T _

/-- The padded slot of sorted position `k`. -/
def slot {n E : ℕ} (T : ℕ) (key : Fin n → Fin E) (σ : Fin n → Fin n) (k : Fin n) : ℕ :=
  before (fun e => pad T (size key e)) (key (σ k)) + (k.val - before (size key) (key (σ k)))

theorem slot_lt_upto {n E : ℕ} {T : ℕ} (hT : 0 < T) (key : Fin n → Fin E) (σ : Fin n → Fin n) (hσ : Function.Bijective σ)
    (hmono : ∀ k k' : Fin n, k ≤ k' → key (σ k) ≤ key (σ k')) (k : Fin n) :
    slot T key σ k < upto (fun e => pad T (size key e)) (key (σ k)) := by
  -- the rank inside the group is below the group's size, hence below its padded size
  obtain ⟨h1, h2⟩ := rank_in_group key σ hσ hmono k
  have h3 := le_pad hT (size key (key (σ k)))
  have h4 := upto_eq_before_add (fun e => pad T (size key e)) (key (σ k))
  beta_reduce at h4
  unfold slot
  omega

theorem slot_injective {n E : ℕ} {T : ℕ} (hT : 0 < T) (key : Fin n → Fin E) (σ : Fin n → Fin n) (hσ : Function.Bijective σ)
    (hmono : ∀ k k' : Fin n, k ≤ k' → key (σ k) ≤ key (σ k')) : Function.Injective (slot T key σ) := by
  -- a smaller key puts the slot in an earlier padded range
  have key_step : ∀ a b : Fin n, key (σ a) < key (σ b) → slot T key σ a < slot T key σ b := by
    intro a b hab
    have h1 := slot_lt_upto hT key σ hσ hmono a
    have h2 := upto_le_before (fun e => pad T (size key e)) hab
    have h3 : before (fun e => pad T (size key e)) (key (σ b)) ≤ slot T key σ b := Nat.le_add_right _ _
    omega
  intro k k' h
  have hk := rank_in_group key σ hσ hmono k
  have hk' := rank_in_group key σ hσ hmono k'
  rcases lt_trichotomy (key (σ k)) (key (σ k')) with hlt | heq | hgt
  · exact absurd h (ne_of_lt (key_step k k' hlt))
  · -- same key: the ranks inside the group agree, so the positions agree
    unfold slot at h
    rw [heq] at h hk
    apply Fin.ext
    omega
  · exact absurd h.symm (ne_of_lt (key_step k' k hgt))

/-- The group sizes add up to the number of sources. -/
theorem sum_size {n E : ℕ} (key : Fin n → Fin E) : ∑ e, size key e = n := by
  unfold size
  have hmaps : ((univ : Finset (Fin n)) : Set (Fin n)).MapsTo key ((univ : Finset (Fin E)) : Set (Fin E)) := by
    intro i _
    simp
  have h := card_eq_sum_card_fiberwise hmaps
  rw [card_univ, Fintype.card_fin] at h
  exact h.symm

/-- The padded inclusive prefix sums are bounded by the number of sources plus `E` partial tiles. -/
theorem upto_pad_le {n E : ℕ} {T : ℕ} (hT : 0 < T) (key : Fin n → Fin E) (e : Fin E) :
    upto (fun e => pad T (size key e)) e ≤ n + E * (T - 1) := by
  calc upto (fun e => pad T (size key e)) e
      ≤ ∑ e' : Fin E, pad T (size key e') := by
        unfold upto
        exact sum_le_sum_of_subset (subset_univ _)
    _ ≤ ∑ e' : Fin E, (size key e' + (T - 1)) := sum_le_sum (fun e' _ => pad_le T _)
    _ = n + E * (T - 1) := by
        rw [sum_add_distrib, sum_size, sum_const, card_univ, Fintype.card_fin, smul_eq_mul]

/-- A multiple of `T` below `p` is also below the largest multiple of `T` that is at most `p`. -/
theorem le_tile_start {T : ℕ} (hT : 0 < T) {B p : ℕ} (hdvd : T ∣ B) (h : B ≤ p) : B ≤ p / T * T := by
  obtain ⟨b, hb⟩ := hdvd
  have h1 : b ≤ p / T := by
    rw [Nat.le_div_iff_mul_le hT]
    calc b * T = T * b := Nat.mul_comm _ _
      _ = B := hb.symm
      _ ≤ p := h
  calc B = T * b := hb
    _ = b * T := Nat.mul_comm _ _
    _ ≤ p / T * T := Nat.mul_le_mul_right T h1

/-- The indices below `s` in `Fin E` number `s`. -/
theorem card_filter_lt_fin {E : ℕ} (s : Fin E) : (univ.filter fun e' : Fin E => e' < s).card = s.val := by
  rw [filter_gt_eq_Iio, Fin.card_Iio]

/-- The tile that holds the slot of sorted position `k` starts at or after exactly `key (σ k)` of the padded
    inclusive prefix sums: the tile belongs to the key's group. -/
theorem tile_owner {n E : ℕ} {T : ℕ} (hT : 0 < T) (key : Fin n → Fin E) (σ : Fin n → Fin n) (hσ : Function.Bijective σ)
    (hmono : ∀ k k' : Fin n, k ≤ k' → key (σ k) ≤ key (σ k')) (k : Fin n) :
    (univ.filter fun e' : Fin E => upto (fun e => pad T (size key e)) e' ≤ slot T key σ k / T * T).card = (key (σ k)).val := by
  -- the slot lies in its group's padded range, whose start is a multiple of the tile
  have hlow : before (fun e => pad T (size key e)) (key (σ k)) ≤ slot T key σ k := Nat.le_add_right _ _
  have hhigh := slot_lt_upto hT key σ hσ hmono k
  have hdvd : T ∣ before (fun e => pad T (size key e)) (key (σ k)) := by
    unfold before
    exact dvd_sum (fun e' _ => dvd_pad T _)
  have hq_le : slot T key σ k / T * T ≤ slot T key σ k := Nat.div_mul_le_self _ _
  have hq_ge := le_tile_start hT hdvd hlow
  -- so the tile start sits between the group's padded start and padded end
  have hset : (univ.filter fun e' : Fin E => upto (fun e => pad T (size key e)) e' ≤ slot T key σ k / T * T)
      = univ.filter fun e' : Fin E => e' < key (σ k) := by
    ext e'
    simp only [mem_filter, mem_univ, true_and]
    constructor
    · intro h
      by_contra hcon
      have h5 := upto_mono (fun e => pad T (size key e)) (not_lt.mp hcon)
      omega
    · intro h
      have h5 := upto_le_before (fun e => pad T (size key e)) h
      omega
  rw [hset, card_filter_lt_fin]

end Cert.Lib.SortedLayout
-- ==== Proof.Counts.lean ====
/-
  The per-module counts and their running sums, as natural numbers. With `key` a row's clamped id: `sz` counts the rows
  of each module, `cs` / `off` are its inclusive / exclusive prefix sums, `psz` rounds each count up to a multiple of
  1024, and `pcs` / `poff` are the prefix sums of the rounded counts. No sum wraps: the counts total 65536 and the
  rounded counts at most 65536 + 8 · 1023.
-/
import proofs.«424534_j25864293056980_3_alg».proof.Proof.Stages
import proofs.«424534_j25864293056980_3_alg».proof.Proof.SortOrder
import proofs.«424534_j25864293056980_3_alg».proof.Proof.LibSortedLayout
import proofs.«424534_j25864293056980_3_alg».proof.Proof.LibWordArith
import Idealize.ShloMosaic.Lib.StableHlo.Predicate

noncomputable section

namespace Cert.KernelIdeal.Counts

open Idealize.ShloMosaic Cert.KernelIdeal Cert.KernelIdeal.Gen Cert.KernelIdeal.Stages Cert.KernelIdeal.SortOrder
open Cert.Lib.SortedLayout

/-- The rounded count of module `e`. -/
abbrev psize (mid : IVec S65536 32) (e : Fin 8) : ℕ := pad 1024 (size (key mid) e)

/-! ### Reading the mask of "row `p` has id `e`" -/

/-- Bit (p, e) of the mask (ids laid along the rows, `0..7` along the columns, compared for equality) is set exactly
    when row `p`'s clamped id is `e`. -/
theorem mask_iff (mid : IVec S65536 32) (p : Fin 65536) (e : Fin 8) :
    cmpi .eq
      (broadcastInDim S65536x8 ![0, 1] bcast_S65536x1_S65536x8_0_1 (col65536 (ids mid)))
      (broadcastInDim S65536x8 ![0, 1] bcast_S1x8_S65536x8_0_1
        (broadcastInDim S1x8 ![1] bcast_S8_S1x8_1 (iotaInDim S8 32 0)))
      (StableHlo.Predicate.ij p e) = 1#1 ↔ key mid p = e := by
  have hA : broadcastInDim S65536x8 ![0, 1] bcast_S65536x1_S65536x8_0_1 (col65536 (ids mid)) (StableHlo.Predicate.ij p e)
      = ids mid (Shape.Idx.ofFin p) :=
    StableHlo.Predicate.bcast_rows bcast_S65536_S65536x1_0 bcast_S65536x1_S65536x8_0_1 (ids mid) p e
  have hB : broadcastInDim S65536x8 ![0, 1] bcast_S1x8_S65536x8_0_1
      (broadcastInDim S1x8 ![1] bcast_S8_S1x8_1 (iotaInDim S8 32 0)) (StableHlo.Predicate.ij p e)
      = BitVec.ofNat 32 e.val :=
    StableHlo.Predicate.bcast_cols bcast_S8_S1x8_1 bcast_S1x8_S65536x8_0_1 (iotaInDim S8 32 0) p e
  show IntOp.cmpi .eq _ _ = 1#1 ↔ _
  rw [hA, hB, StableHlo.Predicate.cmpi_eq_iff]
  have he := e.isLt
  constructor
  · -- the id is the word `e`, and `e` is small, so its value is `e`
    intro h
    apply Fin.ext
    show (ids mid (Shape.Idx.ofFin p)).toNat = e.val
    rw [h, BitVec.toNat_ofNat]
    omega
  · -- a word is determined by its value
    intro h
    have h' : (ids mid (Shape.Idx.ofFin p)).toNat = e.val := congrArg Fin.val h
    apply BitVec.eq_of_toNat_eq
    rw [BitVec.toNat_ofNat, h']
    omega

theorem sz_toNat (mid : IVec S65536 32) (e : Fin 8) : (sz mid (Shape.Idx.ofFin e)).toNat = size (key mid) e := by
  unfold sz
  -- the column sum of the widened mask counts the rows whose bit is set
  rw [StableHlo.Predicate.toNat_reduce_count_rows (n := 65536) (m := 8) (by norm_num)]
  unfold Cert.Lib.SortedLayout.size
  apply congrArg Finset.card
  apply Finset.filter_congr
  intro p _
  exact mask_iff mid p e

/-- An inclusive prefix sum is at most the whole sum. -/
theorem upto_le_sum {E : ℕ} (f : Fin E → ℕ) (e : Fin E) : upto f e ≤ ∑ e', f e' := by
  unfold Cert.Lib.SortedLayout.upto
  exact Finset.sum_le_sum_of_subset (Finset.subset_univ _)

/-- The running sums of the counts stay below the number of rows. -/
theorem upto_size_le (mid : IVec S65536 32) (e : Fin 8) : upto (size (key mid)) e ≤ 65536 :=
  (upto_le_sum _ e).trans (le_of_eq (sum_size (key mid)))

/-- The inclusive running sum over the eight modules, read as natural numbers while the total does not wrap. -/
theorem cumsum8_apply (x : IVec S8 32) (hsum : ∑ e' : Fin 8, (x (Shape.Idx.ofFin e')).toNat < 2 ^ 32) (e : Fin 8) :
    (cumsum8 x (Shape.Idx.ofFin e)).toNat = ∑ e' ∈ Finset.univ.filter (· ≤ e), (x (Shape.Idx.ofFin e')).toNat := by
  unfold cumsum8
  exact Cert.Lib.WordArith.cumsum8_toNat reduceWindows_S8_S8_w8s1p7_0 h_S_ x
    (broadcastInDim S_ ![] bcast_S_S_ (constantI S_ 32 0#32)) rfl hsum e

theorem cs_toNat (mid : IVec S65536 32) (e : Fin 8) : (cs mid (Shape.Idx.ofFin e)).toNat = upto (size (key mid)) e := by
  -- the counts total 65536: the running sum does not wrap
  have hsum : ∑ e' : Fin 8, (sz mid (Shape.Idx.ofFin e')).toNat < 2 ^ 32 := by
    simp only [sz_toNat]
    rw [sum_size]
    norm_num
  unfold cs
  rw [cumsum8_apply (sz mid) hsum e]
  unfold Cert.Lib.SortedLayout.upto
  exact Finset.sum_congr rfl (fun e' _ => sz_toNat mid e')

theorem off_toNat (mid : IVec S65536 32) (e : Fin 8) : (off mid (Shape.Idx.ofFin e)).toNat = before (size (key mid)) e := by
  have hc := cs_toNat mid e
  have hs := sz_toNat mid e
  have hle := upto_size_le mid e
  have hup := upto_eq_before_add (size (key mid)) e
  -- inclusive minus own count, with no borrow
  show (cs mid (Shape.Idx.ofFin e) - sz mid (Shape.Idx.ofFin e)).toNat = _
  rw [BitVec.toNat_sub, hc, hs]
  omega

/-! ### Rounding a count up to a multiple of 1024, on words -/

/-- Floor division of a word by 1024 through truncating division, at one entry. -/
def fdWord (a : BitVec 32) : BitVec 32 :=
  Scalar.select
    (IntOp.andi (IntOp.cmpi .ne (Cert.Lib.WordArith.sgn a) (Cert.Lib.WordArith.sgn 1024#32))
      (IntOp.cmpi .ne (IntOp.remsi .host a 1024#32) 0#32))
    (IntOp.subi (IntOp.divsi .host a 1024#32) 1#32) (IntOp.divsi .host a 1024#32)

/-- The rounded count as a word computation: `((x + 1024 - 1) div 1024) * 1024`. -/
def padWord (x : BitVec 32) : BitVec 32 :=
  IntOp.muli (fdWord (IntOp.subi (IntOp.addi x 1024#32) 1#32)) 1024#32

/-- Entry by entry, the rounded counts are that word computation of the counts. -/
theorem psz_apply (mid : IVec S65536 32) (i : S8.Idx) : psz mid i = padWord (sz mid i) := rfl

theorem padWord_toNat (x : BitVec 32) (hx : x.toNat ≤ 65536) :
    (padWord x).toNat = Cert.Lib.SortedLayout.pad 1024 x.toNat := by
  -- x + 1024 - 1 without wrap
  have hA : (IntOp.subi (IntOp.addi x 1024#32) 1#32).toNat = x.toNat + 1023 := by
    show ((x + 1024#32) - 1#32).toNat = _
    rw [BitVec.toNat_sub, BitVec.toNat_add]
    simp only [BitVec.toNat_ofNat]
    omega
  have hfd : (fdWord (IntOp.subi (IntOp.addi x 1024#32) 1#32)).toNat = (x.toNat + 1023) / 1024 := by
    rw [← hA]
    exact Cert.Lib.WordArith.floorDiv1024 _ (by rw [hA]; omega)
  -- the quotient is at most 64, so the product does not wrap either
  show (fdWord (IntOp.subi (IntOp.addi x 1024#32) 1#32) * 1024#32).toNat = _
  rw [BitVec.toNat_mul, hfd]
  unfold Cert.Lib.SortedLayout.pad
  simp only [BitVec.toNat_ofNat]
  omega

/-- A module's count is at most the number of rows. -/
theorem size_le (mid : IVec S65536 32) (e : Fin 8) : size (key mid) e ≤ 65536 := by
  have h1 := upto_size_le mid e
  have h2 := upto_eq_before_add (size (key mid)) e
  omega

theorem psz_toNat (mid : IVec S65536 32) (e : Fin 8) : (psz mid (Shape.Idx.ofFin e)).toNat = psize mid e := by
  rw [psz_apply, padWord_toNat _ (by rw [sz_toNat]; exact size_le mid e), sz_toNat]

/-- The rounded counts total at most 65536 + 8 · 1023. -/
theorem sum_psize_le (mid : IVec S65536 32) : ∑ e' : Fin 8, psize mid e' ≤ 73720 := by
  calc ∑ e' : Fin 8, psize mid e' ≤ ∑ e' : Fin 8, (size (key mid) e' + 1023) :=
        Finset.sum_le_sum (fun e' _ => pad_le 1024 _)
    _ = 73720 := by
        rw [Finset.sum_add_distrib, sum_size, Finset.sum_const, Finset.card_univ, Fintype.card_fin]
        norm_num

/-- The rounded running sums are at most the total of the rounded counts. -/
theorem upto_psize_le' (mid : IVec S65536 32) (e : Fin 8) : upto (psize mid) e ≤ 73720 :=
  (upto_le_sum _ e).trans (sum_psize_le mid)

theorem pcs_toNat (mid : IVec S65536 32) (e : Fin 8) : (pcs mid (Shape.Idx.ofFin e)).toNat = upto (psize mid) e := by
  -- the rounded counts total at most 73720: the running sum does not wrap
  have hsum : ∑ e' : Fin 8, (psz mid (Shape.Idx.ofFin e')).toNat < 2 ^ 32 := by
    simp only [psz_toNat]
    exact lt_of_le_of_lt (sum_psize_le mid) (by norm_num)
  unfold pcs
  rw [cumsum8_apply (psz mid) hsum e]
  unfold Cert.Lib.SortedLayout.upto
  exact Finset.sum_congr rfl (fun e' _ => psz_toNat mid e')

theorem poff_toNat (mid : IVec S65536 32) (e : Fin 8) : (poff mid (Shape.Idx.ofFin e)).toNat = before (psize mid) e := by
  have hc := pcs_toNat mid e
  have hs := psz_toNat mid e
  have hle := upto_psize_le' mid e
  have hup := upto_eq_before_add (psize mid) e
  show (pcs mid (Shape.Idx.ofFin e) - psz mid (Shape.Idx.ofFin e)).toNat = _
  rw [BitVec.toNat_sub, hc, hs]
  omega

/-- The rounded running sums stay below the padded capacity of 72 tiles. -/
theorem upto_psize_le (mid : IVec S65536 32) (e : Fin 8) : upto (psize mid) e ≤ 73720 := by
  exact upto_psize_le' mid e

end Cert.KernelIdeal.Counts

end
-- ==== Proof.Slots.lean ====
/-
  The padded slot of each sorted position, as a natural number: the padded start of the position's module plus the
  position's rank inside the module — the layout's `slot` for a tile of 1024. It lies below the padded capacity.
-/
import proofs.«424534_j25864293056980_3_alg».proof.Proof.Counts
import Idealize.ShloMosaic.Lib.StableHlo.Predicate

noncomputable section

namespace Cert.KernelIdeal.Slots

open Idealize.ShloMosaic Cert.KernelIdeal Cert.KernelIdeal.Gen Cert.KernelIdeal.Stages Cert.KernelIdeal.SortOrder
open Cert.KernelIdeal.Counts Cert.Lib.SortedLayout

/-- A table of eight words read at the sorted id of position `k` is the table at that position's key. -/
theorem atSid_apply (tab : IVec S8 32) (mid : IVec S65536 32) (k : Fin 65536) :
    atSid tab mid (Shape.Idx.ofFin k) = tab (Shape.Idx.ofFin (key mid (σ mid k))) := by
  have hw : (ids mid (Shape.Idx.ofFin (σ mid k))).toNat ≤ 7 := ids_le mid (σ mid k)
  -- the index column at position k holds the wrapped sorted id; the id is non-negative, so the wrap does nothing
  have hidx : col65536 (wrap65536 8#32 (sid mid)) (StableHlo.Predicate.ixP k) = ids mid (Shape.Idx.ofFin (σ mid k)) := by
    unfold col65536
    rw [StableHlo.Predicate.bcast_col1]
    show Scalar.select
        (IntOp.cmpi .slt (sid mid (Shape.Idx.ofFin k))
          (broadcastInDim S65536 ![] _ (constantI S_ 32 0#32) (Shape.Idx.ofFin k)))
        (IntOp.addi (sid mid (Shape.Idx.ofFin k))
          (broadcastInDim S65536 ![] _ (constantI S_ 32 8#32) (Shape.Idx.ofFin k)))
        (sid mid (Shape.Idx.ofFin k)) = _
    rw [StableHlo.Predicate.bcast_scalar _ (by decide), StableHlo.Predicate.bcast_scalar _ (by decide), sid_apply]
    exact Cert.Lib.WordArith.wrap_of_nonneg _ _ (by omega)
  unfold atSid
  rw [StableHlo.Predicate.gather_take gather_S8_S65536x1_S65536_n_0_n_n_0_1_1 rfl rfl rfl rfl tab _ k (by decide)]
  -- read signed and clamped into the table, an id in [0, 7] is itself
  refine congrArg tab (congrArg Shape.Idx.ofFin (Fin.ext ?_))
  show min (col65536 (wrap65536 8#32 (sid mid)) (StableHlo.Predicate.ixP k)).toInt.toNat (8 - 1)
    = (ids mid (Shape.Idx.ofFin (σ mid k))).toNat
  rw [hidx, StableHlo.Predicate.toInt_eq_toNat_of_lt (by omega), Int.toNat_natCast]
  omega

theorem ppos_toNat (mid : IVec S65536 32) (k : Fin 65536) :
    (ppos mid (Shape.Idx.ofFin k)).toNat = slot 1024 (key mid) (σ mid) k := by
  -- position k lies inside its module's group, so k minus the module's start does not borrow
  obtain ⟨h1, _⟩ := rank_in_group (key mid) (σ mid) (σ_bijective mid) (key_mono mid) k
  have hA : (poff mid (Shape.Idx.ofFin (key mid (σ mid k)))).toNat
      = before (fun e => Cert.Lib.SortedLayout.pad 1024 (size (key mid) e)) (key mid (σ mid k)) := poff_toNat mid _
  have hB : (off mid (Shape.Idx.ofFin (key mid (σ mid k)))).toNat = before (size (key mid)) (key mid (σ mid k)) :=
    off_toNat mid _
  have hU : upto (fun e => Cert.Lib.SortedLayout.pad 1024 (size (key mid) e)) (key mid (σ mid k)) ≤ 73720 :=
    upto_psize_le mid _
  have hUB := upto_eq_before_add (fun e => Cert.Lib.SortedLayout.pad 1024 (size (key mid) e)) (key mid (σ mid k))
  have hk := k.isLt
  show (IntOp.addi (atSid (poff mid) mid (Shape.Idx.ofFin k))
      (IntOp.subi (iotaInDim S65536 32 0 (Shape.Idx.ofFin k)) (atSid (off mid) mid (Shape.Idx.ofFin k)))).toNat = _
  rw [atSid_apply, atSid_apply, StableHlo.Predicate.iota_apply]
  show (_ + (_ - _) : BitVec 32).toNat = _
  unfold slot
  rw [BitVec.toNat_add, BitVec.toNat_sub, BitVec.toNat_ofNat, hA, hB]
  omega

theorem ppos_lt (mid : IVec S65536 32) (k : Fin 65536) : (ppos mid (Shape.Idx.ofFin k)).toNat < 73728 := by
  rw [ppos_toNat]
  have h1 := slot_lt_upto (T := 1024) (by decide) (key mid) (σ mid) (σ_bijective mid) (key_mono mid) k
  have h2 : upto (fun e => Cert.Lib.SortedLayout.pad 1024 (size (key mid) e)) (key mid (σ mid k)) ≤ 73720 :=
    upto_psize_le mid _
  omega

end Cert.KernelIdeal.Slots

end
-- ==== Proof.LibScatterSet.lean ====
/-
  A scatter that SETS (its body returns the update) a rank-1 array at a column of pairwise distinct, in-range
  positions: the update `x[idx] := v` at an injective index vector. The scatter is the left fold, over the
  updates in order, of "write update `k` at position `idx k`"; distinct positions never overwrite one another, so the
  result holds update `k` at position `pos k` and the operand everywhere else.
-/
import Idealize.ShloMosaic.Lib.StableHlo.Predicate

namespace Cert.Lib.ScatterSet

open Idealize.ShloMosaic Idealize.ShloMosaic.StableHlo.Predicate

/-! ## The fold of point writes -/

/-- A left fold of point writes `r ↦ (i' ↦ if i' = P n then U n else r i')` leaves a position that no write of the
    list names as the accumulator had it. -/
theorem foldl_set_miss {ι β κ : Type} [DecidableEq ι] (P : κ → ι) (U : κ → β) :
    ∀ (L : List κ) (r : ι → β) (p : ι), (∀ a ∈ L, P a ≠ p) →
      (L.foldl (fun r n => fun i' => if i' = P n then U n else r i') r) p = r p := by
  intro L
  induction L with
  | nil => intro r p _; rfl
  | cons a L ih =>
    intro r p hp
    rw [List.foldl_cons, ih _ p (fun b hb => hp b (List.mem_cons_of_mem _ hb))]
    have hne : p ≠ P a := fun h => hp a List.mem_cons_self h.symm
    exact if_neg hne

/-- When the writes of the list go to pairwise distinct positions, the fold holds write `n₀`'s value at its
    position: the writes before it are overwritten or elsewhere, the writes after it are elsewhere. -/
theorem foldl_set_hit {ι β κ : Type} [DecidableEq ι] (P : κ → ι) (U : κ → β) :
    ∀ (L : List κ) (r : ι → β), L.Nodup → (∀ a ∈ L, ∀ b ∈ L, P a = P b → a = b) → ∀ n₀ ∈ L,
      (L.foldl (fun r n => fun i' => if i' = P n then U n else r i') r) (P n₀) = U n₀ := by
  intro L
  induction L with
  | nil => intro r _ _ n₀ h; exact absurd h List.not_mem_nil
  | cons a L ih =>
    intro r hnd hinj n₀ hn₀
    rw [List.foldl_cons]
    rcases List.mem_cons.1 hn₀ with h | h
    · -- the head write: no later write names its position
      subst h
      have hnot : n₀ ∉ L := (List.nodup_cons.1 hnd).1
      rw [foldl_set_miss P U L _ (P n₀) (fun b hb hPb => hnot (by
        have := hinj b (List.mem_cons_of_mem _ hb) n₀ List.mem_cons_self hPb
        rw [← this]; exact hb))]
      exact if_pos rfl
    · exact ih _ (List.nodup_cons.1 hnd).2
        (fun b hb c hc => hinj b (List.mem_cons_of_mem _ hb) c (List.mem_cons_of_mem _ hc)) n₀ h

/-! ## Where an update lands -/

/-- Update `j` lands at position `pos (j 0)`: its start is the index column's entry in row `j 0` read signed, its
    window coordinate on the one (inserted) operand axis is 0, and `pos` is in range. -/
theorem resultIdx?_eq {N n w : ℕ} (d : ScatterDims ⟨1, ![N]⟩ ⟨2, ![n, 1]⟩ ⟨1, ![n]⟩)
    (hiw : d.insertedWindowDims = [0]) (hsd : d.scatterDimsToOperandDims = [0])
    (hivd : d.indexVectorDim = 1) (idx : IVec ⟨2, ![n, 1]⟩ w)
    (pos : Fin n → Fin N) (hpos : ∀ k : Fin n, (idx (ixP k)).toInt = ((pos k).val : ℤ))
    (j : (⟨1, ![n]⟩ : Shape).Idx) :
    d.resultIdx? j idx = some (Shape.Idx.ofFin (pos (j 0))) := by
  have hmem : (0 : Fin 1) ∈ d.scatterDimsToOperandDims := by rw [hsd]; exact List.mem_singleton.mpr rfl
  have hk : (0 : Fin 1) ∉ d.sKept := by
    show (0 : Fin 1) ∉ (List.finRange 1).filter (· ∉ d.insertedWindowDims)
    rw [hiw]; simp
  -- the scatter-indices index the start is read at is row `j 0` of the column
  have hsi : d.siIdx j ⟨d.scatterDimsToOperandDims.idxOf (0 : Fin 1), List.idxOf_lt_length_iff.2 hmem⟩ = ixP (j 0) := by
    funext b
    match b with
    | ⟨0, _⟩ =>
      unfold ScatterDims.siIdx
      rw [dif_neg (by rw [hivd]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hstart : ∀ a : Fin 1, d.start j idx a = ((pos (j 0)).val : ℤ) := by
    intro a
    have ha : a = 0 := Subsingleton.elim _ _
    subst ha
    unfold ScatterDims.start
    rw [dif_pos hmem, hsi]
    exact hpos (j 0)
  have hwin : ∀ a : Fin 1, d.window j a = 0 := by
    intro a
    have ha : a = 0 := Subsingleton.elim _ _
    subst ha
    unfold ScatterDims.window
    rw [dif_neg hk]
  unfold ScatterDims.resultIdx?
  have hin : ∀ a : Fin 1, 0 ≤ d.start j idx a + (d.window j a : ℤ) ∧
      d.start j idx a + (d.window j a : ℤ) < ((⟨1, ![N]⟩ : Shape).size a : ℤ) := by
    intro a
    have ha : a = 0 := Subsingleton.elim _ _
    subst ha
    rw [hstart, hwin]
    have := (pos (j 0)).isLt
    constructor
    · omega
    · show ((pos (j 0)).val : ℤ) + ((0 : ℕ) : ℤ) < (N : ℤ)
      omega
  rw [dif_pos hin]
  congr 1
  funext a
  have ha : a = 0 := Subsingleton.elim _ _
  subst ha
  apply Fin.ext
  show (d.start j idx 0 + (d.window j 0 : ℤ)).toNat = (pos (j 0)).val
  rw [hstart, hwin]
  omega

/-- With every update landing at `pos` of its number, the scatter is the fold of point writes at those positions. -/
theorem scatter_eq_foldl {α : Type} {N n w : ℕ} (d : ScatterDims ⟨1, ![N]⟩ ⟨2, ![n, 1]⟩ ⟨1, ![n]⟩)
    (hiw : d.insertedWindowDims = [0]) (hsd : d.scatterDimsToOperandDims = [0])
    (hivd : d.indexVectorDim = 1)
    (x : (⟨1, ![N]⟩ : Shape).Idx → α) (idx : IVec ⟨2, ![n, 1]⟩ w) (upd : (⟨1, ![n]⟩ : Shape).Idx → α)
    (pos : Fin n → Fin N) (hpos : ∀ k : Fin n, (idx (ixP k)).toInt = ((pos k).val : ℤ)) :
    Host.scatter d (fun _ b => b) x idx upd
      = (List.finRange (⟨1, ![n]⟩ : Shape).numel).foldl
          (fun r m => fun i' =>
            if i' = Shape.Idx.ofFin (pos (((⟨1, ![n]⟩ : Shape).rowMajor.symm m) 0))
            then upd ((⟨1, ![n]⟩ : Shape).rowMajor.symm m) else r i') x := by
  unfold Host.scatter
  congr 1
  funext r m
  rw [resultIdx?_eq d hiw hsd hivd idx pos hpos]

/-- At position `pos k` the scatter leaves update `k`. The dimension numbers are the printed ones of a rank-1
    operand scattered at one index per update (`huw` … `hivd`, each by `rfl` at a use); `hpos`: the index column,
    read signed, is `pos`; `hinj`: the positions are pairwise distinct. -/
theorem scatter_set_hit {α : Type} {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![N]⟩ : Shape).Idx → α) (idx : IVec ⟨2, ![n, 1]⟩ w) (upd : (⟨1, ![n]⟩ : Shape).Idx → α)
    (pos : Fin n → Fin N) (hpos : ∀ k : Fin n, (idx (ixP k)).toInt = ((pos k).val : ℤ)) (hinj : Function.Injective pos)
    (k : Fin n) :
    Host.scatter d (fun _ b => b) x idx upd (Shape.Idx.ofFin (pos k)) = upd (Shape.Idx.ofFin k) := by
  rw [scatter_eq_foldl d hiw hsd hivd x idx upd pos hpos]
  -- update `k` is number `n₀` in row-major order
  let u : Shape := ⟨1, ![n]⟩
  let n₀ : Fin u.numel := u.rowMajor (Shape.Idx.ofFin k)
  have hn₀ : u.rowMajor.symm n₀ = Shape.Idx.ofFin k := u.rowMajor.symm_apply_apply _
  have key := foldl_set_hit (fun m : Fin u.numel => (Shape.Idx.ofFin (pos ((u.rowMajor.symm m) 0)) : (⟨1, ![N]⟩ : Shape).Idx))
    (fun m => upd (u.rowMajor.symm m)) (List.finRange u.numel) x (List.nodup_finRange _)
    (fun a _ b _ hab => by
      -- equal positions are equal update numbers: `pos` is injective and a rank-1 index is its coordinate
      have h0 := congrFun hab (0 : Fin 1)
      rw [Shape.Idx.ofFin_zero, Shape.Idx.ofFin_zero] at h0
      have h1 : (u.rowMajor.symm a) 0 = (u.rowMajor.symm b) 0 := hinj h0
      have h2 : u.rowMajor.symm a = u.rowMajor.symm b := by
        rw [Shape.Idx.eq_ofFin (u.rowMajor.symm a), Shape.Idx.eq_ofFin (u.rowMajor.symm b), h1]
      exact u.rowMajor.symm.injective h2)
    n₀ (List.mem_finRange _)
  simp only [hn₀, Shape.Idx.ofFin_zero] at key
  exact key

/-- A position no update names keeps the operand's element. -/
theorem scatter_set_miss {α : Type} {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![N]⟩ : Shape).Idx → α) (idx : IVec ⟨2, ![n, 1]⟩ w) (upd : (⟨1, ![n]⟩ : Shape).Idx → α)
    (pos : Fin n → Fin N) (hpos : ∀ k : Fin n, (idx (ixP k)).toInt = ((pos k).val : ℤ))
    (p : Fin N) (hp : ∀ k : Fin n, pos k ≠ p) :
    Host.scatter d (fun _ b => b) x idx upd (Shape.Idx.ofFin p) = x (Shape.Idx.ofFin p) := by
  rw [scatter_eq_foldl d hiw hsd hivd x idx upd pos hpos]
  refine foldl_set_miss _ _ _ x (Shape.Idx.ofFin p) (fun a _ hPa => ?_)
  have h0 := congrFun hPa (0 : Fin 1)
  rw [Shape.Idx.ofFin_zero, Shape.Idx.ofFin_zero] at h0
  exact hp _ h0

end Cert.Lib.ScatterSet
-- ==== Proof.Tables.lean ====
/-
  The three routing tables read back. The slot table `dest` holds, at the row that lands at sorted position `k`, that
  position's padded slot (a scatter through a permutation). The back-pointer table `src` holds, at that slot, the row
  (a scatter through the pairwise distinct slots). The tile label `eid` of tile `t` is the number of rounded running
  sums at or before the tile's first slot, capped at 7.
-/
import proofs.«424534_j25864293056980_3_alg».proof.Proof.Slots
import proofs.«424534_j25864293056980_3_alg».proof.Proof.LibScatterSet
import Idealize.ShloMosaic.Lib.StableHlo.Predicate

noncomputable section

namespace Cert.KernelIdeal.Tables

open Idealize.ShloMosaic Cert.KernelIdeal Cert.KernelIdeal.Gen Cert.KernelIdeal.Stages Cert.KernelIdeal.SortOrder
open Cert.KernelIdeal.Counts Cert.KernelIdeal.Slots Cert.Lib.SortedLayout
open Idealize.ShloMosaic.StableHlo.Predicate

/-- The negative-index wrap leaves an entry below 2³¹ (a non-negative word) as it is. -/
theorem wrap65536_apply (n : BitVec 32) (x : IVec S65536 32) (i : S65536.Idx) (hx : (x i).toNat < 2 ^ 31) :
    wrap65536 n x i = x i := by
  show Scalar.select (IntOp.cmpi .slt (x i) 0#32) (IntOp.addi (x i) n) (x i) = x i
  exact Cert.Lib.WordArith.wrap_of_nonneg (x i) n hx

/-- Row `k` of the index column made from a vector of non-negative words is the vector's entry `k`. -/
theorem col_wrap_apply (n : BitVec 32) (x : IVec S65536 32) (k : Fin 65536) (hx : (x (Shape.Idx.ofFin k)).toNat < 2 ^ 31) :
    col65536 (wrap65536 n x) (ixP k) = x (Shape.Idx.ofFin k) := by
  unfold col65536
  rw [bcast_col1, wrap65536_apply n x _ hx]

theorem dest_apply (mid : IVec S65536 32) (k : Fin 65536) :
    dest mid (Shape.Idx.ofFin (σ mid k)) = ppos mid (Shape.Idx.ofFin k) := by
  unfold dest
  -- the index column, read signed at row k', is the row number σ k': a word below 65536
  have hord : ∀ k' : Fin 65536, (ord mid (Shape.Idx.ofFin k')).toNat < 2 ^ 31 := by
    intro k'
    rw [ord_apply, BitVec.toNat_ofNat]
    have := (σ mid k').isLt
    omega
  have hpos : ∀ k' : Fin 65536,
      ((col65536 (wrap65536 65536#32 (ord mid))) (ixP k')).toInt = ((σ mid k').val : ℤ) := by
    intro k'
    rw [col_wrap_apply _ _ _ (hord k'), ord_apply]
    exact toInt_ofNat_small _ (by have := (σ mid k').isLt; omega)
  exact Cert.Lib.ScatterSet.scatter_set_hit scatter_S65536_S65536x1_S65536_n_0_0_1 rfl rfl rfl rfl _ _ (ppos mid)
    (σ mid) hpos (σ_bijective mid).1 k

theorem src_apply (mid : IVec S65536 32) (k : Fin 65536) (p : Fin 73728)
    (hp : p.val = (ppos mid (Shape.Idx.ofFin k)).toNat) :
    src mid (Shape.Idx.ofFin p) = ord mid (Shape.Idx.ofFin k) := by
  -- the slot of sorted position k', as a position of the table
  let pos : Fin 65536 → Fin 73728 := fun k' => ⟨(ppos mid (Shape.Idx.ofFin k')).toNat, ppos_lt mid k'⟩
  have hpk : p = pos k := Fin.ext hp
  rw [hpk]
  unfold src
  have hlt : ∀ k' : Fin 65536, (ppos mid (Shape.Idx.ofFin k')).toNat < 2 ^ 31 := by
    intro k'
    have := ppos_lt mid k'
    omega
  have hpos : ∀ k' : Fin 65536,
      ((col65536 (wrap65536 73728#32 (ppos mid))) (ixP k')).toInt = ((pos k').val : ℤ) := by
    intro k'
    rw [col_wrap_apply _ _ _ (hlt k')]
    exact toInt_eq_toNat_of_lt (hlt k')
  -- distinct sorted positions have distinct slots
  have hinj : Function.Injective pos := by
    intro a b hab
    have h0 : (pos a).val = (pos b).val := by rw [hab]
    have h1 : (ppos mid (Shape.Idx.ofFin a)).toNat = (ppos mid (Shape.Idx.ofFin b)).toNat := h0
    rw [ppos_toNat, ppos_toNat] at h1
    exact slot_injective (by decide : 0 < 1024) (key mid) (σ mid) (σ_bijective mid) (key_mono mid) h1
  exact Cert.Lib.ScatterSet.scatter_set_hit scatter_S73728_S65536x1_S65536_n_0_0_1 rfl rfl rfl rfl _ _ (ord mid)
    pos hpos hinj k

/-- The signed minimum of two non-negative words is the minimum of their values. -/
theorem minsi_toNat (a b : BitVec 32) (ha : a.toNat < 2 ^ 31) (hb : b.toNat < 2 ^ 31) :
    (IntOp.minsi a b).toNat = min a.toNat b.toNat := by
  have hta : a.toInt = a.toNat := toInt_eq_toNat_of_lt ha
  have htb : b.toInt = b.toNat := toInt_eq_toNat_of_lt hb
  unfold IntOp.minsi
  split <;> rename_i hc <;> simp only [BitVec.slt, hta, htb, decide_eq_true_eq] at hc <;> omega

theorem eid_toNat (mid : IVec S65536 32) (t : Fin 72) :
    (eid mid (Shape.Idx.ofFin t)).toNat
      = min (Finset.univ.filter fun e : Fin 8 => upto (psize mid) e ≤ t.val * 1024).card 7 := by
  -- the mask: row t, column e is set when the running sum of e is at or before the first slot of tile t
  let mask : IVec S72x8 1 :=
    cmpi .sge
      (broadcastInDim S72x8 ![0, 1] bcast_S72x1_S72x8_0_1 (broadcastInDim S72x1 ![0] bcast_S72_S72x1_0
        (muli (iotaInDim S72 32 0) (broadcastInDim S72 ![] bcast_S_S72 (constantI S_ 32 1024#32)))))
      (broadcastInDim S72x8 ![0, 1] bcast_S1x8_S72x8_0_1 (broadcastInDim S1x8 ![1] bcast_S8_S1x8_1 (pcs mid)))
  let cnt : BitVec 32 :=
    Host.reduce IntOp.addi (extui 32 mask natLt_1_32) (constantI S_ 32 0#32) reducesTo_S72x8_S72_d1 h_S_ (Shape.Idx.ofFin t)
  have heid : eid mid (Shape.Idx.ofFin t) = IntOp.minsi cnt 7#32 := rfl
  -- the first slot of tile t as a word: t · 1024 with t ≤ 71, no wrap
  have hstart : (IntOp.muli (BitVec.ofNat 32 t.val) 1024#32).toNat = t.val * 1024 := by
    show (BitVec.ofNat 32 t.val * 1024#32).toNat = t.val * 1024
    rw [BitVec.toNat_mul, BitVec.toNat_ofNat, BitVec.toNat_ofNat]
    have := t.isLt
    omega
  have hbit : ∀ e : Fin 8, mask (ij t e) = 1#1 ↔ upto (psize mid) e ≤ t.val * 1024 := by
    intro e
    have hA : (broadcastInDim S72x8 ![0, 1] bcast_S72x1_S72x8_0_1 (broadcastInDim S72x1 ![0] bcast_S72_S72x1_0
        (muli (iotaInDim S72 32 0) (broadcastInDim S72 ![] bcast_S_S72 (constantI S_ 32 1024#32))))) (ij t e)
          = IntOp.muli (BitVec.ofNat 32 t.val) 1024#32 := by
      rw [bcast_rows]; rfl
    have hB : (broadcastInDim S72x8 ![0, 1] bcast_S1x8_S72x8_0_1 (broadcastInDim S1x8 ![1] bcast_S8_S1x8_1 (pcs mid))) (ij t e)
          = pcs mid (Shape.Idx.ofFin e) := by
      rw [bcast_cols]
    show IntOp.cmpi .sge _ _ = 1#1 ↔ _
    rw [hA, hB]
    have hle := upto_psize_le mid e
    have ht := t.isLt
    rw [sge_iff_toNat (by rw [hstart]; omega) (by rw [pcs_toNat]; omega), hstart, pcs_toNat]
  have hcnt : cnt.toNat = (Finset.univ.filter fun e : Fin 8 => upto (psize mid) e ≤ t.val * 1024).card := by
    show (Host.reduce IntOp.addi (extui 32 mask natLt_1_32) (constantI S_ 32 0#32) reducesTo_S72x8_S72_d1 h_S_
      (Shape.Idx.ofFin t)).toNat = _
    rw [toNat_reduce_count_cols (by decide) mask natLt_1_32 reducesTo_S72x8_S72_d1 h_S_ (Shape.Idx.ofFin t),
      Shape.Idx.ofFin_zero]
    congr 1
    exact Finset.filter_congr (fun e _ => hbit e)
  -- at most 8 columns are counted, so the signed minimum with 7 is the natural one
  have hle8 : cnt.toNat ≤ 8 := by
    rw [hcnt]
    exact le_trans (Finset.card_filter_le _ _) (by simp)
  rw [heid, minsi_toNat cnt 7#32 (by omega) (by decide), hcnt]
  rfl

end Cert.KernelIdeal.Tables

end
-- ==== Proof.Spec.lean ====
/-
  The specification: a routed linear layer. Row `i` of the result is row `i` of the features times the weight matrix
  of the module that row's id names, plus that module's bias:
      out[i, j] = Σ_k x[i, k] · W[id_i, k, j] + b[id_i, j].
  The id is read as a natural number and reduced modulo the number of modules, so that the function is total; on ids
  in range the reduction does nothing.

  Beside it, what the routed implementation's integer tables have to satisfy for it to compute this function: every
  source row `i` has a slot `dest i` in the padded array, the slot's back-pointer names `i`, and the tile holding the
  slot is labelled with `i`'s module id.
-/
import Idealize.ShloMosaic.PureOps.Ideal
import Idealize.ShloMosaic.Lib.ValueIdx
import Idealize.ShloMosaic.Lib.SortFacts

noncomputable section

namespace Cert.Spec

open Idealize.ShloMosaic Idealize.ShloMosaic.ValueIdx

/-- The module a row's id names, as a position among the eight modules. -/
def modOf (mid : (⟨1, ![65536]⟩ : Shape).Idx → BitVec 32) (i : Fin 65536) : Fin 8 :=
  ⟨(mid (Shape.Idx.ofFin i)).toNat % 8, Nat.mod_lt _ (by decide)⟩

/-- The routed linear layer on the extended reals. -/
def G (x : (⟨2, ![65536, 1024]⟩ : Shape).Idx → EReal) (mid : (⟨1, ![65536]⟩ : Shape).Idx → BitVec 32)
    (W : (⟨3, ![8, 1024, 1024]⟩ : Shape).Idx → EReal) (b : (⟨2, ![8, 1024]⟩ : Shape).Idx → EReal) :
    (⟨2, ![65536, 1024]⟩ : Shape).Idx → EReal :=
  fun i => (∑ k : Fin 1024, x (ix2 (i 0) k) * W (ix3 (modOf mid (i 0)) k (i 1))) + b (ix2 (modOf mid (i 0)) (i 1))

/-- What the routing tables satisfy: `dest` sends every source row to a slot of the padded array, `src` points
    back from that slot to the row, and `eid` labels the slot's tile of 1024 slots with the row's module id. -/
structure Routing (mid : (⟨1, ![65536]⟩ : Shape).Idx → BitVec 32) (dest : (⟨1, ![65536]⟩ : Shape).Idx → BitVec 32)
    (src : (⟨1, ![73728]⟩ : Shape).Idx → BitVec 32) (eid : (⟨1, ![72]⟩ : Shape).Idx → BitVec 32) : Prop where
  dest_lt : ∀ i : Fin 65536, (dest (Shape.Idx.ofFin i)).toNat < 73728
  src_dest : ∀ (i : Fin 65536) (p : Fin 73728), p.val = (dest (Shape.Idx.ofFin i)).toNat →
    (src (Shape.Idx.ofFin p)).toNat = i.val
  eid_dest : ∀ (i : Fin 65536) (t : Fin 72), t.val = (dest (Shape.Idx.ofFin i)).toNat / 1024 →
    (eid (Shape.Idx.ofFin t)).toNat = (mid (Shape.Idx.ofFin i)).toNat

end Cert.Spec

end
-- ==== Proof.RoutingProof.lean ====
/-
  The routing tables route: for ids in range, every row `i` has a slot below the padded capacity, the slot's
  back-pointer is `i`, and the slot's tile is labelled with `i`'s id. Row `i` is the row at some sorted position `k`
  (the sort is a permutation); its slot is the layout's slot of `k`, whose tile belongs to `k`'s key.
-/
import proofs.«424534_j25864293056980_3_alg».proof.Proof.Tables
import proofs.«424534_j25864293056980_3_alg».proof.Proof.Spec

noncomputable section

namespace Cert.KernelIdeal.RoutingProof

open Idealize.ShloMosaic Cert.KernelIdeal Cert.KernelIdeal.Gen Cert.KernelIdeal.Stages Cert.KernelIdeal.SortOrder
open Cert.KernelIdeal.Counts Cert.KernelIdeal.Slots Cert.KernelIdeal.Tables Cert.Lib.SortedLayout

theorem routing (mid : IVec S65536 32) (hmid : ∀ i : Fin 65536, (mid (Shape.Idx.ofFin i)).toNat < 8) :
    Cert.Spec.Routing mid (dest mid) (src mid) (eid mid) := by
  -- the sort is a permutation, so every row is the row at some sorted position
  have hsurj : Function.Surjective (σ mid) := (σ_bijective mid).2
  refine ⟨?_, ?_, ?_⟩
  · -- the slot of the row at position `k` is the padded slot of `k`, below the capacity
    intro i
    obtain ⟨k, rfl⟩ := hsurj i
    rw [dest_apply]
    exact ppos_lt mid k
  · -- the back-pointer at that slot is the sorted order's entry at `k`, the number of the row; it fits a word
    intro i p hp
    obtain ⟨k, rfl⟩ := hsurj i
    rw [dest_apply] at hp
    rw [src_apply mid k p hp, ord_apply, BitVec.toNat_ofNat]
    exact Nat.mod_eq_of_lt (lt_trans (σ mid k).isLt (by decide))
  · -- the tile of that slot starts at or after exactly `key` of the padded running sums, and `key ≤ 7`
    intro i t ht
    obtain ⟨k, rfl⟩ := hsurj i
    rw [dest_apply, ppos_toNat] at ht
    have hown : (Finset.univ.filter fun e : Fin 8 => upto (psize mid) e ≤ t.val * 1024).card
        = (key mid (σ mid k)).val := by
      rw [ht]
      exact tile_owner (by decide : 0 < 1024) (key mid) (σ mid) (σ_bijective mid) (key_mono mid) k
    have hk : (key mid (σ mid k)).val ≤ 7 := Nat.le_of_lt_succ (key mid (σ mid k)).isLt
    -- the key is the clamped id, and the clamp does nothing on an id in range
    have hkey : (key mid (σ mid k)).val = (mid (Shape.Idx.ofFin (σ mid k))).toNat := by
      show (ids mid (Shape.Idx.ofFin (σ mid k))).toNat = _
      rw [ids_of_lt mid (σ mid k) (hmid (σ mid k))]
    rw [eid_toNat, hown, Nat.min_eq_left hk, hkey]

end Cert.KernelIdeal.RoutingProof

end
-- ==== Proof.LibGatherRows.lean ====
/-
  The lookup `table[idx]` over a rank-2 table, row by row: a gather whose start indices are an [n × 1] column, whose
  first operand axis is collapsed and start-indexed and whose second is carried whole. Result row `p` is the table's
  row at `p`'s start index read signed and clamped into the table.
-/
import Idealize.ShloMosaic.Lib.StableHlo.Predicate

namespace Cert.Lib.GatherRows

open Idealize.ShloMosaic Idealize.ShloMosaic.StableHlo.Predicate

/-- A list known to be the singleton of `x` holds `x` at every valid position. -/
private theorem getElem_of_eq_singleton {β : Type} (L : List β) (x : β) (k : Nat) (h : k < L.length) (e : L = [x]) :
    L[k] = x := by
  subst e
  have hk : k = 0 := by simpa using h
  subst hk
  rfl

/-- Row `p`, column `q` of the gathered [n × K] result reads the [N × K] table at row `min idx_p (N - 1)` (the start
    index read signed; a negative one reads row 0), column `q`. The dimension numbers are the printed ones, each by
    `rfl` at a use. -/
theorem gather_rows {α : Type} {N K n w : ℕ} (d : GatherDims ⟨2, ![N, K]⟩ ⟨2, ![n, 1]⟩ ⟨2, ![n, K]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, K])
    (x : (⟨2, ![N, K]⟩ : Shape).Idx → α) (idx : IVec ⟨2, ![n, 1]⟩ w) (p : Fin n) (q : Fin K) (hN : 0 < N) :
    Host.gather d x idx (ij p q) = x (ij ⟨min (idx (ixP p)).toInt.toNat (N - 1), by omega⟩ q) := by
  unfold Host.gather
  congr 1
  funext a
  revert a
  -- no operand axis is a batching axis
  have hb : ∀ a : Fin 2, a ∉ d.operandBatchingDims := fun a => by rw [hob]; exact List.not_mem_nil
  -- the operand's kept axes: axis 1 alone; the result's batch axes: axis 0 alone
  have hsK : d.sKept = ([1] : List (Fin 2)) := by
    show (List.finRange 2).filter (· ∉ d.collapsedSliceDims ++ d.operandBatchingDims) = [1]
    rw [hcoll, hob]; rfl
  have hbD : d.batchDims = ([0] : List (Fin 2)) := by
    show (List.finRange 2).filter (· ∉ d.offsetDims) = [0]
    rw [hoff]; rfl
  -- the result's coordinates at (p, q)
  have e0 : ∀ X : Fin 2, X = 0 → ((ij p q : (⟨2, ![n, K]⟩ : Shape).Idx) X).val = p.val := by
    intro X hX; subst hX; rfl
  have e1 : ∀ X : Fin 2, X = 1 → ((ij p q : (⟨2, ![n, K]⟩ : Shape).Idx) X).val = q.val := by
    intro X hX; subst hX; rfl
  refine Fin.forall_fin_two.2 ⟨?_, ?_⟩ <;> apply Fin.ext
  · -- operand axis 0: collapsed (offset coordinate 0) and start-indexed: the clamped start index of row p
    have hk : (0 : Fin 2) ∉ d.sKept := by rw [hsK]; simp
    have hm : (0 : Fin 2) ∈ d.startIndexMap := by rw [hsim]; exact List.mem_singleton.mpr rfl
    have hsl : d.sliceSizes 0 = 1 := by rw [hss]; rfl
    -- every component of the start index of result row p is read at row p of the index column
    have hrow : ∀ c, d.siIdx (ij p q) c = ixP p := by
      intro c
      funext b
      revert b
      refine Fin.forall_fin_two.2 ⟨?_, ?_⟩
      · -- the batch coordinate: the result's batch axis 0 reads the start indices' axis 0
        unfold GatherDims.siIdx
        rw [dif_neg (by rw [hivd]; simp)]
        unfold GatherDims.siCoord
        apply Fin.ext
        simp only [Fin.val_cast]
        exact e0 _ (getElem_of_eq_singleton _ _ _ _ hbD)
      · -- the index vector's axis has size 1
        unfold GatherDims.siIdx
        rw [dif_pos (by rw [hivd]; rfl)]
        apply Fin.ext
        have hl : d.startIndexMap.length = 1 := by rw [hsim]; rfl
        have hc := c.isLt
        show c.val = 0
        omega
    simp only [GatherDims.operandIdx, GatherDims.batchCoord_eq_zero _ _ _ (hb 0), GatherDims.offCoord_eq_zero _ _ _ hk,
      Nat.add_zero, GatherDims.start, dif_pos hm, hrow]
    show min (idx (ixP p)).toInt.toNat (N - d.sliceSizes 0) = min (idx (ixP p)).toInt.toNat (N - 1)
    rw [hsl]
  · -- operand axis 1: an offset axis, not start-indexed: start 0, offset coordinate the result's column q
    have hk : (1 : Fin 2) ∈ d.sKept := by rw [hsK]; exact List.mem_singleton.mpr rfl
    have hm : (1 : Fin 2) ∉ d.startIndexMap := by rw [hsim]; simp
    simp only [GatherDims.operandIdx, GatherDims.batchCoord_eq_zero _ _ _ (hb 1), GatherDims.start, dif_neg hm,
      Nat.add_zero, Nat.zero_add]
    unfold GatherDims.offCoord
    rw [dif_pos hk]
    show ((ij p q : (⟨2, ![n, K]⟩ : Shape).Idx) _).val = q.val
    exact e1 _ (getElem_of_eq_singleton _ _ _ _ hoff)

end Cert.Lib.GatherRows
-- ==== Proof.KernelAlgebra.lean ====
/-
  From the padded array back to the rows. The grouped matrix product leaves, in padded row `p` of tile `p / 1024`,
  the padded features' row `p` times the weight matrix of the tile's label plus that label's bias (`Gpad`). The
  result gathers padded row `dest i` for every source row `i`. With the routing tables routing — the slot's
  back-pointer is `i`, so the padded features' row at the slot is row `i` of the features; the slot's tile is
  labelled with `i`'s id — that row is the routed linear layer's row `i`. Narrowing the float format changes
  nothing on the extended reals.
-/
import proofs.«424534_j25864293056980_3_alg».proof.Proof.Stages
import proofs.«424534_j25864293056980_3_alg».proof.Proof.Spec
import proofs.«424534_j25864293056980_3_alg».proof.Proof.LibGatherRows
import proofs.«424534_j25864293056980_3_alg».proof.Proof.LibWordArith
import Idealize.ShloMosaic.Lib.StableHlo.Predicate
import Idealize.ShloMosaic.Lib.ValueIdx
import Idealize.ShloMosaic.Lib.Pipeline.Value
import Idealize.ShloMosaic.PureOps.Ideal.Laws

noncomputable section

namespace Cert.KernelIdeal.KernelAlgebra

open Idealize.ShloMosaic Idealize.ShloMosaic.ValueIdx Cert.KernelIdeal Cert.KernelIdeal.Gen Cert.KernelIdeal.Stages

/-- The label of the tile that holds padded row `p`, as one of the eight modules. -/
def lab (eid : IVec S72 32) (p : Fin 73728) : Fin 8 :=
  ⟨(eid (Shape.Idx.ofFin (⟨p.val / 1024, by have := p.isLt; omega⟩ : Fin 72))).toNat % 8, Nat.mod_lt _ (by decide)⟩

/-- What the padded output array holds: padded row `p` of the features through the module its tile is labelled with. -/
def Gpad (xp : S73728x1024.Idx → EReal) (w : S8x1024x1024.Idx → EReal) (b : S8x1024.Idx → EReal) (eid : IVec S72 32) :
    S73728x1024.Idx → EReal :=
  fun j => (∑ k : Fin 1024, xp (ix2 (j 0) k) * w (ix3 (lab eid (j 0)) k (j 1))) + b (ix2 (lab eid (j 0)) (j 1))

/-- An index written as (row, column): the two spellings are the same function. -/
theorem ij_eq_ix2 {n m : ℕ} (p : Fin n) (q : Fin m) : StableHlo.Predicate.ij p q = ix2 p q := by
  funext a
  match a with
  | ⟨0, _⟩ => rfl
  | ⟨1, _⟩ => rfl

/-- Row `p`, column `q` of a row gather whose start index at `p` is the non-negative word of value `r`, a row of the
    table: the table at row `r`, column `q` (read signed the word is `r`, and the clamp into the table does nothing). -/
theorem gather_rows_at {α : Type} {N K n : ℕ} (d : GatherDims ⟨2, ![N, K]⟩ ⟨2, ![n, 1]⟩ ⟨2, ![n, K]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, K])
    (x : (⟨2, ![N, K]⟩ : Shape).Idx → α) (idx : IVec ⟨2, ![n, 1]⟩ 32) (p : Fin n) (q : Fin K) (r : Fin N)
    (hr : (idx (StableHlo.Predicate.ixP p)).toNat = r.val) (h31 : r.val < 2 ^ 31) :
    Host.gather d x idx (ix2 p q) = x (ix2 r q) := by
  have hN : 0 < N := Nat.lt_of_le_of_lt (Nat.zero_le _) r.isLt
  rw [← ij_eq_ix2, ← ij_eq_ix2, Cert.Lib.GatherRows.gather_rows d hoff hcoll hob hsb hsim hivd hss x idx p q hN]
  refine congrArg x (congrArg (fun t => StableHlo.Predicate.ij t q) (Fin.ext ?_))
  show min (idx (StableHlo.Predicate.ixP p)).toInt.toNat (N - 1) = r.val
  rw [StableHlo.Predicate.toInt_eq_toNat_of_lt (by omega), Int.toNat_natCast, hr]
  have := r.isLt
  omega

/-- The index column built from a vector of words through the negative-index wrap, at position `k`: a non-negative
    word is left alone by the wrap, and the column at `k` is the vector at `k`. -/
theorem wrap_col_apply {n : ℕ}
    (hb0 : S_.BroadcastsInDim (⟨1, ![n]⟩ : Shape) (![] : Fin 0 → Fin (⟨1, ![n]⟩ : Shape).rank))
    (hc : (⟨1, ![n]⟩ : Shape).BroadcastsInDim (⟨2, ![n, 1]⟩ : Shape) (![0] : Fin 1 → Fin (⟨2, ![n, 1]⟩ : Shape).rank))
    (m : BitVec 32) (v : IVec ⟨1, ![n]⟩ 32) (k : Fin n) (hv : (v (Shape.Idx.ofFin k)).toNat < 2 ^ 31) :
    broadcastInDim (⟨2, ![n, 1]⟩ : Shape) ![0] hc
        (select (cmpi .slt v (broadcastInDim (⟨1, ![n]⟩ : Shape) ![] hb0 (constantI S_ 32 0#32)))
          (addi v (broadcastInDim (⟨1, ![n]⟩ : Shape) ![] hb0 (constantI S_ 32 m))) v)
        (StableHlo.Predicate.ixP k) = v (Shape.Idx.ofFin k) := by
  rw [StableHlo.Predicate.bcast_col1]
  show Scalar.select
      (IntOp.cmpi .slt (v (Shape.Idx.ofFin k))
        (broadcastInDim (⟨1, ![n]⟩ : Shape) ![] hb0 (constantI S_ 32 0#32) (Shape.Idx.ofFin k)))
      (IntOp.addi (v (Shape.Idx.ofFin k))
        (broadcastInDim (⟨1, ![n]⟩ : Shape) ![] hb0 (constantI S_ 32 m) (Shape.Idx.ofFin k)))
      (v (Shape.Idx.ofFin k)) = _
  rw [StableHlo.Predicate.bcast_scalar _ (by decide), StableHlo.Predicate.bcast_scalar _ (by decide)]
  exact Cert.Lib.WordArith.wrap_of_nonneg _ _ hv

/-- The padded output at row `p`, column `j`. -/
theorem Gpad_apply (xp : S73728x1024.Idx → EReal) (w : S8x1024x1024.Idx → EReal) (b : S8x1024.Idx → EReal) (eid : IVec S72 32)
    (p : Fin 73728) (j : Fin 1024) :
    Gpad xp w b eid (ix2 p j)
      = (∑ k : Fin 1024, xp (ix2 p k) * w (ix3 (lab eid p) k j)) + b (ix2 (lab eid p) j) := rfl

/-- The routed linear layer at row `i`, column `j`. -/
theorem G_apply (x : S65536x1024.Idx → EReal) (mid : IVec S65536 32) (W : S8x1024x1024.Idx → EReal) (b : S8x1024.Idx → EReal)
    (i : Fin 65536) (j : Fin 1024) :
    Cert.Spec.G x mid W b (ix2 i j)
      = (∑ k : Fin 1024, x (ix2 i k) * W (ix3 (Cert.Spec.modOf mid i) k j)) + b (ix2 (Cert.Spec.modOf mid i) j) := rfl

/-- The padded, narrowed features at a slot whose back-pointer is row `i`: row `i` of the features. The back-pointer is
    non-negative, so the wrap leaves it; row `i` is below the appended zero row, so the concatenation reads the
    features; narrowing is the identity on the extended reals. -/
theorem xin_row (x : S65536x1024.Idx → EReal) (mid : IVec S65536 32) (p : Fin 73728) (i : Fin 65536)
    (hs : (src mid (Shape.Idx.ofFin p)).toNat = i.val) (k : Fin 1024) :
    xin (F := Ideal) x mid (ix2 p k) = x (ix2 i k) := by
  have hi := i.isLt
  obtain ⟨r, hr⟩ : ∃ r : Fin 65537, r.val = i.val := ⟨⟨i.val, by omega⟩, rfl⟩
  have hcol : (col73728 (wrap73728 65537#32 (src mid)) (StableHlo.Predicate.ixP p)).toNat = r.val := by
    unfold col73728 wrap73728
    rw [wrap_col_apply _ _ _ _ p (by omega), hs, hr]
  unfold xin
  rw [gather_rows_at gather_S65537x1024_S73728x1_S73728x1024_1_0_n_n_0_1_11024 rfl rfl rfl rfl rfl rfl rfl _ _ p k r hcol (by omega)]
  exact concatenate_pair_apply_left (t := S65537x1024) (s₁ := S65536x1024) (s₂ := S1x1024) (0 : Fin 2) _ _ _ _ rfl (ix2 i k)
    (fun b => by
      match b with
      | ⟨0, _⟩ => exact hr.symm
      | ⟨1, _⟩ => rfl)

/-- Gathering the slots' rows of the padded output gives the routed linear layer, when the tables route. -/
theorem out_eq (x : S65536x1024.Idx → EReal) (mid : IVec S65536 32) (W : S8x1024x1024.Idx → EReal) (b : S8x1024.Idx → EReal)
    (hmid : ∀ i : Fin 65536, (mid (Shape.Idx.ofFin i)).toNat < 8)
    (hR : Cert.Spec.Routing mid (dest mid) (src mid) (eid mid)) :
    Host.gather gather_S73728x1024_S65536x1_S65536x1024_1_0_n_n_0_1_11024
        (Gpad (xin (F := Ideal) x mid) (wbf (F := Ideal) W) b (eid mid)) (col65536 (wrap65536 73728#32 (dest mid)))
      = Cert.Spec.G x mid W b := by
  funext ij0
  obtain ⟨i, j, rfl⟩ : ∃ (i : Fin 65536) (j : Fin 1024), ij0 = ix2 i j := ⟨ij0 0, ij0 1, eq_ix2 ij0⟩
  -- (1) the slot of row i, a row of the padded array
  have hd := hR.dest_lt i
  obtain ⟨p, hp⟩ : ∃ p : Fin 73728, p.val = (dest mid (Shape.Idx.ofFin i)).toNat := by
    generalize (dest mid (Shape.Idx.ofFin i)).toNat = pv at hd ⊢
    exact ⟨⟨pv, hd⟩, rfl⟩
  have hcol1 : (col65536 (wrap65536 73728#32 (dest mid)) (StableHlo.Predicate.ixP i)).toNat = p.val := by
    unfold col65536 wrap65536
    rw [wrap_col_apply _ _ _ _ i (by omega), hp]
  rw [gather_rows_at gather_S73728x1024_S65536x1_S65536x1024_1_0_n_n_0_1_11024 rfl rfl rfl rfl rfl rfl rfl _ _ i j p hcol1 (by have := p.isLt; omega)]
  -- (2) the slot's tile is labelled with row i's module
  have hlab : lab (eid mid) p = Cert.Spec.modOf mid i := Fin.ext (by
    show (eid mid (Shape.Idx.ofFin (⟨p.val / 1024, _⟩ : Fin 72))).toNat % 8 = (mid (Shape.Idx.ofFin i)).toNat % 8
    rw [hR.eid_dest i ⟨p.val / 1024, _⟩ (by show p.val / 1024 = _; rw [hp])])
  -- (3) the slot's back-pointer is row i: the padded features' row at the slot is row i of the features
  have hs := hR.src_dest i p hp
  -- (4) narrowing the weights is the identity; both sides are now the same sum and the same bias entry
  have hw : ∀ idx : S8x1024x1024.Idx, wbf (F := Ideal) W idx = W idx := fun _ => rfl
  rw [Gpad_apply, G_apply, hlab]
  refine congrArg (· + b (ix2 (Cert.Spec.modOf mid i) j)) (Finset.sum_congr rfl fun k _ => ?_)
  rw [xin_row x mid p i hs k, hw]

end Cert.KernelIdeal.KernelAlgebra

end
-- ==== Proof.BlockIndex.lean ====
/-
  Where the tiles of the grouped matrix product lie in their arrays, for any contents of the arrays. Tile `t` of the
  padded features and of the padded output is rows `t · 1024 … t · 1024 + 1023`; the weight block of tile `t` is the
  matrix the tile's label names; the bias block is the whole table. Every row of the padded output lies in the tile
  `row / 1024`, so the tiles cover it.
-/
import proofs.«424534_j25864293056980_3_alg».proof.Proof.Gen.KernelIdeal.Frame.Runs
import Idealize.ShloMosaic.Lib.Pipeline.Value
import Idealize.ShloMosaic.Lib.ValueIdx
import Idealize.ShloMosaic.Lib.SortFacts

set_option maxRecDepth 16384

noncomputable section

namespace Cert.KernelIdeal.BlockIndex

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- A grid point's one coordinate, as the index maps read it back from a 32-bit word. -/
theorem coord_word (i : grid0.Coords) : (BitVec.ofNat 32 (i 0).val).toNat = (i 0).val := by
  have h : (i 0).val < 72 := (i 0).isLt
  rw [BitVec.toNat_ofNat]; exact Nat.mod_eq_of_lt (by omega)

theorem transform0_0 (i : grid0.Coords) : cc0_transform_0 i (0 : Fin 2) = (i 0).val := coord_word i
theorem transform0_1 (i : grid0.Coords) : cc0_transform_0 i (1 : Fin 2) = 0 := rfl
theorem transform3_0 (i : grid0.Coords) : cc0_transform_3 i (0 : Fin 2) = (i 0).val := coord_word i
theorem transform3_1 (i : grid0.Coords) : cc0_transform_3 i (1 : Fin 2) = 0 := rfl

/-- The grid is one axis of 72 points: point `t` has coordinate `t`. -/
theorem coords_val (t : Fin grid0.N) : ((grid0.coords t) 0).val = t.val := by
  revert t; decide +kernel

/-- Tile `t` of the padded features, read through its block, is rows `t · 1024 + ·` of the array. -/
theorem blk0_read (hO : Ok m) (t : Fin (cfgM m hO).N) (A : S73728x1024.Idx → Elt F .bf16) (y : S1024x1024.Idx)
    (h0 : t.val * 1024 + (y 0).val < 73728) :
    (((cfgM m hO).win 0).blk t).view.read (Elt F) A y
      = A (ix2 ⟨t.val * 1024 + (y 0).val, h0⟩ (y 1)) := by
  show A ((((cfgM m hO).win 0).blk t).view.emb y) = _
  refine congrArg A ?_
  funext a; apply Fin.ext
  match a with
  | ⟨0, _⟩ =>
    show cc0_transform_0 (grid0.coords t) (0 : Fin 2) * 1024 + 1 * (y 0).val = t.val * 1024 + (y 0).val
    rw [transform0_0, coords_val]; omega
  | ⟨1, _⟩ =>
    show cc0_transform_0 (grid0.coords t) (1 : Fin 2) * 1024 + 1 * (y 1).val = (y 1).val
    rw [transform0_1]; omega

/-- Tile `t` of the padded output, read through its block, is rows `t · 1024 + ·` of the array. -/
theorem blk3_read (hO : Ok m) (t : Fin (cfgM m hO).N) (A : S73728x1024.Idx → Elt F .f32) (y : S1024x1024.Idx)
    (h0 : t.val * 1024 + (y 0).val < 73728) :
    (((cfgM m hO).win 3).blk t).view.read (Elt F) A y
      = A (ix2 ⟨t.val * 1024 + (y 0).val, h0⟩ (y 1)) := by
  show A ((((cfgM m hO).win 3).blk t).view.emb y) = _
  refine congrArg A ?_
  funext a; apply Fin.ext
  match a with
  | ⟨0, _⟩ =>
    show cc0_transform_3 (grid0.coords t) (0 : Fin 2) * 1024 + 1 * (y 0).val = t.val * 1024 + (y 0).val
    rw [transform3_0, coords_val]; omega
  | ⟨1, _⟩ =>
    show cc0_transform_3 (grid0.coords t) (1 : Fin 2) * 1024 + 1 * (y 1).val = (y 1).val
    rw [transform3_1]; omega

/-- The bias block is the whole table of eight rows. -/
theorem blk2_read (hO : Ok m) (t : Fin (cfgM m hO).N) (A : S8x1024.Idx → Elt F .f32) (y : S8x1024.Idx) :
    (((cfgM m hO).win 2).blk t).view.read (Elt F) A y = A y := by
  show A ((((cfgM m hO).win 2).blk t).view.emb y) = _
  refine congrArg A ?_
  funext a; apply Fin.ext
  match a with
  | ⟨0, _⟩ => show 0 * 8 + 1 * (y 0).val = (y 0).val; omega
  | ⟨1, _⟩ => show 0 * 1024 + 1 * (y 1).val = (y 1).val; omega

/-- The label the weight window's index map reads off the table for point `t`. -/
def lbl (t : Fin grid0.N) : BitVec 32 :=
  (tbl m).at 0 (Rect.unit (s := S72) (k0_off1 (grid0.coords t)) S1.size (k0_off1_inb (grid0.coords t))) numel1_S1

/-- It is entry `t` of the table. -/
theorem lbl_eq (t : Fin grid0.N) : lbl m t = (tbl m 0 : IVec S72 32) (Shape.Idx.ofFin (n := 72) t) := by
  have key : ((Rect.unit (s := S72) (k0_off1 (grid0.coords t)) S1.size (k0_off1_inb (grid0.coords t))).emb
      (Shape.Idx.first (numel1_S1.symm ▸ Nat.one_pos)) : S72.Idx) = Shape.Idx.ofFin (n := 72) t := by
    rw [Shape.Idx.eq_ofFin (n := 72) ((Rect.unit (s := S72) (k0_off1 (grid0.coords t)) S1.size (k0_off1_inb (grid0.coords t))).emb
      (Shape.Idx.first (numel1_S1.symm ▸ Nat.one_pos)))]
    refine congrArg _ (Fin.ext ?_)
    show k0_off1 (grid0.coords t) 0 + 1 * ((Shape.Idx.first (numel1_S1.symm ▸ Nat.one_pos) : S1.Idx) 0).val = t.val
    have h1 : k0_off1 (grid0.coords t) 0 = ((grid0.coords t) 0).val := coord_word (grid0.coords t)
    have h2 : ((Shape.Idx.first (numel1_S1.symm ▸ Nat.one_pos) : S1.Idx) 0).val = 0 := by
      have := ((Shape.Idx.first (numel1_S1.symm ▸ Nat.one_pos) : S1.Idx) 0).isLt
      have e : S1.size (0 : Fin 1) = 1 := rfl
      omega
    rw [h1, h2, coords_val]
    omega
  exact congrArg (tbl m 0 : IVec S72 32) key

/-- The weight block of tile `t` is the matrix its label names. -/
theorem blk1_read (hO : Ok m) (t : Fin (cfgM m hO).N) (A : S8x1024x1024.Idx → Elt F .bf16) (y : S1x1024x1024.Idx)
    (h0 : (lbl m t).toNat + (y 0).val < 8) :
    (((cfgM m hO).win 1).blk t).view.read (Elt F) A y
      = A (ix3 ⟨(lbl m t).toNat + (y 0).val, h0⟩ (y 1) (y 2)) := by
  show A ((((cfgM m hO).win 1).blk t).view.emb y) = _
  refine congrArg A ?_
  funext a; apply Fin.ext
  match a with
  | ⟨0, _⟩ => show (lbl m t).toNat * 1 + 1 * (y 0).val = (lbl m t).toNat + (y 0).val; omega
  | ⟨1, _⟩ => show 0 * 1024 + 1 * (y 1).val = (y 1).val; omega
  | ⟨2, _⟩ => show 0 * 1024 + 1 * (y 2).val = (y 2).val; omega

/-- The tiles cover the padded output: row `r` lies in tile `r / 1024`, and every tile is written back. -/
theorem cover3 (hO : Ok m) (i : S73728x1024.Idx) :
    ∃ t : Fin (cfgM m hO).N, ((cfgM m hO).win 3).flush t = true ∧ i ∈ (((cfgM m hO).win 3).blk t).view.set := by
  have hi0 : (i 0).val < 73728 := (i 0).isLt
  have hi1 : (i 1).val < 1024 := (i 1).isLt
  let t : Fin (cfgM m hO).N := ⟨(i 0).val / 1024, by show (i 0).val / 1024 < 72; omega⟩
  let y : S1024x1024.Idx := fun a => match a with
    | ⟨0, _⟩ => ⟨(i 0).val % 1024, Nat.mod_lt _ (by decide)⟩
    | ⟨1, _⟩ => ⟨(i 1).val, hi1⟩
  refine ⟨t, flush0_3 (adm m hO) t, ?_⟩
  have e : i = (((cfgM m hO).win 3).blk t).view.emb y := by
    funext a; apply Fin.ext
    match a with
    | ⟨0, _⟩ =>
      show (i 0).val = cc0_transform_3 (grid0.coords t) (0 : Fin 2) * 1024 + 1 * ((i 0).val % 1024)
      rw [transform3_0, coords_val]
      show (i 0).val = (i 0).val / 1024 * 1024 + 1 * ((i 0).val % 1024)
      omega
    | ⟨1, _⟩ =>
      show (i 1).val = cc0_transform_3 (grid0.coords t) (1 : Fin 2) * 1024 + 1 * (i 1).val
      rw [transform3_1]; omega
  rw [e]
  exact (((cfgM m hO).win 3).blk t).view.emb_mem_set y

end Cert.KernelIdeal.BlockIndex

end
-- ==== Proof.Payload.lean ====
/-
  The kernel body's arithmetic at one entry, on the extended reals. The body multiplies a tile of 1024 rows of
  features by one module's [1024 × 1024] weight matrix into a zero accumulator and adds that module's bias row to
  every row: entry (p, q) of the result is  Σ_k x[p, k] · w[0, k, q] + bias[0, q].
-/
import proofs.«424534_j25864293056980_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-! ### The operand indices of the product: the left factor is read at (row, k), the right factor at (k, column) -/

theorem lhs_pay_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_pay_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_pay_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_pay_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product into a zero accumulator at entry (p, q): the sum over the 1024 contracted positions. -/
theorem matmul_zero_apply (a b : FVec Ideal S1024x1024 .bf16) (p q : Fin 1024) :
    matmul (F := Ideal) dot_S1024x1024_S1024x1024_S1024x1024_1_0_0_1_n_n none a b (constant (F := Ideal) S1024x1024 .f32 0x00000000#32) (ix2 p q)
      = ∑ k : Fin 1024, a (ix2 p k) * b (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_pay_0 _ _
    | ⟨1, _⟩ => exact (lhs_pay_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_pay_0 _ _).trans hk
    | ⟨1, _⟩ => exact rhs_pay_1 _ _)
  rw [el, er]

/-- The stored tile at row `p`, column `q`: the row of features times the column of the weight matrix, plus the bias. -/
theorem pay_apply (x0 : S1024x1024.Idx → EReal) (x1 : S1x1024x1024.Idx → EReal) (x2 : S1x1024.Idx → EReal)
    (p q : Fin 1024) :
    k0_pay1 (F := Ideal) x0 x1 x2 (ix2 p q)
      = (∑ k : Fin 1024, x0 (ix2 p k) * x1 (ix3 (0 : Fin 1) k q)) + x2 (ix2 (0 : Fin 1) q) := by
  unfold k0_pay1
  -- the sum of the product and the broadcast bias, entry by entry; the first cast is the identity
  rw [addf_apply, shapeCast_self, matmul_zero_apply]
  -- the bias row is broadcast along the rows: entry (p, q) reads column q of the one row
  rw [broadcastTo_apply _ _ (ix2 p q) (ix2 (0 : Fin 1) q) (fun a => by match a with | ⟨0, _⟩ => rfl | ⟨1, _⟩ => rfl)]
  rw [shapeCast_a_1a_apply, shapeCast_1a_a_apply]
  -- the weights lose their leading unit axis: entry (k, q) is entry (0, k, q)
  congr 1
  exact Finset.sum_congr rfl fun k _ => by rw [shapeCast_1ab_ab_apply]

end Cert.KernelIdeal.Payload

end
-- ==== Proof.BlockAlgebra.lean ====
/-
  One tile of the grouped matrix product. If the body's three loaded blocks at tile `t` are rows `t · 1024 …` of the
  padded features, the weight matrix of the tile's label and the bias row of the tile's label, then entry (p, q) of
  what the body stores is the padded array's function at row `t · 1024 + p`, column `q`: that row's tile is `t`.
-/
import proofs.«424534_j25864293056980_3_alg».proof.Proof.Payload
import proofs.«424534_j25864293056980_3_alg».proof.Proof.KernelAlgebra

noncomputable section

namespace Cert.KernelIdeal.BlockAlgebra

open Idealize.ShloMosaic Idealize.ShloMosaic.ValueIdx Cert.KernelIdeal Cert.KernelIdeal.Gen Cert.KernelIdeal.KernelAlgebra

theorem block_eq (xp : S73728x1024.Idx → EReal) (w : S8x1024x1024.Idx → EReal) (b : S8x1024.Idx → EReal) (eid : IVec S72 32)
    (t : Fin 72) (hl : (eid (Shape.Idx.ofFin t)).toNat < 8)
    (x0 : S1024x1024.Idx → EReal) (x1 : S1x1024x1024.Idx → EReal) (x2 : S1x1024.Idx → EReal)
    (h0 : ∀ (p k : Fin 1024) (h : t.val * 1024 + p.val < 73728), x0 (ix2 p k) = xp (ix2 ⟨t.val * 1024 + p.val, h⟩ k))
    (h1 : ∀ k q : Fin 1024, x1 (ix3 (0 : Fin 1) k q) = w (ix3 ⟨(eid (Shape.Idx.ofFin t)).toNat, hl⟩ k q))
    (h2 : ∀ q : Fin 1024, x2 (ix2 (0 : Fin 1) q) = b (ix2 ⟨(eid (Shape.Idx.ofFin t)).toNat, hl⟩ q))
    (p q : Fin 1024) (h : t.val * 1024 + p.val < 73728) :
    k0_pay1 (F := Ideal) x0 x1 x2 (ix2 p q) = Gpad xp w b eid (ix2 ⟨t.val * 1024 + p.val, h⟩ q) := by
  -- the body's value at (p, q) is the product of the loaded blocks plus the loaded bias row
  rw [Payload.pay_apply]
  show _ = (∑ k : Fin 1024, xp (ix2 (⟨t.val * 1024 + p.val, h⟩ : Fin 73728) k)
      * w (ix3 (lab eid ⟨t.val * 1024 + p.val, h⟩) k q)) + b (ix2 (lab eid ⟨t.val * 1024 + p.val, h⟩) q)
  -- row `t · 1024 + p` with `p < 1024` lies in tile `t`, and the tile's label is already below 8
  have hlab : lab eid ⟨t.val * 1024 + p.val, h⟩ = ⟨(eid (Shape.Idx.ofFin t)).toNat, hl⟩ := by
    have hp : p.val < 1024 := p.isLt
    have hdiv : (t.val * 1024 + p.val) / 1024 = t.val := by omega
    have ht : (⟨(t.val * 1024 + p.val) / 1024, by omega⟩ : Fin 72) = t := Fin.ext hdiv
    apply Fin.ext
    show (eid (Shape.Idx.ofFin (⟨(t.val * 1024 + p.val) / 1024, by omega⟩ : Fin 72))).toNat % 8
      = (eid (Shape.Idx.ofFin t)).toNat
    rw [ht]
    exact Nat.mod_eq_of_lt hl
  rw [hlab, h2 q]
  congr 1
  exact Finset.sum_congr rfl fun k _ => by rw [h0 p k h, h1 k q]

end Cert.KernelIdeal.BlockAlgebra

end
-- ==== Proof.RegionValue.lean ====
/-
  What the grouped matrix product leaves, and what the program returns. At every tile the body stores one whole block:
  the tile's rows of the padded features times the weight matrix its label names, plus that label's bias row. So tile by
  tile the padded output is the function `Gpad` of the arrays the region finds, and since the tiles cover the padded
  output it ends holding `Gpad` everywhere. The program's result is the gather of that array's rows at the slot table.
-/
import proofs.«424534_j25864293056980_3_alg».proof.Proof.Gen.KernelIdeal.Frame
import proofs.«424534_j25864293056980_3_alg».proof.Proof.BlockIndex
import proofs.«424534_j25864293056980_3_alg».proof.Proof.BlockAlgebra
import proofs.«424534_j25864293056980_3_alg».proof.Proof.TableOk
import proofs.«424534_j25864293056980_3_alg».proof.Proof.Stages
import Idealize.ShloMosaic.Lib.Pipeline.Value
import Idealize.ShloMosaic.Lib.ValueIdx
import Idealize.ShloMosaic.Lib.StableHlo.Run

set_option maxRecDepth 16384

noncomputable section

namespace Cert.KernelIdeal.RegionValue

open Idealize.ShloMosaic Idealize.ShloMosaic.TcCoe Idealize.ShloMosaic.Tactic Idealize.SL.Sem Idealize.ShloMosaic.ValueIdx
open Idealize.ShloMosaic.StableHlo
open Cert.KernelIdeal Cert.KernelIdeal.Gen Cert.KernelIdeal.BlockIndex Cert.KernelIdeal.KernelAlgebra

theorem hz : (![0, 0] : Fin 2 → Nat) = fun _ => 0 := funext fun a => by fin_cases a <;> rfl
theorem hz3 : (![0, 0, 0] : Fin 3 → Nat) = fun _ => 0 := funext fun a => by fin_cases a <;> rfl

section Piece
variable {F : FTy → Type} [FloatOps F]

/-- The body's one store is the whole block: the payload of the features block, the weight block, and the row of the
    bias block that the word read off the table names. -/
theorem piece (c : Dev nD) (i : grid0.Coords) (arg2 : Memref sig .tc .vmem S1024x1024 .bf16) (harg2 : arg2.IsWhole) (arg3 : Memref sig .tc .vmem S1x1024x1024 .bf16) (harg3 : arg3.IsWhole) (arg4 : Memref sig .tc .vmem S8x1024 .f32) (harg4 : arg4.IsWhole) (arg5 : Memref sig .tc .vmem S1024x1024 .f32) (harg5 : arg5.IsWhole)
    (x0 : Vec F S1024x1024 .bf16) (x1 : Vec F S1x1024x1024 .bf16) (x2 : Vec F S8x1024 .f32) (xt0 : TbBuf0 (F := F) c tbM0_0) (k0_hw1 : k0_chk1 (tbM0_0.view.readAt (Elt F) (Rect.unit (s := S72) (k0_off1 i) S1.size (k0_off1_inb i)).toLoadRect xt0 (Shape.Idx.first (numel1_S1.symm ▸ Nat.one_pos)))) :
    out0_A_3 c i arg2 harg2 arg3 harg3 arg4 harg4 arg5 harg5 x0 x1 x2 xt0 k0_hw1
      = k0_pay1 x0 x1 (View.ld x2 (Rect.unit (s := S8x1024) (k0_off2 (tbM0_0.view.readAt (Elt F) (Rect.unit (s := S72) (k0_off1 i) S1.size (k0_off1_inb i)).toLoadRect xt0 (Shape.Idx.first (numel1_S1.symm ▸ Nat.one_pos)))) S1x1024.size (k0_off2_inb _ k0_hw1))) := by
  unfold out0_A_3
  rw [View.read_writes_eq_canon _ _ _ (cover0_A_3 c i arg2 harg2 arg3 harg3 arg4 harg4 arg5 harg5 x0 x1 x2 xt0 k0_hw1)]
  unfold kernelRun0_A
  dsimp only
  sl_unfold_words
  rw [View.canon_unit_zero hz]
  simp only [View.readAt_eq_ld, Memref.IsWhole.read_unread, View.ld_unit_zero (S := S1024x1024) hz, View.ld_unit_zero (S := S1x1024x1024) hz3]

end Piece

variable (m : (ℓ : Loc nD τ sig) → Buf (Elt Ideal) ℓ) (ρ : Dev nD → PrngReg)

/-- The word the body reads off the table at point `t` is the label the weight window's index map reads. -/
theorem word_eq (t : Fin grid0.N) :
    tbM0_0.view.readAt (Elt Ideal) (Rect.unit (s := S72) (k0_off1 (grid0.coords t)) S1.size (k0_off1_inb (grid0.coords t))).toLoadRect (tbl m 0) (Shape.Idx.first (numel1_S1.symm ▸ Nat.one_pos))
      = lbl m t := rfl

/-- The label of every tile is one of the eight modules. -/
theorem lbl_lt (t : Fin grid0.N) : (lbl m t).toNat < 8 := by
  rw [lbl_eq]; exact Cert.KernelIdeal.TableOk.tbl_lt m _

/-- Two functions on a [1024 × 1024] block agree when they agree at every (p, q). -/
theorem ext_ix2 {α : Type} (f g : S1024x1024.Idx → α) (h : ∀ p q : Fin 1024, f (ix2 p q) = g (ix2 p q)) : f = g :=
  funext fun y => by rw [eq_ix2 y]; exact h _ _

/-- The bias block read at the row a word below 8 names is that row of the table. -/
theorem bias_row (A2 : Vec Ideal S8x1024 .f32) (w : BitVec 32) (hw : k0_chk1 w) (hlt : w.toNat < 8) (q : Fin 1024) :
    View.ld A2 (Rect.unit (s := S8x1024) (k0_off2 w) S1x1024.size (k0_off2_inb w hw)) (ix2 (0 : Fin 1) q)
      = A2 (ix2 ⟨w.toNat, hlt⟩ q) := by
  show A2 ((Rect.unit (s := S8x1024) (k0_off2 w) S1x1024.size (k0_off2_inb w hw)).emb (ix2 (0 : Fin 1) q)) = _
  refine congrArg A2 ?_
  funext a; apply Fin.ext
  match a with
  | ⟨0, _⟩ => show w.toNat + 1 * 0 = w.toNat; omega
  | ⟨1, _⟩ => show 0 + 1 * q.val = q.val; omega

/-- What the body leaves at point `t`: the payload of the point's three blocks, the bias block read at the label's row. -/
theorem outs_eq (hO : Ok m) (hH : Hyps m hO) (c : Dev nD) (t : Fin (cfgM m hO).N) :
    outsAt0 m hO hH c t
      = k0_pay1 (F := Ideal) (iblk m hO c 0 t) (iblk m hO c 1 t)
          (View.ld (iblk m hO c 2 t) (Rect.unit (s := S8x1024) (k0_off2 (lbl m t)) S1x1024.size (k0_off2_inb (lbl m t) (Hyps.c0 hH c t)))) := by
  unfold outsAt0
  exact piece (F := Ideal) c (grid0.coords t) (ms0_0 m hO t) (hs0_0 m hO t) (ms0_1 m hO t) (hs0_1 m hO t) (ms0_2 m hO t) (hs0_2 m hO t)
    (ms0_3 m hO t) (hs0_3 m hO t) (iblk m hO c 0 t) (iblk m hO c 1 t) (iblk m hO c 2 t) (tbl m 0) (Hyps.c0 hH c t)

-- From here on the table is opaque: nothing below looks inside it.
attribute [local irreducible] Cert.KernelIdeal.Gen.tbl

/-- One tile, for any contents of the three arrays: the payload of the tile's blocks (the bias block read at the label's
    row) is tile `t` of `Gpad` of the arrays and the table. -/
theorem tile_eq (hO : Ok m) (t : Fin (cfgM m hO).N) (A0 : Vec Ideal S73728x1024 .bf16) (A1 : Vec Ideal S8x1024x1024 .bf16)
    (A2 : Vec Ideal S8x1024 .f32) (hw : k0_chk1 (lbl m t)) :
    k0_pay1 (F := Ideal) ((((cfgM m hO).win 0).blk t).view.read (Elt Ideal) A0) ((((cfgM m hO).win 1).blk t).view.read (Elt Ideal) A1)
        (View.ld ((((cfgM m hO).win 2).blk t).view.read (Elt Ideal) A2)
          (Rect.unit (s := S8x1024) (k0_off2 (lbl m t)) S1x1024.size (k0_off2_inb (lbl m t) hw)))
      = (((cfgM m hO).win 3).blk t).view.read (Elt Ideal) (Gpad A0 A1 A2 (tbl m 0)) := by
  have ht : t.val < 72 := t.isLt
  have hl : (lbl m t).toNat < 8 := lbl_lt m t
  have hle : (lbl m t).toNat = ((tbl m 0 : IVec S72 32) (Shape.Idx.ofFin (⟨t.val, ht⟩ : Fin 72))).toNat :=
    congrArg BitVec.toNat (lbl_eq m t)
  have hl' : ((tbl m 0 : IVec S72 32) (Shape.Idx.ofFin (⟨t.val, ht⟩ : Fin 72))).toNat < 8 := by rw [← hle]; exact hl
  refine ext_ix2 _ _ fun p q => ?_
  have hp : t.val * 1024 + p.val < 73728 := by have := p.isLt; omega
  refine Eq.trans ?_ (blk3_read m hO t (Gpad A0 A1 A2 (tbl m 0)) (ix2 p q) hp).symm
  refine Cert.KernelIdeal.BlockAlgebra.block_eq A0 A1 A2 (tbl m 0) ⟨t.val, ht⟩ hl'
    ((((cfgM m hO).win 0).blk t).view.read (Elt Ideal) A0) ((((cfgM m hO).win 1).blk t).view.read (Elt Ideal) A1)
    (View.ld ((((cfgM m hO).win 2).blk t).view.read (Elt Ideal) A2)
      (Rect.unit (s := S8x1024) (k0_off2 (lbl m t)) S1x1024.size (k0_off2_inb (lbl m t) hw))) ?_ ?_ ?_ p q hp
  · intro p' k h'
    exact blk0_read m hO t A0 (ix2 p' k) h'
  · intro k q'
    have h0 : (lbl m t).toNat + ((ix3 (0 : Fin 1) k q' : S1x1024x1024.Idx) 0).val < 8 := by
      show (lbl m t).toNat + 0 < 8; omega
    refine (blk1_read m hO t A1 (ix3 (0 : Fin 1) k q') h0).trans ?_
    refine congrArg A1 ?_
    funext a
    match a with
    | ⟨0, _⟩ => exact Fin.ext (by show (lbl m t).toNat + 0 = _; rw [Nat.add_zero]; exact hle)
    | ⟨1, _⟩ => rfl
    | ⟨2, _⟩ => rfl
  · intro q'
    refine (bias_row ((((cfgM m hO).win 2).blk t).view.read (Elt Ideal) A2) (lbl m t) hw hl q').trans ?_
    refine (blk2_read m hO t A2 (ix2 ⟨(lbl m t).toNat, hl⟩ q')).trans ?_
    refine congrArg A2 ?_
    funext a
    match a with
    | ⟨0, _⟩ => exact Fin.ext hle
    | ⟨1, _⟩ => rfl

/-- WHAT TILE `t` WRITES BACK is tile `t` of `Gpad` of the arrays the region finds and the table. -/
theorem flushed_eq (hO : Ok m) (hH : Hyps m hO) (c : Dev nD) (t : Fin (cfgM m hO).N) :
    (dats m hO hH 0 c).flushed 3 t
      = (((cfgM m hO).win 3).blk t).view.read (Elt Ideal)
          (Gpad (V m c (Pipeline.arrRef spec0 0)) (V m c (Pipeline.arrRef spec0 1)) (V m c (Pipeline.arrRef spec0 2)) (tbl m 0)) := by
  show ((cfgM m hO).win 3).cut ((cfgM m hO).grid.coords t) ((dats m hO hH 0 c).after 3 t) = _
  rw [after0_3]
  exact (outs_eq m hO hH c t).trans
    (tile_eq m hO t (V m c (Pipeline.arrRef spec0 0)) (V m c (Pipeline.arrRef spec0 1)) (V m c (Pipeline.arrRef spec0 2)) (Hyps.c0 hH c t))

/-- THE PADDED OUTPUT after the run: `Gpad` of the arrays the region finds and the table, everywhere. -/
theorem final (hO : Ok m) (hH : Hyps m hO) (c : Dev nD) :
    (dats m hO hH 0 c).arrAt 3 (cfgM m hO).N
      = Gpad (V m c (Pipeline.arrRef spec0 0)) (V m c (Pipeline.arrRef spec0 1)) (V m c (Pipeline.arrRef spec0 2)) (tbl m 0) :=
  (dats m hO hH 0 c).arrAt_eq_of_cover 3 _ (fun t _ => flushed_eq m hO hH c t) (cover3 m hO)

/-- The program's result buffer after the lines that follow the region: the rows of the padded output at the slot
    table's entries (wrapped as an index, then clamped by the gather). -/
theorem tail_eq (hO : Ok m) (hH : Hyps m hO) (c : Dev nD) :
    (Pipeline.afterTail pcfgs (fun _ => adm m hO) (dats m hO hH) 0 (V0 m) [hostOps1] c main_v91 : S65536x1024.Idx → EReal)
      = Host.gather gather_S73728x1024_S65536x1_S65536x1024_1_0_n_n_0_1_11024
          ((dats m hO hH 0 c).arrAt 3 (cfgM m hO).N)
          (Stages.col65536 (Stages.wrap65536 73728#32 (V m c main_v52 : IVec S65536 32))) := by
  have h84 : (Pipeline.withArrays (Pipeline.pin pcfgs (fun _ => adm m hO) 0).spec c (V0 m c)
        (fun w => (dats m hO hH 0 c).arrAt w (Pipeline.pin pcfgs (fun _ => adm m hO) 0).N) (Proc.devRef .tc main_v84)
        : S73728x1024.Idx → EReal) = (dats m hO hH 0 c).arrAt 3 (cfgM m hO).N :=
    Pipeline.withArrays_arr spec0 (launch0 (F := Ideal)).win.arr_inj c _ _ 3
  have h52 : (Pipeline.withArrays (Pipeline.pin pcfgs (fun _ => adm m hO) 0).spec c (V0 m c)
        (fun w => (dats m hO hH 0 c).arrAt w (Pipeline.pin pcfgs (fun _ => adm m hO) 0).N) (Proc.devRef .tc main_v52)
        : IVec S65536 32) = (V m c main_v52 : IVec S65536 32) :=
    Pipeline.withArrays_of_ne _ c (V0 m c) _ main_v52 (by exact (by decide : ∀ w, Pipeline.arrRef spec0 w ≠ main_v52))
  unfold Pipeline.afterTail
  simp only [hostOps1, List.flatten_cons, List.flatten_nil, List.append_nil]
  after_results
  exact congrArg₂ (fun (A : S73728x1024.Idx → EReal) (I : IVec S65536 32) =>
    Host.gather gather_S73728x1024_S65536x1_S65536x1024_1_0_n_n_0_1_11024 A (Stages.col65536 (Stages.wrap65536 73728#32 I))) h84 h52

/-- THE RUN, READ: every weakly fair execution ends with the result buffer at the gathered rows of `Gpad`, and the
    arguments as launched. -/
theorem run (hO : Ok m) (hH : Hyps m hO) :
    θ_run defs (onTc (τ := τ) (main (F := Ideal))) ⟨m, fun _ => 0, ρ⟩ (fun r => ∀ c : Dev nD,
      r.2.mem ((c.tc : Thread nD τ).loc main_v91)
          = Host.gather gather_S73728x1024_S65536x1_S65536x1024_1_0_n_n_0_1_11024
              (Gpad (V m c (Pipeline.arrRef spec0 0)) (V m c (Pipeline.arrRef spec0 1)) (V m c (Pipeline.arrRef spec0 2)) (tbl m 0))
              (Stages.col65536 (Stages.wrap65536 73728#32 (V m c main_v52 : IVec S65536 32)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v91 (by decide : main_v91 ∈ Pipeline.restRefs sig spec0)).trans
        ((tail_eq m hO hH c).trans
          (congrArg (fun A => Host.gather gather_S73728x1024_S65536x1_S65536x1024_1_0_n_n_0_1_11024 A
            (Stages.col65536 (Stages.wrap65536 73728#32 (V m c main_v52 : IVec S65536 32)))) (final m hO hH c))),
      ((h c).2 main_arg0 (by decide : main_arg0 ∈ Pipeline.restRefs sig spec0)).trans (W_main_arg0 m hO (dats m hO hH) c),
      ((h c).2 main_arg1 (by decide : main_arg1 ∈ Pipeline.restRefs sig spec0)).trans (W_main_arg1 m hO (dats m hO hH) c),
      ((h c).2 main_arg2 (by decide : main_arg2 ∈ Pipeline.restRefs sig spec0)).trans (W_main_arg2 m hO (dats m hO hH) c),
      ((h c).1 2).trans ((((dats m hO hH) 0 c).arrAt_in 2 rfl _).trans ((A_eq m hO hH c 2).trans (V_main_arg3 m c)))⟩)
    (run_main m ρ hO hH)

end Cert.KernelIdeal.RegionValue

end
-- ==== Proof.RefValue.lean ====
/-
  The reference computes the routed linear layer. It starts from zeros and, module by module, overwrites the rows
  whose id equals the module with that module's affine map of the row. A row whose id is `e` in range is written
  exactly once, by module `e`, and later modules leave it alone; so the result is the specification's function.
-/
import proofs.«424534_j25864293056980_3_alg».proof.Proof.Gen.ReferenceIdeal.Read
import proofs.«424534_j25864293056980_3_alg».proof.Proof.Spec
import Mathlib.Tactic.IntervalCases

noncomputable section

namespace Cert.ReferenceIdeal.RefValue

open Idealize.ShloMosaic Idealize.ShloMosaic.ValueIdx Cert.ReferenceIdeal Cert.ReferenceIdeal.Gen

/-! ## Indices by coordinates -/

/-- A rank-2 index is known by its two coordinates. -/
theorem idx2_eq {n0 n1 : Nat} (a : Fin n0) (b : Fin n1) (j : (⟨2, ![n0, n1]⟩ : Shape).Idx)
    (h0 : (j 0).val = a.val) (h1 : (j 1).val = b.val) : j = ix2 a b := by
  funext d
  match d with
  | ⟨0, _⟩ => exact Fin.ext h0
  | ⟨1, _⟩ => exact Fin.ext h1

/-- A weight index whose last two coordinates are the quotient and the remainder of `k * 1024 + q` by 1024 is the
    index `(e, k, q)`: flattening a `1024 × 1024` matrix and unflattening it again is the identity. -/
theorem wIdx_eq (e : Fin 8) (k q : Fin 1024) (j : (⟨3, ![8, 1024, 1024]⟩ : Shape).Idx) (h0 : (j 0).val = e.val)
    (h1 : (j 1).val = (k.val * 1024 + q.val) / 1024 % 1024) (h2 : (j 2).val = (k.val * 1024 + q.val) % 1024) :
    j = ix3 e k q := by
  have hk : k.val < 1024 := k.isLt
  have hq : q.val < 1024 := q.isLt
  have e1 : (k.val * 1024 + q.val) / 1024 % 1024 = k.val := by omega
  have e2 : (k.val * 1024 + q.val) % 1024 = q.val := by omega
  funext d
  match d with
  | ⟨0, _⟩ => exact Fin.ext h0
  | ⟨1, _⟩ => exact Fin.ext (h1.trans e1)
  | ⟨2, _⟩ => exact Fin.ext (h2.trans e2)

/-- A bias index whose column is `q` reduced modulo 1024 is the index `(e, q)`. -/
theorem bIdx_eq (e : Fin 8) (q : Fin 1024) (j : (⟨2, ![8, 1024]⟩ : Shape).Idx) (h0 : (j 0).val = e.val)
    (h1 : (j 1).val = q.val % 1024) : j = ix2 e q :=
  idx2_eq e q j h0 (h1.trans (Nat.mod_eq_of_lt q.isLt))

/-- A rank-1 index is known by its coordinate. -/
theorem idx1_eq {n : Nat} (p : Fin n) (j : (⟨1, ![n]⟩ : Shape).Idx) (h0 : (j 0).val = p.val) :
    j = Shape.Idx.ofFin p := by
  rw [Shape.Idx.eq_ofFin j]
  exact congrArg Shape.Idx.ofFin (Fin.ext h0)

/-! ## A select on an equality test -/

/-- Selecting on the bit of an equality test is the `if` on the equality. -/
theorem select_cmpi_eq {α : Type} (w c : BitVec 32) (a b : α) :
    Scalar.select (IntOp.cmpi .eq w c) a b = if w = c then a else b := by
  by_cases h : w = c
  · have hb : (w == c) = true := beq_iff_eq.mpr h
    have hc : IntOp.cmpi .eq w c = 1#1 := by
      show BitVec.ofBool (w == c) = 1#1
      rw [hb]; rfl
    rw [hc, select_one, if_pos h]
  · have hb : (w == c) = false := beq_eq_false_iff_ne.mpr h
    have hc : IntOp.cmpi .eq w c = 0#1 := by
      show BitVec.ofBool (w == c) = 0#1
      rw [hb]; rfl
    rw [hc, select_zero, if_neg h]

/-! ## The modules' affine maps at an index

Module `e` multiplies the features by the `e`-th weight matrix (sliced out and reshaped) and adds the `e`-th bias row
(sliced out, reshaped and broadcast down the rows): at `(p, q)` this is `Σ_k x[p, k] · W[e, k, q] + b[e, q]`. -/

theorem y0 (x0 : S65536x1024.Idx → EReal) (x2 : S8x1024x1024.Idx → EReal) (x3 : S8x1024.Idx → EReal)
    (p : Fin 65536) (q : Fin 1024) :
    Read.val_main_v8 (F := Ideal) x0 x2 x3 (ix2 p q)
      = (∑ k : Fin 1024, x0 (ix2 p k) * x2 (ix3 (⟨0, by decide⟩ : Fin 8) k q)) + x3 (ix2 (⟨0, by decide⟩ : Fin 8) q) := by
  rw [Read.val_main_v8_apply, Read.val_main_v3_apply, Read.val_main_v7_apply, Read.val_main_v6_apply,
    Read.val_main_v5_apply, Read.val_main_v4_apply, Ideal.addf_def]
  have hb : Read.idx_main_v4 (Read.idx_main_v5 (Read.idx_main_v6 (Read.idx_main_v7 (ix2 p q))))
      = ix2 (⟨0, by decide⟩ : Fin 8) q := bIdx_eq _ q _ rfl rfl
  rw [hb]
  congr 1
  refine Finset.sum_congr rfl fun k _ => ?_
  have hl : Read.lidx_main_v3 (ix2 p q) k = ix2 p k := idx2_eq p k _ rfl rfl
  have hw : Read.idx_main_v1 (Read.idx_main_v2 (Read.ridx_main_v3 (ix2 p q) k))
      = ix3 (⟨0, by decide⟩ : Fin 8) k q := wIdx_eq _ k q _ rfl rfl rfl
  rw [Read.val_main_v2_apply, Read.val_main_v1_apply, hl, hw]

theorem y1 (x0 : S65536x1024.Idx → EReal) (x2 : S8x1024x1024.Idx → EReal) (x3 : S8x1024.Idx → EReal)
    (p : Fin 65536) (q : Fin 1024) :
    Read.val_main_v20 (F := Ideal) x0 x2 x3 (ix2 p q)
      = (∑ k : Fin 1024, x0 (ix2 p k) * x2 (ix3 (⟨1, by decide⟩ : Fin 8) k q)) + x3 (ix2 (⟨1, by decide⟩ : Fin 8) q) := by
  rw [Read.val_main_v20_apply, Read.val_main_v15_apply, Read.val_main_v19_apply, Read.val_main_v18_apply,
    Read.val_main_v17_apply, Read.val_main_v16_apply, Ideal.addf_def]
  have hb : Read.idx_main_v16 (Read.idx_main_v17 (Read.idx_main_v18 (Read.idx_main_v19 (ix2 p q))))
      = ix2 (⟨1, by decide⟩ : Fin 8) q := bIdx_eq _ q _ rfl rfl
  rw [hb]
  congr 1
  refine Finset.sum_congr rfl fun k _ => ?_
  have hl : Read.lidx_main_v15 (ix2 p q) k = ix2 p k := idx2_eq p k _ rfl rfl
  have hw : Read.idx_main_v13 (Read.idx_main_v14 (Read.ridx_main_v15 (ix2 p q) k))
      = ix3 (⟨1, by decide⟩ : Fin 8) k q := wIdx_eq _ k q _ rfl rfl rfl
  rw [Read.val_main_v14_apply, Read.val_main_v13_apply, hl, hw]

theorem y2 (x0 : S65536x1024.Idx → EReal) (x2 : S8x1024x1024.Idx → EReal) (x3 : S8x1024.Idx → EReal)
    (p : Fin 65536) (q : Fin 1024) :
    Read.val_main_v32 (F := Ideal) x0 x2 x3 (ix2 p q)
      = (∑ k : Fin 1024, x0 (ix2 p k) * x2 (ix3 (⟨2, by decide⟩ : Fin 8) k q)) + x3 (ix2 (⟨2, by decide⟩ : Fin 8) q) := by
  rw [Read.val_main_v32_apply, Read.val_main_v27_apply, Read.val_main_v31_apply, Read.val_main_v30_apply,
    Read.val_main_v29_apply, Read.val_main_v28_apply, Ideal.addf_def]
  have hb : Read.idx_main_v28 (Read.idx_main_v29 (Read.idx_main_v30 (Read.idx_main_v31 (ix2 p q))))
      = ix2 (⟨2, by decide⟩ : Fin 8) q := bIdx_eq _ q _ rfl rfl
  rw [hb]
  congr 1
  refine Finset.sum_congr rfl fun k _ => ?_
  have hl : Read.lidx_main_v27 (ix2 p q) k = ix2 p k := idx2_eq p k _ rfl rfl
  have hw : Read.idx_main_v25 (Read.idx_main_v26 (Read.ridx_main_v27 (ix2 p q) k))
      = ix3 (⟨2, by decide⟩ : Fin 8) k q := wIdx_eq _ k q _ rfl rfl rfl
  rw [Read.val_main_v26_apply, Read.val_main_v25_apply, hl, hw]

theorem y3 (x0 : S65536x1024.Idx → EReal) (x2 : S8x1024x1024.Idx → EReal) (x3 : S8x1024.Idx → EReal)
    (p : Fin 65536) (q : Fin 1024) :
    Read.val_main_v44 (F := Ideal) x0 x2 x3 (ix2 p q)
      = (∑ k : Fin 1024, x0 (ix2 p k) * x2 (ix3 (⟨3, by decide⟩ : Fin 8) k q)) + x3 (ix2 (⟨3, by decide⟩ : Fin 8) q) := by
  rw [Read.val_main_v44_apply, Read.val_main_v39_apply, Read.val_main_v43_apply, Read.val_main_v42_apply,
    Read.val_main_v41_apply, Read.val_main_v40_apply, Ideal.addf_def]
  have hb : Read.idx_main_v40 (Read.idx_main_v41 (Read.idx_main_v42 (Read.idx_main_v43 (ix2 p q))))
      = ix2 (⟨3, by decide⟩ : Fin 8) q := bIdx_eq _ q _ rfl rfl
  rw [hb]
  congr 1
  refine Finset.sum_congr rfl fun k _ => ?_
  have hl : Read.lidx_main_v39 (ix2 p q) k = ix2 p k := idx2_eq p k _ rfl rfl
  have hw : Read.idx_main_v37 (Read.idx_main_v38 (Read.ridx_main_v39 (ix2 p q) k))
      = ix3 (⟨3, by decide⟩ : Fin 8) k q := wIdx_eq _ k q _ rfl rfl rfl
  rw [Read.val_main_v38_apply, Read.val_main_v37_apply, hl, hw]

theorem y4 (x0 : S65536x1024.Idx → EReal) (x2 : S8x1024x1024.Idx → EReal) (x3 : S8x1024.Idx → EReal)
    (p : Fin 65536) (q : Fin 1024) :
    Read.val_main_v56 (F := Ideal) x0 x2 x3 (ix2 p q)
      = (∑ k : Fin 1024, x0 (ix2 p k) * x2 (ix3 (⟨4, by decide⟩ : Fin 8) k q)) + x3 (ix2 (⟨4, by decide⟩ : Fin 8) q) := by
  rw [Read.val_main_v56_apply, Read.val_main_v51_apply, Read.val_main_v55_apply, Read.val_main_v54_apply,
    Read.val_main_v53_apply, Read.val_main_v52_apply, Ideal.addf_def]
  have hb : Read.idx_main_v52 (Read.idx_main_v53 (Read.idx_main_v54 (Read.idx_main_v55 (ix2 p q))))
      = ix2 (⟨4, by decide⟩ : Fin 8) q := bIdx_eq _ q _ rfl rfl
  rw [hb]
  congr 1
  refine Finset.sum_congr rfl fun k _ => ?_
  have hl : Read.lidx_main_v51 (ix2 p q) k = ix2 p k := idx2_eq p k _ rfl rfl
  have hw : Read.idx_main_v49 (Read.idx_main_v50 (Read.ridx_main_v51 (ix2 p q) k))
      = ix3 (⟨4, by decide⟩ : Fin 8) k q := wIdx_eq _ k q _ rfl rfl rfl
  rw [Read.val_main_v50_apply, Read.val_main_v49_apply, hl, hw]

theorem y5 (x0 : S65536x1024.Idx → EReal) (x2 : S8x1024x1024.Idx → EReal) (x3 : S8x1024.Idx → EReal)
    (p : Fin 65536) (q : Fin 1024) :
    Read.val_main_v68 (F := Ideal) x0 x2 x3 (ix2 p q)
      = (∑ k : Fin 1024, x0 (ix2 p k) * x2 (ix3 (⟨5, by decide⟩ : Fin 8) k q)) + x3 (ix2 (⟨5, by decide⟩ : Fin 8) q) := by
  rw [Read.val_main_v68_apply, Read.val_main_v63_apply, Read.val_main_v67_apply, Read.val_main_v66_apply,
    Read.val_main_v65_apply, Read.val_main_v64_apply, Ideal.addf_def]
  have hb : Read.idx_main_v64 (Read.idx_main_v65 (Read.idx_main_v66 (Read.idx_main_v67 (ix2 p q))))
      = ix2 (⟨5, by decide⟩ : Fin 8) q := bIdx_eq _ q _ rfl rfl
  rw [hb]
  congr 1
  refine Finset.sum_congr rfl fun k _ => ?_
  have hl : Read.lidx_main_v63 (ix2 p q) k = ix2 p k := idx2_eq p k _ rfl rfl
  have hw : Read.idx_main_v61 (Read.idx_main_v62 (Read.ridx_main_v63 (ix2 p q) k))
      = ix3 (⟨5, by decide⟩ : Fin 8) k q := wIdx_eq _ k q _ rfl rfl rfl
  rw [Read.val_main_v62_apply, Read.val_main_v61_apply, hl, hw]

theorem y6 (x0 : S65536x1024.Idx → EReal) (x2 : S8x1024x1024.Idx → EReal) (x3 : S8x1024.Idx → EReal)
    (p : Fin 65536) (q : Fin 1024) :
    Read.val_main_v80 (F := Ideal) x0 x2 x3 (ix2 p q)
      = (∑ k : Fin 1024, x0 (ix2 p k) * x2 (ix3 (⟨6, by decide⟩ : Fin 8) k q)) + x3 (ix2 (⟨6, by decide⟩ : Fin 8) q) := by
  rw [Read.val_main_v80_apply, Read.val_main_v75_apply, Read.val_main_v79_apply, Read.val_main_v78_apply,
    Read.val_main_v77_apply, Read.val_main_v76_apply, Ideal.addf_def]
  have hb : Read.idx_main_v76 (Read.idx_main_v77 (Read.idx_main_v78 (Read.idx_main_v79 (ix2 p q))))
      = ix2 (⟨6, by decide⟩ : Fin 8) q := bIdx_eq _ q _ rfl rfl
  rw [hb]
  congr 1
  refine Finset.sum_congr rfl fun k _ => ?_
  have hl : Read.lidx_main_v75 (ix2 p q) k = ix2 p k := idx2_eq p k _ rfl rfl
  have hw : Read.idx_main_v73 (Read.idx_main_v74 (Read.ridx_main_v75 (ix2 p q) k))
      = ix3 (⟨6, by decide⟩ : Fin 8) k q := wIdx_eq _ k q _ rfl rfl rfl
  rw [Read.val_main_v74_apply, Read.val_main_v73_apply, hl, hw]

theorem y7 (x0 : S65536x1024.Idx → EReal) (x2 : S8x1024x1024.Idx → EReal) (x3 : S8x1024.Idx → EReal)
    (p : Fin 65536) (q : Fin 1024) :
    Read.val_main_v92 (F := Ideal) x0 x2 x3 (ix2 p q)
      = (∑ k : Fin 1024, x0 (ix2 p k) * x2 (ix3 (⟨7, by decide⟩ : Fin 8) k q)) + x3 (ix2 (⟨7, by decide⟩ : Fin 8) q) := by
  rw [Read.val_main_v92_apply, Read.val_main_v87_apply, Read.val_main_v91_apply, Read.val_main_v90_apply,
    Read.val_main_v89_apply, Read.val_main_v88_apply, Ideal.addf_def]
  have hb : Read.idx_main_v88 (Read.idx_main_v89 (Read.idx_main_v90 (Read.idx_main_v91 (ix2 p q))))
      = ix2 (⟨7, by decide⟩ : Fin 8) q := bIdx_eq _ q _ rfl rfl
  rw [hb]
  congr 1
  refine Finset.sum_congr rfl fun k _ => ?_
  have hl : Read.lidx_main_v87 (ix2 p q) k = ix2 p k := idx2_eq p k _ rfl rfl
  have hw : Read.idx_main_v85 (Read.idx_main_v86 (Read.ridx_main_v87 (ix2 p q) k))
      = ix3 (⟨7, by decide⟩ : Fin 8) k q := wIdx_eq _ k q _ rfl rfl rfl
  rw [Read.val_main_v86_apply, Read.val_main_v85_apply, hl, hw]

/-! ## The modules' masks at an index

The mask of module `e` at `(p, q)` is the test "row `p`'s id equals `e`", broadcast along the row. -/

theorem m0 (x1 : S65536.Idx → BitVec 32) (p : Fin 65536) (q : Fin 1024) :
    Read.val_main_call0_v0 (F := Ideal) x1 (ix2 p q) = IntOp.cmpi .eq (x1 (Shape.Idx.ofFin p)) 0#32 := by
  rw [Read.val_main_call0_v0_apply, Read.val_main_v11_apply, Read.val_main_v10_apply, Read.val_main_v9_apply,
    Read.val_main_c_apply]
  have hi : Read.idx_main_v11 (Read.idx_main_call0_v0 (ix2 p q)) = Shape.Idx.ofFin p := idx1_eq p _ rfl
  rw [hi]

theorem m1 (x1 : S65536.Idx → BitVec 32) (p : Fin 65536) (q : Fin 1024) :
    Read.val_main_call1_v0 (F := Ideal) x1 (ix2 p q) = IntOp.cmpi .eq (x1 (Shape.Idx.ofFin p)) 1#32 := by
  rw [Read.val_main_call1_v0_apply, Read.val_main_v23_apply, Read.val_main_v22_apply, Read.val_main_v21_apply,
    Read.val_main_c_0_apply]
  have hi : Read.idx_main_v23 (Read.idx_main_call1_v0 (ix2 p q)) = Shape.Idx.ofFin p := idx1_eq p _ rfl
  rw [hi]

theorem m2 (x1 : S65536.Idx → BitVec 32) (p : Fin 65536) (q : Fin 1024) :
    Read.val_main_call2_v0 (F := Ideal) x1 (ix2 p q) = IntOp.cmpi .eq (x1 (Shape.Idx.ofFin p)) 2#32 := by
  rw [Read.val_main_call2_v0_apply, Read.val_main_v35_apply, Read.val_main_v34_apply, Read.val_main_v33_apply,
    Read.val_main_c_1_apply]
  have hi : Read.idx_main_v35 (Read.idx_main_call2_v0 (ix2 p q)) = Shape.Idx.ofFin p := idx1_eq p _ rfl
  rw [hi]

theorem m3 (x1 : S65536.Idx → BitVec 32) (p : Fin 65536) (q : Fin 1024) :
    Read.val_main_call3_v0 (F := Ideal) x1 (ix2 p q) = IntOp.cmpi .eq (x1 (Shape.Idx.ofFin p)) 3#32 := by
  rw [Read.val_main_call3_v0_apply, Read.val_main_v47_apply, Read.val_main_v46_apply, Read.val_main_v45_apply,
    Read.val_main_c_2_apply]
  have hi : Read.idx_main_v47 (Read.idx_main_call3_v0 (ix2 p q)) = Shape.Idx.ofFin p := idx1_eq p _ rfl
  rw [hi]

theorem m4 (x1 : S65536.Idx → BitVec 32) (p : Fin 65536) (q : Fin 1024) :
    Read.val_main_call4_v0 (F := Ideal) x1 (ix2 p q) = IntOp.cmpi .eq (x1 (Shape.Idx.ofFin p)) 4#32 := by
  rw [Read.val_main_call4_v0_apply, Read.val_main_v59_apply, Read.val_main_v58_apply, Read.val_main_v57_apply,
    Read.val_main_c_3_apply]
  have hi : Read.idx_main_v59 (Read.idx_main_call4_v0 (ix2 p q)) = Shape.Idx.ofFin p := idx1_eq p _ rfl
  rw [hi]

theorem m5 (x1 : S65536.Idx → BitVec 32) (p : Fin 65536) (q : Fin 1024) :
    Read.val_main_call5_v0 (F := Ideal) x1 (ix2 p q) = IntOp.cmpi .eq (x1 (Shape.Idx.ofFin p)) 5#32 := by
  rw [Read.val_main_call5_v0_apply, Read.val_main_v71_apply, Read.val_main_v70_apply, Read.val_main_v69_apply,
    Read.val_main_c_4_apply]
  have hi : Read.idx_main_v71 (Read.idx_main_call5_v0 (ix2 p q)) = Shape.Idx.ofFin p := idx1_eq p _ rfl
  rw [hi]

theorem m6 (x1 : S65536.Idx → BitVec 32) (p : Fin 65536) (q : Fin 1024) :
    Read.val_main_call6_v0 (F := Ideal) x1 (ix2 p q) = IntOp.cmpi .eq (x1 (Shape.Idx.ofFin p)) 6#32 := by
  rw [Read.val_main_call6_v0_apply, Read.val_main_v83_apply, Read.val_main_v82_apply, Read.val_main_v81_apply,
    Read.val_main_c_5_apply]
  have hi : Read.idx_main_v83 (Read.idx_main_call6_v0 (ix2 p q)) = Shape.Idx.ofFin p := idx1_eq p _ rfl
  rw [hi]

theorem m7 (x1 : S65536.Idx → BitVec 32) (p : Fin 65536) (q : Fin 1024) :
    Read.val_main_call7_v0 (F := Ideal) x1 (ix2 p q) = IntOp.cmpi .eq (x1 (Shape.Idx.ofFin p)) 7#32 := by
  rw [Read.val_main_call7_v0_apply, Read.val_main_v95_apply, Read.val_main_v94_apply, Read.val_main_v93_apply,
    Read.val_main_c_6_apply]
  have hi : Read.idx_main_v95 (Read.idx_main_call7_v0 (ix2 p q)) = Shape.Idx.ofFin p := idx1_eq p _ rfl
  rw [hi]

/-! ## The reference is the routed linear layer -/

/-- For ids in range, the reference's result is the routed linear layer of its arguments. -/
theorem ref_eq (x0 : S65536x1024.Idx → EReal) (x1 : S65536.Idx → BitVec 32) (x2 : S8x1024x1024.Idx → EReal)
    (x3 : S8x1024.Idx → EReal) (hmid : ∀ i : Fin 65536, (x1 (Shape.Idx.ofFin i)).toNat < 8) :
    Cert.ReferenceIdeal.Read.val_main_v96 (F := Ideal) x0 x1 x2 x3 = Cert.Spec.G x0 x1 x2 x3 := by
  funext i
  obtain ⟨p, q, rfl⟩ : ∃ (p : Fin 65536) (q : Fin 1024), i = ix2 p q := ⟨i 0, i 1, eq_ix2 i⟩
  show _ = (∑ k : Fin 1024, x0 (ix2 p k) * x2 (ix3 (Cert.Spec.modOf x1 p) k q)) + x3 (ix2 (Cert.Spec.modOf x1 p) q)
  -- the result is the chain of eight selects, each on the test "the row's id is this module"
  rw [Read.val_main_v96_apply, Read.val_main_v84_apply, Read.val_main_v72_apply, Read.val_main_v60_apply,
    Read.val_main_v48_apply, Read.val_main_v36_apply, Read.val_main_v24_apply, Read.val_main_v12_apply,
    m7, m6, m5, m4, m3, m2, m1, m0, y7, y6, y5, y4, y3, y2, y1, y0]
  simp only [select_cmpi_eq]
  -- the id is one of 0, …, 7; it names the module, and as a word it is that literal
  have h8 : (x1 (Shape.Idx.ofFin p)).toNat < 8 := hmid p
  have hmod : ∀ (d : ℕ) (hd : d < 8), (x1 (Shape.Idx.ofFin p)).toNat = d → Cert.Spec.modOf x1 p = ⟨d, hd⟩ := by
    intro d hd h
    apply Fin.ext
    show (x1 (Shape.Idx.ofFin p)).toNat % 8 = d
    rw [h]
    exact Nat.mod_eq_of_lt hd
  have hword : ∀ d : ℕ, d < 8 → (x1 (Shape.Idx.ofFin p)).toNat = d → x1 (Shape.Idx.ofFin p) = BitVec.ofNat 32 d := by
    intro d hd h
    apply BitVec.eq_of_toNat_eq
    rw [h, BitVec.toNat_ofNat]
    exact (Nat.mod_eq_of_lt (by omega)).symm
  obtain ⟨d, hd⟩ : ∃ d, (x1 (Shape.Idx.ofFin p)).toNat = d := ⟨_, rfl⟩
  rw [hd] at h8
  -- in each case the later modules' tests fail, the id's own test holds, and the earlier modules are never reached
  interval_cases d
  · rw [hmod 0 (by decide) hd, hword 0 (by decide) hd, if_neg (by decide), if_neg (by decide), if_neg (by decide),
      if_neg (by decide), if_neg (by decide), if_neg (by decide), if_neg (by decide), if_pos rfl]
  · rw [hmod 1 (by decide) hd, hword 1 (by decide) hd, if_neg (by decide), if_neg (by decide), if_neg (by decide),
      if_neg (by decide), if_neg (by decide), if_neg (by decide), if_pos rfl]
  · rw [hmod 2 (by decide) hd, hword 2 (by decide) hd, if_neg (by decide), if_neg (by decide), if_neg (by decide),
      if_neg (by decide), if_neg (by decide), if_pos rfl]
  · rw [hmod 3 (by decide) hd, hword 3 (by decide) hd, if_neg (by decide), if_neg (by decide), if_neg (by decide),
      if_neg (by decide), if_pos rfl]
  · rw [hmod 4 (by decide) hd, hword 4 (by decide) hd, if_neg (by decide), if_neg (by decide), if_neg (by decide),
      if_pos rfl]
  · rw [hmod 5 (by decide) hd, hword 5 (by decide) hd, if_neg (by decide), if_neg (by decide), if_pos rfl]
  · rw [hmod 6 (by decide) hd, hword 6 (by decide) hd, if_neg (by decide), if_pos rfl]
  · rw [hmod 7 (by decide) hd, hword 7 (by decide) hd, if_pos rfl]

end Cert.ReferenceIdeal.RefValue

end
-- ==== Proof.lean ====
/-
  A routed linear layer against its dense reference, over the extended reals.

  The reference starts from zeros and, for each of the eight modules in turn, overwrites the rows whose id is that module
  with the module's affine map of the row. The kernel clamps the ids into range, sorts the rows by id, pads every
  module's group of rows to whole tiles of 1024, runs one grouped matrix product over the padded rows — each tile
  through the module its label names — and gathers the rows back. For ids in range (the precondition) both compute
      out[i, j] = Σ_k x[i, k] · W[id_i, k, j] + b[id_i, j]:
  the reference because exactly one module writes each row; the kernel because the sort is a permutation whose padded
  slots are pairwise distinct, so the slot of row `i` points back at `i`, and lies in a tile labelled `id_i`. Narrowing
  the features and weights to a shorter float format changes nothing on the extended reals, and no law beyond the
  equality of the two sums is used: the float inputs' finiteness is not needed.

  The three frames: the two kernel programs run under a side condition on the tile labels (each names one of the eight
  modules), which holds for every input because a label is a count capped at 7; the reference's frame is its run.
-/
import proofs.«424534_j25864293056980_3_alg».proof.Defs
import proofs.«424534_j25864293056980_3_alg».proof.Proof.Gen.Kernel
import proofs.«424534_j25864293056980_3_alg».proof.Proof.Gen.Kernel.Frame
import proofs.«424534_j25864293056980_3_alg».proof.Proof.Gen.KernelIdeal
import proofs.«424534_j25864293056980_3_alg».proof.Proof.Gen.KernelIdeal.Frame
import proofs.«424534_j25864293056980_3_alg».proof.Proof.Gen.ReferenceIdeal
import proofs.«424534_j25864293056980_3_alg».proof.Proof.Gen.ReferenceIdeal.Run
import proofs.«424534_j25864293056980_3_alg».proof.Proof.Gen.ReferenceIdeal.Read
import proofs.«424534_j25864293056980_3_alg».proof.Proof.Gen.Pre_finite_inputs
import proofs.«424534_j25864293056980_3_alg».proof.Proof.TableOk
import proofs.«424534_j25864293056980_3_alg».proof.Proof.TableOkKernel
import proofs.«424534_j25864293056980_3_alg».proof.Proof.PreRange
import proofs.«424534_j25864293056980_3_alg».proof.Proof.HostRead
import proofs.«424534_j25864293056980_3_alg».proof.Proof.RoutingProof
import proofs.«424534_j25864293056980_3_alg».proof.Proof.KernelAlgebra
import proofs.«424534_j25864293056980_3_alg».proof.Proof.RegionValue
import proofs.«424534_j25864293056980_3_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs: its tile labels name modules, whatever the input. -/
theorem frame_k : Cert.frame_Kernel (hKernel := Cert.Kernel.Gen.facts) (hPre_finite_inputs := Cert.Pre_finite_inputs.Gen.facts) := fun m ρ _ =>
  Cert.Kernel.Gen.frame m ρ (Cert.Kernel.TableOk.ok m) (Cert.Kernel.TableOk.hyps m _)

/-- So does the idealized kernel. -/
theorem frame_ki : Cert.frame_KernelIdeal (hKernelIdeal := Cert.KernelIdeal.Gen.facts) (hPre_finite_inputs := Cert.Pre_finite_inputs.Gen.facts) := fun m ρ _ =>
  Cert.KernelIdeal.Gen.frame m ρ (Cert.KernelIdeal.TableOk.ok m) (Cert.KernelIdeal.TableOk.hyps m _)

/-- The reference's frame is its run with the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both programs end at the routed linear layer of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  -- the ids are in range, on every device
  have hmid : ∀ (c : Dev Cert.KernelIdeal.nD) (i : Fin 65536),
      ((m ((c.tc : Thread Cert.KernelIdeal.nD Cert.KernelIdeal.τ).loc Cert.KernelIdeal.main_arg1) : IVec Cert.KernelIdeal.S65536 32)
        (Shape.Idx.ofFin i)).toNat < 8 := fun c i =>
    Cert.Pre_finite_inputs.Range.mid_lt (F := Ideal) _ _ _ _ (hpre c) i
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · -- the kernel: the gathered rows of the padded output, with the tables read off the arguments
    refine (θ_run Cert.KernelIdeal.defs _ _).mono (fun r h c => ⟨(h c).1.trans ?_, (h c).2⟩)
      (Cert.KernelIdeal.RegionValue.run m ρ (Cert.KernelIdeal.TableOk.ok m) (Cert.KernelIdeal.TableOk.hyps m _))
    obtain rfl : c = 0 := Subsingleton.elim _ _
    have e0 : Cert.KernelIdeal.Gen.V m 0 (Pipeline.arrRef Cert.KernelIdeal.spec0 0) = Cert.KernelIdeal.Gen.V m 0 Cert.KernelIdeal.main_v82 := rfl
    have e1 : Cert.KernelIdeal.Gen.V m 0 (Pipeline.arrRef Cert.KernelIdeal.spec0 1) = Cert.KernelIdeal.Gen.V m 0 Cert.KernelIdeal.main_v83 := rfl
    have e2 : Cert.KernelIdeal.Gen.V m 0 (Pipeline.arrRef Cert.KernelIdeal.spec0 2) = Cert.KernelIdeal.Gen.V m 0 Cert.KernelIdeal.main_arg3 := rfl
    have et : (Cert.KernelIdeal.Gen.tbl m 0 : IVec Cert.KernelIdeal.S72 32) = Cert.KernelIdeal.Gen.V m 0 Cert.KernelIdeal.main_v64 := rfl
    rw [e0, e1, e2, et, Cert.KernelIdeal.HostRead.xin_eq, Cert.KernelIdeal.HostRead.wbf_eq, Cert.KernelIdeal.HostRead.eid_eq,
      Cert.KernelIdeal.HostRead.dest_eq, Cert.KernelIdeal.Gen.V_main_arg0, Cert.KernelIdeal.Gen.V_main_arg1,
      Cert.KernelIdeal.Gen.V_main_arg2, Cert.KernelIdeal.Gen.V_main_arg3]
    exact Cert.KernelIdeal.KernelAlgebra.out_eq _ _ _ _ (hmid 0)
      (Cert.KernelIdeal.RoutingProof.routing _ (hmid 0))
  · -- the reference: exactly one module writes each row
    refine (θ_run Cert.ReferenceIdeal.defs _ _).mono (fun _ h c => ⟨?_, (h c).2⟩)
      (Cert.ReferenceIdeal.Value.run (F := Ideal) m' ρ')
    rw [(h c).1, Cert.ReferenceIdeal.Read.val_main_v96_eq, (hagree c).1, (hagree c).2.1, (hagree c).2.2.1, (hagree c).2.2.2]
    exact Cert.ReferenceIdeal.RefValue.ref_eq _ _ _ _ (hmid c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
